-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x3 : Shape := ⟨2, ![16384, 3]⟩
abbrev S16384 : Shape := ⟨1, ![16384]⟩
abbrev S_ : Shape := ⟨0, ![]⟩

class Facts : Prop where
  bcast_S_S16384x3 : S_.BroadcastsInDim S16384x3 (![] : Fin 0 → Fin S16384x3.rank)
  reducesTo_S16384x3_S_d0_1 : S16384x3.ReducesTo [0, 1] S_
  h_S_ : 0 < S_.numel
  bcast_S_S16384 : S_.BroadcastsInDim S16384 (![] : Fin 0 → Fin S16384.rank)
  reducesTo_S16384_S_d0 : S16384.ReducesTo [0] S_

variable [Facts]

def fn_part1 {F : FTy → Type} [FloatOps F] (main_v13 : IVec S_ 1) (main_v16 : IVec S16384 1) : IVec S_ 1 :=
  let main_c_5 : IVec S_ 1 := constantI S_ 1 1#1
  let main_v17 : IVec S_ 1 := (fun x v => Host.reduce IntOp.andi x v reducesTo_S16384_S_d0 h_S_) main_v16 main_c_5
  let main_v18 : IVec S_ 1 := andi main_v13 main_v17
  main_v18

def fn {F : FTy → Type} [FloatOps F] (main_arg0 : FVec F S16384x3 .f32) (main_arg1 : FVec F S16384x3 .f32) (main_arg2 : FVec F S16384 .f32) (main_arg3 : FVec F S16384 .f32) : IVec S_ 1 :=
  let main_v0 : FVec F S16384x3 .f32 := Host.absf main_arg0
  let main_cst : FVec F S_ .f32 := constant S_ .f32 0x7F800000#32
  let main_v1 : FVec F S16384x3 .f32 := broadcastInDim S16384x3 ![] bcast_S_S16384x3 main_cst
  let main_v2 : IVec S16384x3 1 := cmpf .olt main_v0 main_v1
  let main_c : IVec S_ 1 := constantI S_ 1 1#1
  let main_v3 : IVec S_ 1 := (fun x v => Host.reduce IntOp.andi x v reducesTo_S16384x3_S_d0_1 h_S_) main_v2 main_c
  let main_v4 : FVec F S16384x3 .f32 := Host.absf main_arg1
  let main_cst_0 : FVec F S_ .f32 := constant S_ .f32 0x7F800000#32
  let main_v5 : FVec F S16384x3 .f32 := broadcastInDim S16384x3 ![] bcast_S_S16384x3 main_cst_0
  let main_v6 : IVec S16384x3 1 := cmpf .olt main_v4 main_v5
  let main_c_1 : IVec S_ 1 := constantI S_ 1 1#1
  let main_v7 : IVec S_ 1 := (fun x v => Host.reduce IntOp.andi x v reducesTo_S16384x3_S_d0_1 h_S_) main_v6 main_c_1
  let main_v8 : IVec S_ 1 := andi main_v3 main_v7
  let main_v9 : FVec F S16384 .f32 := Host.absf main_arg2
  let main_cst_2 : FVec F S_ .f32 := constant S_ .f32 0x7F800000#32
  let main_v10 : FVec F S16384 .f32 := broadcastInDim S16384 ![] bcast_S_S16384 main_cst_2
  let main_v11 : IVec S16384 1 := cmpf .olt main_v9 main_v10
  let main_c_3 : IVec S_ 1 := constantI S_ 1 1#1
  let main_v12 : IVec S_ 1 := (fun x v => Host.reduce IntOp.andi x v reducesTo_S16384_S_d0 h_S_) main_v11 main_c_3
  let main_v13 : IVec S_ 1 := andi main_v8 main_v12
  let main_v14 : FVec F S16384 .f32 := Host.absf main_arg3
  let main_cst_4 : FVec F S_ .f32 := constant S_ .f32 0x7F800000#32
  let main_v15 : FVec F S16384 .f32 := broadcastInDim S16384 ![] bcast_S_S16384 main_cst_4
  let main_v16 : IVec S16384 1 := cmpf .olt main_v14 main_v15
  fn_part1 (F := F) main_v13 main_v16
-- ==== Kernel.lean ====
abbrev S16384x3 : Shape := ⟨2, ![16384, 3]⟩
abbrev S16384 : Shape := ⟨1, ![16384]⟩
abbrev S_ : Shape := ⟨0, ![]⟩
abbrev S16384x1 : Shape := ⟨2, ![16384, 1]⟩
abbrev S1x16384 : Shape := ⟨2, ![1, 16384]⟩
abbrev S1024x3 : Shape := ⟨2, ![1024, 3]⟩
abbrev S1024x1 : Shape := ⟨2, ![1024, 1]⟩
abbrev S1x1024 : Shape := ⟨2, ![1, 1024]⟩
abbrev S3x1024 : Shape := ⟨2, ![3, 1024]⟩
abbrev S1024x1024 : Shape := ⟨2, ![1024, 1024]⟩
abbrev S1024 : Shape := ⟨1, ![1024]⟩

abbrev nBuf : Space → Nat
  | .hbm => 39
  | .vmem => 22
  | .smem => 0
  | _ => 0

abbrev bufTy : (tb : Table) → Fin (tcTables nBuf tb) → BufTy
  | .hbm, ⟨0, _⟩ => ⟨S16384x3, .f32⟩
  | .hbm, ⟨1, _⟩ => ⟨S16384x3, .f32⟩
  | .hbm, ⟨2, _⟩ => ⟨S16384, .f32⟩
  | .hbm, ⟨3, _⟩ => ⟨S16384, .f32⟩
  | .hbm, ⟨4, _⟩ => ⟨S16384x3, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S16384x3, .f32⟩
  | .hbm, ⟨9, _⟩ => ⟨S_, .f32⟩
  | .hbm, ⟨10, _⟩ => ⟨S16384, .f32⟩
  | .hbm, ⟨11, _⟩ => ⟨S16384x1, .f32⟩
  | .hbm, ⟨12, _⟩ => ⟨S1x16384, .f32⟩
  | .hbm, ⟨13, _⟩ => ⟨S1x16384, .f32⟩
  | .hbm, ⟨14, _⟩ => ⟨S1x16384, .f32⟩
  | .hbm, ⟨15, _⟩ => ⟨S16384, .f32⟩
  | .hbm, ⟨16, _⟩ => ⟨S1x16384, .f32⟩
  | .hbm, ⟨17, _⟩ => ⟨S16384, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S16384, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S16384, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .local _ .vmem, ⟨0, _⟩ => ⟨S1024x3, .f32⟩
  | .local _ .vmem, ⟨1, _⟩ => ⟨S1024x3, .f32⟩
  | .local _ .vmem, ⟨2, _⟩ => ⟨S1024x3, .f32⟩
  | .local _ .vmem, ⟨3, _⟩ => ⟨S1024x3, .f32⟩
  | .local _ .vmem, ⟨4, _⟩ => ⟨S1024x1, .f32⟩
  | .local _ .vmem, ⟨5, _⟩ => ⟨S1024x1, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S1024x3, .f32⟩
  | .local _ .vmem, ⟨12, _⟩ => ⟨S1024x3, .f32⟩
  | .local _ .vmem, ⟨13, _⟩ => ⟨S1024x3, .f32⟩
  | .local _ .vmem, ⟨14, _⟩ => ⟨S1024x3, .f32⟩
  | .local _ .vmem, ⟨15, _⟩ => ⟨S1024x1, .f32⟩
  | .local _ .vmem, ⟨16, _⟩ => ⟨S1024x1, .f32⟩
  | .local _ .vmem, ⟨17, _⟩ => ⟨S1x1024, .f32⟩
  | .local _ .vmem, ⟨18, _⟩ => ⟨S1x1024, .f32⟩
  | .local _ .vmem, ⟨19, _⟩ => ⟨S1x1024, .f32⟩
  | .local _ .vmem, ⟨20, _⟩ => ⟨S1x1024, .f32⟩
  | .local _ .vmem, ⟨21, _⟩ => ⟨S1x1024, .f32⟩
  | _, _ => ⟨S16384x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_stg4_0 : Ref sig .tc := ⟨.vmem, 19, rfl⟩
abbrev cc1_stg4_1 : Ref sig .tc := ⟨.vmem, 20, rfl⟩
abbrev cc1_scratch0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19

abbrev nD : Nat := 1
abbrev τ : Topo := Topo.v7x

variable {F : FTy → Type} [FloatOps F]

abbrev grid0 : Pipeline.Grid := ⟨2, ![16, 16], ![false, false]⟩

def k0_cond2 (i : grid0.Coords) : BitVec 1 :=
  let arg1 : BitVec 32 := BitVec.ofNat 32 (i 1).val
  let c15_i32 : BitVec 32 := 15#32
  let v29 : BitVec 1 := Scalar.cmpi .eq arg1 c15_i32
  let v30 : BitVec 32 := Scalar.extui v29
  let c0_i32_15 : BitVec 32 := 0#32
  let v31 : BitVec 1 := Scalar.cmpi .ne v30 c0_i32_15
  v31

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨2, ![16, 16], ![false, false]⟩

def k1_cond2 (i : grid1.Coords) : BitVec 1 :=
  let arg1 : BitVec 32 := BitVec.ofNat 32 (i 1).val
  let c15_i32 : BitVec 32 := 15#32
  let v29 : BitVec 1 := Scalar.cmpi .eq arg1 c15_i32
  let v30 : BitVec 32 := Scalar.extui v29
  let c0_i32_15 : BitVec 32 := 0#32
  let v31 : BitVec 1 := Scalar.cmpi .ne v30 c0_i32_15
  v31

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S1024x3 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x3 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S1x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

class Facts₀ : Prop where
  reducesTo_S16384x3_S16384_d1 : S16384x3.ReducesTo [1] S16384
  h_S_ : 0 < S_.numel
  bcast_S16384_S16384x1_0 : S16384.BroadcastsInDim S16384x1 (![0] : Fin 1 → Fin S16384x1.rank)
  shapeCasts_S16384x1_S1x16384 : S16384x1.ShapeCasts S1x16384
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S1024x3_S1024x3_0_0 : ∀ a, (![0, 0] : Fin 2 → Nat) a + S1024x3.size a ≤ S1024x3.size a
  h_S1024x3 : 0 < S1024x3.numel
  bitsLt_bf16_f32 : FTy.bits .bf16 < FTy.bits .f32
  transposes_S1024x3_p1_0_S3x1024 : S1024x3.Transposes [1, 0] S3x1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x1024 : S1024x1.Broadcasts S1024x1024
  broadcasts_S1x1024_S1024x1024 : S1x1024.Broadcasts S1024x1024
  reduces_S1024x1024_S1024 : S1024x1024.Reduces [1] S1024
  shapeCasts_S1024_S1024x1 : S1024.ShapeCasts S1024x1
  transposes_S1024x1_p1_0_S1x1024 : S1024x1.Transposes [1, 0] S1x1024
  shapeCasts_S1x16384_S16384 : S1x16384.ShapeCasts S16384
  reducesTo_S16384_S_d0 : S16384.ReducesTo [0] S_
  dot_S1024x3_S3x1024_S1024x1024_1_0_0_1_n_n_wf : DotDims.WF S1024x3 S3x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x3.size a ≤ S16384x3.size a
  hwx0_0 : ∀ i : grid0.Coords, EltTy.bits .f32 = 32 ∨ (Rect.block (s := S16384x3) S1024x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x3.size a ≤ S16384x3.size a
  hwx0_1 : ∀ i : grid0.Coords, EltTy.bits .f32 = 32 ∨ (Rect.block (s := S16384x3) S1024x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S16384x1.size a
  hwx0_2 : ∀ i : grid0.Coords, EltTy.bits .f32 = 32 ∨ (Rect.block (s := S16384x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x16384.size a
  hwx0_3 : ∀ i : grid0.Coords, EltTy.bits .f32 = 32 ∨ (Rect.block (s := S1x16384) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x16384.size a
  hwx0_4 : ∀ i : grid0.Coords, EltTy.bits .f32 = 32 ∨ (Rect.block (s := S1x16384) S1x1024.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x3.size a ≤ S16384x3.size a
  hwx1_0 : ∀ i : grid1.Coords, EltTy.bits .f32 = 32 ∨ (Rect.block (s := S16384x3) S1024x3.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x3.size a ≤ S16384x3.size a
  hwx1_1 : ∀ i : grid1.Coords, EltTy.bits .f32 = 32 ∨ (Rect.block (s := S16384x3) S1024x3.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1.size a ≤ S16384x1.size a
  hwx1_2 : ∀ i : grid1.Coords, EltTy.bits .f32 = 32 ∨ (Rect.block (s := S16384x1) S1024x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024.size a ≤ S1x16384.size a
  hwx1_3 : ∀ i : grid1.Coords, EltTy.bits .f32 = 32 ∨ (Rect.block (s := S1x16384) S1x1024.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1024.size a ≤ S1x16384.size a
  hwx1_4 : ∀ i : grid1.Coords, EltTy.bits .f32 = 32 ∨ (Rect.block (s := S1x16384) S1x1024.size (cc1_transform_4 i) (hinb1_4 i)).WholeWords (EltTy.packing .f32)

variable [Facts₀]

def dot_S1024x3_S3x1024_S1024x1024_1_0_0_1_n_n : DotDims S1024x3 S3x1024 S1024x1024 where
  lhsContracting := [1]
  rhsContracting := [0]
  lhsNonContracting := [0]
  rhsNonContracting := [1]
  lhsBatch := []
  rhsBatch := []
  wf := dot_S1024x3_S3x1024_S1024x1024_1_0_0_1_n_n_wf

abbrev win0_0 : Pipeline.Window sig grid0 :=
  Pipeline.Window.ofSpec (Memref.whole main_arg0) S1024x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

abbrev win1_0 : Pipeline.Window sig grid1 :=
  Pipeline.Window.ofSpec (Memref.whole main_arg1) S1024x3.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S1024x3.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S1024x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v6) S1x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v10) S1x1024.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S16384x3 : Shape := ⟨2, ![16384, 3]⟩
abbrev S16384 : Shape := ⟨1, ![16384]⟩
abbrev S_ : Shape := ⟨0, ![]⟩
abbrev S16384x1 : Shape := ⟨2, ![16384, 1]⟩
abbrev S1x16384 : Shape := ⟨2, ![1, 16384]⟩
abbrev S16384x16384 : Shape := ⟨2, ![16384, 16384]⟩
abbrev S3x16384 : Shape := ⟨2, ![3, 16384]⟩

abbrev nBuf : Space → Nat
  | .hbm => 49
  | .vmem => 0
  | .smem => 0
  | _ => 0

abbrev bufTy : (tb : Table) → Fin (tcTables nBuf tb) → BufTy
  | .hbm, ⟨0, _⟩ => ⟨S16384x3, .f32⟩
  | .hbm, ⟨1, _⟩ => ⟨S16384x3, .f32⟩
  | .hbm, ⟨2, _⟩ => ⟨S16384, .f32⟩
  | .hbm, ⟨3, _⟩ => ⟨S16384, .f32⟩
  | .hbm, ⟨4, _⟩ => ⟨S16384x3, .f32⟩
  | .hbm, ⟨5, _⟩ => ⟨S_, .f32⟩
  | .hbm, ⟨6, _⟩ => ⟨S16384, .f32⟩
  | .hbm, ⟨7, _⟩ => ⟨S16384x3, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S1x16384, .f32⟩
  | .hbm, ⟨12, _⟩ => ⟨S16384x16384, .f32⟩
  | .hbm, ⟨13, _⟩ => ⟨S16384x16384, .f32⟩
  | .hbm, ⟨14, _⟩ => ⟨S16384x16384, .f32⟩
  | .hbm, ⟨15, _⟩ => ⟨S3x16384, .f32⟩
  | .hbm, ⟨16, _⟩ => ⟨S16384x16384, .f32⟩
  | .hbm, ⟨17, _⟩ => ⟨S_, .f32⟩
  | .hbm, ⟨18, _⟩ => ⟨S16384x16384, .f32⟩
  | .hbm, ⟨19, _⟩ => ⟨S16384x16384, .f32⟩
  | .hbm, ⟨20, _⟩ => ⟨S16384x16384, .f32⟩
  | .hbm, ⟨21, _⟩ => ⟨S_, .f32⟩
  | .hbm, ⟨22, _⟩ => ⟨S16384x16384, .f32⟩
  | .hbm, ⟨23, _⟩ => ⟨S16384x16384, .f32⟩
  | .hbm, ⟨24, _⟩ => ⟨S_, .f32⟩
  | .hbm, ⟨25, _⟩ => ⟨S16384, .f32⟩
  | .hbm, ⟨26, _⟩ => ⟨S_, .f32⟩
  | .hbm, ⟨27, _⟩ => ⟨S16384, .f32⟩
  | .hbm, ⟨28, _⟩ => ⟨S16384, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S16384, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | _, _ => ⟨S16384x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_cst_9 : Ref sig .tc := ⟨.hbm, 39, rfl⟩
abbrev main_v25 : Ref sig .tc := ⟨.hbm, 40, rfl⟩
abbrev main_cst_10 : Ref sig .tc := ⟨.hbm, 41, rfl⟩
abbrev main_v26 : Ref sig .tc := ⟨.hbm, 42, rfl⟩
abbrev main_v27 : Ref sig .tc := ⟨.hbm, 43, rfl⟩
abbrev main_cst_11 : Ref sig .tc := ⟨.hbm, 44, rfl⟩
abbrev main_v28 : Ref sig .tc := ⟨.hbm, 45, rfl⟩
abbrev main_cst_12 : Ref sig .tc := ⟨.hbm, 46, rfl⟩
abbrev main_v29 : Ref sig .tc := ⟨.hbm, 47, rfl⟩
abbrev main_v30 : Ref sig .tc := ⟨.hbm, 48, rfl⟩

abbrev nD : Nat := 1
abbrev τ : Topo := Topo.v7x

variable {F : FTy → Type} [FloatOps F]

class Facts₀ : Prop where
  reducesTo_S16384x3_S16384_d1 : S16384x3.ReducesTo [1] S16384
  h_S_ : 0 < S_.numel
  bcast_S16384_S16384x1_0 : S16384.BroadcastsInDim S16384x1 (![0] : Fin 1 → Fin S16384x1.rank)
  bcast_S16384_S1x16384_1 : S16384.BroadcastsInDim S1x16384 (![1] : Fin 1 → Fin S1x16384.rank)
  bcast_S16384x1_S16384x16384_0_1 : S16384x1.BroadcastsInDim S16384x16384 (![0, 1] : Fin 2 → Fin S16384x16384.rank)
  bcast_S1x16384_S16384x16384_0_1 : S1x16384.BroadcastsInDim S16384x16384 (![0, 1] : Fin 2 → Fin S16384x16384.rank)
  transposes_S16384x3_S3x16384_1_0 : S16384x3.Transposes [1, 0] S3x16384
  bcast_S_S16384x16384 : S_.BroadcastsInDim S16384x16384 (![] : Fin 0 → Fin S16384x16384.rank)
  reducesTo_S16384x16384_S16384_d1 : S16384x16384.ReducesTo [1] S16384
  reducesTo_S16384x16384_S16384_d0 : S16384x16384.ReducesTo [0] S16384
  reducesTo_S16384_S_d0 : S16384.ReducesTo [0] S_
  dot_S16384x3_S3x16384_S16384x16384_1_0_0_1_n_n_wf : DotDims.WF S16384x3 S3x16384 S16384x16384 [1] [0] [0] [1] [] []

variable [Facts₀]

def dot_S16384x3_S3x16384_S16384x16384_1_0_0_1_n_n : DotDims S16384x3 S3x16384 S16384x16384 where
  lhsContracting := [1]
  rhsContracting := [0]
  lhsNonContracting := [0]
  rhsNonContracting := [1]
  lhsBatch := []
  rhsBatch := []
  wf := dot_S16384x3_S3x16384_S16384x16384_1_0_0_1_n_n_wf

class Facts : Prop extends Facts₀ where

variable [Facts]
-- ==== Proof.K.Cases.lean ====
/-
  Where each grid point of the two pallas_calls sits in its sweep. Both grids are 16 x 16, walked row-major, so point
  t has sweep position t % 16: the running minimum is reset at position 0 and written to the output block at
  position 15. These are the two scf.if conditions of the kernel body, decided over the 256 points, and what they
  mean for the output window: idle (nothing stored, nothing written back) everywhere but at position 15.
-/
import proofs.«130439_j26027501814344_1_alg».proof.Proof.Gen.Kernel.Launch
import proofs.«130439_j26027501814344_1_alg».proof.Proof.Gen.Kernel.Skeleton
import proofs.«130439_j26027501814344_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## Two facts about whole-buffer stores, used by every step of both kernels -/

/-- A whole-buffer store leaves its payload, whatever earlier stores and the prior contents were. -/
theorem read_writes_whole {Val : EltTy → Type} [∀ e, Nonempty (Val e)] {sg : RefSig} {κ : Kind} {sp : Space} {S : Shape} {e : EltTy}
    (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  subst h
  rw [View.read_writes_eq_canon _ _ _ (fun y => ⟨_, List.mem_cons_self, by
    show y ∈ (Rect.whole S).set; rw [Rect.set_whole]; exact Finset.mem_univ y⟩), View.canon_cons_unit_zero rfl]

theorem zero2 : (![0, 0] : Fin 2 → Nat) = fun _ => 0 := by funext a; fin_cases a <;> rfl

/-! ## Region 0 -/

/-- "This is the first step of the sweep" (the reset branch), as the body computes it from the grid coordinates. -/
abbrev firstR0 (i : grid0.Coords) : Prop := (Scalar.cmpi .ne (Scalar.extui (Scalar.cmpi .eq (BitVec.ofNat 32 (i 1).val) 0#32)) 0#32) = 1#1
/-- "This is the last step of the sweep" (the branch that stores the output block). -/
abbrev lastR0 (i : grid0.Coords) : Prop := k0_cond2 i = 1#1

theorem firstR0_iff : ∀ t : Fin cfg0.N, firstR0 (grid0.coords t) ↔ t.val % 16 = 0 :=
  (by decide +kernel : ∀ t : Fin grid0.N, firstR0 (grid0.coords t) ↔ t.val % 16 = 0)
theorem lastR0_iff : ∀ t : Fin cfg0.N, lastR0 (grid0.coords t) ↔ t.val % 16 = 15 :=
  (by decide +kernel : ∀ t : Fin grid0.N, lastR0 (grid0.coords t) ↔ t.val % 16 = 15)

/-- The four input windows are never idle. -/
theorem liveR0_0 : ∀ t : Fin cfg0.N, cfg0.idle 0 (grid0.coords t) = false := by decide +kernel
theorem liveR0_1 : ∀ t : Fin cfg0.N, cfg0.idle 1 (grid0.coords t) = false := by decide +kernel
theorem liveR0_2 : ∀ t : Fin cfg0.N, cfg0.idle 2 (grid0.coords t) = false := by decide +kernel
theorem liveR0_3 : ∀ t : Fin cfg0.N, cfg0.idle 3 (grid0.coords t) = false := by decide +kernel
/-- The output window is idle, and not written back, away from the last step of a sweep; live at the last step. -/
theorem idleR0_4 : ∀ t : Fin cfg0.N, ¬lastR0 (grid0.coords t) → cfg0.idle 4 (grid0.coords t) = true := by decide +kernel
theorem noFlushR0_4 : ∀ t : Fin cfg0.N, ¬lastR0 (grid0.coords t) → (cfg0.win 4).flush t = false := by decide +kernel
theorem liveR0_4 : ∀ t : Fin cfg0.N, lastR0 (grid0.coords t) → cfg0.idle 4 (grid0.coords t) = false := by decide +kernel

/-! ## Region 1 -/

abbrev firstR1 (i : grid1.Coords) : Prop := (Scalar.cmpi .ne (Scalar.extui (Scalar.cmpi .eq (BitVec.ofNat 32 (i 1).val) 0#32)) 0#32) = 1#1
abbrev lastR1 (i : grid1.Coords) : Prop := k1_cond2 i = 1#1

theorem firstR1_iff : ∀ t : Fin cfg1.N, firstR1 (grid1.coords t) ↔ t.val % 16 = 0 :=
  (by decide +kernel : ∀ t : Fin grid1.N, firstR1 (grid1.coords t) ↔ t.val % 16 = 0)
theorem lastR1_iff : ∀ t : Fin cfg1.N, lastR1 (grid1.coords t) ↔ t.val % 16 = 15 :=
  (by decide +kernel : ∀ t : Fin grid1.N, lastR1 (grid1.coords t) ↔ t.val % 16 = 15)

theorem liveR1_0 : ∀ t : Fin cfg1.N, cfg1.idle 0 (grid1.coords t) = false := by decide +kernel
theorem liveR1_1 : ∀ t : Fin cfg1.N, cfg1.idle 1 (grid1.coords t) = false := by decide +kernel
theorem liveR1_2 : ∀ t : Fin cfg1.N, cfg1.idle 2 (grid1.coords t) = false := by decide +kernel
theorem liveR1_3 : ∀ t : Fin cfg1.N, cfg1.idle 3 (grid1.coords t) = false := by decide +kernel
theorem idleR1_4 : ∀ t : Fin cfg1.N, ¬lastR1 (grid1.coords t) → cfg1.idle 4 (grid1.coords t) = true := by decide +kernel
theorem noFlushR1_4 : ∀ t : Fin cfg1.N, ¬lastR1 (grid1.coords t) → (cfg1.win 4).flush t = false := by decide +kernel
theorem liveR1_4 : ∀ t : Fin cfg1.N, lastR1 (grid1.coords t) → cfg1.idle 4 (grid1.coords t) = false := by decide +kernel

end Cert.Kernel.Hand

end
-- ==== Proof.K.Body0.lean ====
/-
  One step of the online-minimum kernel (the two pallas_calls run the same kernel function) as a Hoare triple, in the three situations a grid point can be in.
  Writing S for the running-minimum scratch row and R(x0,x1,x2,x3) for the row of minima the step computes from its
  four input blocks, the step's effect is S := min(S, R), preceded at the first step of a sweep by S := +inf and
  followed at the last step by a copy of S into the output block. The generated payload `k0_pay2 x0 x1 x2 x3 s` is
  exactly min(s, R(x0..x3)) and `k0_pay1` is the constant +inf row, so the three triples say:
    first step : scratch (anything)  ↦  k0_pay2 … k0_pay1, output block untouched;
    middle step: scratch s           ↦  k0_pay2 … s,       output block untouched;
    last step  : scratch s           ↦  k0_pay2 … s,       output block := the same row.
  The inputs' staging buffers are only read. Each store covers its whole buffer, so what a buffer holds afterwards is
  the last payload stored, whatever it held before.
-/
import proofs.«130439_j26027501814344_1_alg».proof.Proof.K.Cases

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
theorem stepMiddleR0 (c : Dev nD) (i : grid0.Coords) (arg2 : Memref sig .tc .vmem S1024x3 .f32) (harg2 : arg2.IsWhole) (arg3 : Memref sig .tc .vmem S1024x3 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (hc0 : ¬firstR0 i) (hc1 : ¬lastR0 i)
    (x0 : Vec F S1024x3 .f32) (x1 : Vec F S1024x3 .f32) (x2 : Vec F S1024x1 .f32) (x3 : Vec F S1x1024 .f32) (xi4 : Vec F S1x1024 .f32) (xs : Vec F S1x1024 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg6 fullShare xi4 ∗ owns (c : Thread nD τ) arg7 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xi4 ∗ owns (c : Thread nD τ) arg7 fullShare (k0_pay2 x0 x1 x2 x3 xs)) -∗ K ⟨⟩))
      ⊢ wp frame (wpE (defs₀ (F := F)) Variants.none c none) E (cc0__min_dist_kernel i arg2 harg2 arg3 harg3 arg4 harg4 arg5 harg5 arg6 harg6 arg7 harg7) K := by
  simp only [cc0__min_dist_kernel_eq_skeleton]; unfold cc0__min_dist_kernel_skel
  unfold owns
  iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
  obtain rfl := harg2.eq_unread hf0; obtain rfl := harg3.eq_unread hf1; obtain rfl := harg4.eq_unread hf2; obtain rfl := harg5.eq_unread hf3; obtain rfl := harg7.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact hf4
    iexact H4
  iexists _; isplitr
  swap; · iexact HS
  ipureintro
  sl_unfold_words
  rw [read_writes_whole _ _ zero2]
  simp only [View.readAt_eq_ld, Memref.IsWhole.read_unread, View.ld_unit_zero (S := S1024x3) zero2, View.ld_unit_zero (S := S1024x1) zero2, View.ld_unit_zero (S := S1x1024) zero2]

set_option maxHeartbeats 1000000 in
theorem stepFirstR0 (c : Dev nD) (i : grid0.Coords) (arg2 : Memref sig .tc .vmem S1024x3 .f32) (harg2 : arg2.IsWhole) (arg3 : Memref sig .tc .vmem S1024x3 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (hc0 : firstR0 i) (hc1 : ¬lastR0 i)
    (x0 : Vec F S1024x3 .f32) (x1 : Vec F S1024x3 .f32) (x2 : Vec F S1024x1 .f32) (x3 : Vec F S1x1024 .f32) (xi4 : Vec F S1x1024 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg6 fullShare xi4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xi4 ∗ owns (c : Thread nD τ) arg7 fullShare (k0_pay2 x0 x1 x2 x3 (k0_pay1 (F := F)))) -∗ K ⟨⟩))
      ⊢ wp frame (wpE (defs₀ (F := F)) Variants.none c none) E (cc0__min_dist_kernel i arg2 harg2 arg3 harg3 arg4 harg4 arg5 harg5 arg6 harg6 arg7 harg7) K := by
  simp only [cc0__min_dist_kernel_eq_skeleton]; unfold cc0__min_dist_kernel_skel
  unfold owns
  iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
  obtain rfl := harg2.eq_unread hf0; obtain rfl := harg3.eq_unread hf1; obtain rfl := harg4.eq_unread hf2; obtain rfl := harg5.eq_unread hf3
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact hf4
    iexact H4
  iexists _; isplitr
  swap; · iexact HS
  ipureintro
  sl_unfold_words
  rw [read_writes_whole _ _ zero2]
  simp only [View.readAt_eq_ld, Memref.IsWhole.read_unread, View.ld_unit_zero (S := S1024x3) zero2, View.ld_unit_zero (S := S1024x1) zero2, View.ld_unit_zero (S := S1x1024) zero2,
    View.readCov_unit_zero (S := S1x1024) _ zero2]

set_option maxHeartbeats 1000000 in
theorem stepLastR0 (c : Dev nD) (i : grid0.Coords) (arg2 : Memref sig .tc .vmem S1024x3 .f32) (harg2 : arg2.IsWhole) (arg3 : Memref sig .tc .vmem S1024x3 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (hc0 : ¬firstR0 i) (hc1 : lastR0 i)
    (x0 : Vec F S1024x3 .f32) (x1 : Vec F S1024x3 .f32) (x2 : Vec F S1024x1 .f32) (x3 : Vec F S1x1024 .f32) (xs : Vec F S1x1024 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg6 fullShare d) ∗ owns (c : Thread nD τ) arg7 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (k0_pay2 x0 x1 x2 x3 xs) ∗ owns (c : Thread nD τ) arg7 fullShare (k0_pay2 x0 x1 x2 x3 xs)) -∗ K ⟨⟩))
      ⊢ wp frame (wpE (defs₀ (F := F)) Variants.none c none) E (cc0__min_dist_kernel i arg2 harg2 arg3 harg3 arg4 harg4 arg5 harg5 arg6 harg6 arg7 harg7) K := by
  simp only [cc0__min_dist_kernel_eq_skeleton]; unfold cc0__min_dist_kernel_skel
  unfold owns
  iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
  obtain rfl := harg2.eq_unread hf0; obtain rfl := harg3.eq_unread hf1; obtain rfl := harg4.eq_unread hf2; obtain rfl := harg5.eq_unread hf3; obtain rfl := harg7.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro
    sl_unfold_words
    rw [read_writes_whole _ _ zero2]
    simp only [View.readAt_eq_ld, Memref.IsWhole.read_unread, View.ld_unit_zero (S := S1024x3) zero2, View.ld_unit_zero (S := S1024x1) zero2, View.ld_unit_zero (S := S1x1024) zero2,
      View.readCov_unit_zero (S := S1x1024) _ zero2]
  iexists _; isplitr
  swap; · iexact HS
  ipureintro
  sl_unfold_words
  rw [read_writes_whole _ _ zero2]
  simp only [View.readAt_eq_ld, Memref.IsWhole.read_unread, View.ld_unit_zero (S := S1024x3) zero2, View.ld_unit_zero (S := S1024x1) zero2, View.ld_unit_zero (S := S1x1024) zero2]

end Cert.Kernel.Hand

end
-- ==== Proof.K.Data0.lean ====
/-
  The proof data of one of the two pallas_calls (each takes, for every point of its first cloud, the minimum over its second cloud), at a parameter V: the contents of
  the TensorCore's buffers when the region is entered.

  The grid is 16 x 16, point t = 16·i + j. Windows 0..3 are inputs (the a-rows block i, the b-rows block j, the squared
  norms of those rows), each found in its staging buffer at its block of the entry array at every point. Window 4 is the
  output row block i, stored only at j = 15. Between points the kernel keeps its running minimum in a scratch row:
  `scAtR0 V c t` is what that row holds after point t,
      scAt(t) = step_t( +inf )          if j = 0,
      scAt(t) = step_t( scAt(t-1) )     otherwise,
  where step_t(s) = min(s, row minima of block pair (i, j)) is the generated payload `k0_pay2` at the four input blocks.
  The region invariant carries the scratch row at scAt(t-1) before point t (at anything before the first point), the
  rest of the scoped memory unopened, and the generator register untouched; the output block after point t is scAt(t)
  (at j = 15; elsewhere the window is idle and the value is not consulted).
-/
import proofs.«130439_j26027501814344_1_alg».proof.Proof.K.Body0

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-- Window w's block at point t, read off its array as the region finds it. -/
def iblkR0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or carried over from the point
    before (its block index has not moved), for any proof data over V whose body leaves the block in place. -/
theorem beforeR0_0_of {c : Dev nD} (dat : Dat τ (Elt F) Unit ℕ (UR sig nD τ) ℕ cfg0 c) (hA : dat.A 0 = V c (Pipeline.arrRef spec0 0))
    (hafter : ∀ t, dat.after 0 t = iblkR0 V c 0 t) (t : Fin cfg0.N) (d) : dat.before 0 t d = iblkR0 V c 0 t :=
  (dat.before_in_eq_fetched 0 rfl (fun _ => rfl) (fun _ _ _ => rfl) (fun t => by rw [hafter]; unfold Dat.blockOf iblkR0; rw [hA]; try rfl) t d).trans
    (by unfold Dat.fetched Dat.blockOf iblkR0; rw [hA]; try rfl)

/-- Input window 1's current staging buffer holds its block at every point, fetched there or carried over from the point
    before (its block index has not moved), for any proof data over V whose body leaves the block in place. -/
theorem beforeR0_1_of {c : Dev nD} (dat : Dat τ (Elt F) Unit ℕ (UR sig nD τ) ℕ cfg0 c) (hA : dat.A 1 = V c (Pipeline.arrRef spec0 1))
    (hafter : ∀ t, dat.after 1 t = iblkR0 V c 1 t) (t : Fin cfg0.N) (d) : dat.before 1 t d = iblkR0 V c 1 t :=
  (dat.before_in_eq_fetched 1 rfl (fun _ => rfl) (fun _ _ _ => rfl) (fun t => by rw [hafter]; unfold Dat.blockOf iblkR0; rw [hA]; try rfl) t d).trans
    (by unfold Dat.fetched Dat.blockOf iblkR0; rw [hA]; try rfl)

/-- Input window 2's current staging buffer holds its block at every point, fetched there or carried over from the point
    before (its block index has not moved), for any proof data over V whose body leaves the block in place. -/
theorem beforeR0_2_of {c : Dev nD} (dat : Dat τ (Elt F) Unit ℕ (UR sig nD τ) ℕ cfg0 c) (hA : dat.A 2 = V c (Pipeline.arrRef spec0 2))
    (hafter : ∀ t, dat.after 2 t = iblkR0 V c 2 t) (t : Fin cfg0.N) (d) : dat.before 2 t d = iblkR0 V c 2 t :=
  (dat.before_in_eq_fetched 2 rfl (fun _ => rfl) (fun _ _ _ => rfl) (fun t => by rw [hafter]; unfold Dat.blockOf iblkR0; rw [hA]; try rfl) t d).trans
    (by unfold Dat.fetched Dat.blockOf iblkR0; rw [hA]; try rfl)

/-- Input window 3's current staging buffer holds its block at every point, fetched there or carried over from the point
    before (its block index has not moved), for any proof data over V whose body leaves the block in place. -/
theorem beforeR0_3_of {c : Dev nD} (dat : Dat τ (Elt F) Unit ℕ (UR sig nD τ) ℕ cfg0 c) (hA : dat.A 3 = V c (Pipeline.arrRef spec0 3))
    (hafter : ∀ t, dat.after 3 t = iblkR0 V c 3 t) (t : Fin cfg0.N) (d) : dat.before 3 t d = iblkR0 V c 3 t :=
  (dat.before_in_eq_fetched 3 rfl (fun _ => rfl) (fun _ _ _ => rfl) (fun t => by rw [hafter]; unfold Dat.blockOf iblkR0; rw [hA]; try rfl) t d).trans
    (by unfold Dat.fetched Dat.blockOf iblkR0; rw [hA]; try rfl)

/-- The scratch row, as a whole-buffer memref. -/
abbrev scMR0 : Memref sig .tc .vmem S1x1024 .f32 := Memref.whole cc0_scratch0

/-- One step at point t: the new running minimum from the previous one and the point's four input blocks. -/
def stepR0 (c : Dev nD) (t : Fin cfg0.N) (s : Vec F S1x1024 .f32) : Vec F S1x1024 .f32 :=
  k0_pay2 (iblkR0 V c 0 t) (iblkR0 V c 1 t) (iblkR0 V c 2 t) (iblkR0 V c 3 t) s

/-- The scratch row after point n: restarted from +inf at the first step of each sweep. -/
def scAtR0 (c : Dev nD) : (n : ℕ) → n < cfg0.N → Vec F S1x1024 .f32
  | 0, hn => stepR0 V c ⟨0, hn⟩ (k0_pay1 (F := F))
  | n + 1, hn => stepR0 V c ⟨n + 1, hn⟩ (if (n + 1) % 16 = 0 then k0_pay1 (F := F) else scAtR0 c n (Nat.lt_of_succ_lt hn))

theorem scAtR0_first (c : Dev nD) (t : Fin cfg0.N) (h : t.val % 16 = 0) :
    scAtR0 V c t.val t.isLt = stepR0 V c t (k0_pay1 (F := F)) := by
  obtain ⟨n, hn⟩ := t
  cases n with
  | zero => rfl
  | succ n => show stepR0 V c ⟨n + 1, hn⟩ (if (n + 1) % 16 = 0 then _ else _) = _; rw [if_pos h]

theorem scAtR0_next (c : Dev nD) (t : Fin cfg0.N) (h : ¬t.val % 16 = 0) :
    scAtR0 V c t.val t.isLt = stepR0 V c t (scAtR0 V c (t.val - 1) (Nat.lt_of_le_of_lt (Nat.sub_le _ _) t.isLt)) := by
  obtain ⟨n, hn⟩ := t
  cases n with
  | zero => exact absurd (Nat.zero_mod _) h
  | succ n => show stepR0 V c ⟨n + 1, hn⟩ (if (n + 1) % 16 = 0 then _ else _) = _; rw [if_neg h]; rfl

/-- The scoped memory no window stages: the scratch row, and everything else unopened. -/
theorem scopedSplitR0 (c : Dev nD) :
    (Pipeline.scopedRest (Ix := Unit) (Name := ℕ) (U := UR sig nD τ) (Lvl := ℕ) (Val := Elt F) spec0 c : sProp 𝕄)
      = iprop((∃ f : Buf (Elt F) ((c : Thread nD τ).loc cc0_scratch0), ((c : Thread nD τ).loc cc0_scratch0) ↦{fullShare} f)
          ∗ Pipeline.scopedRestBut (Ix := Unit) (Name := ℕ) (U := UR sig nD τ) (Lvl := ℕ) (Val := Elt F) spec0 c [cc0_scratch0]) :=
  Pipeline.scopedRest_split_of_list spec0 c [cc0_scratch0] (by decide) (by decide)

/-- Everything scoped but the staging buffers and the scratch row. -/
abbrev restR0 (c : Dev nD) : sProp 𝕄 :=
  Pipeline.scopedRestBut (Ix := Unit) (Name := ℕ) (U := UR sig nD τ) (Lvl := ℕ) (Val := Elt F) spec0 c [cc0_scratch0]

/-- The class invariant with the scratch row as an owned memref at some contents. -/
theorem PhiA_R0 (c : Dev nD) :
    (Pipeline.ΦA spec0 c : sProp 𝕄)
      = iprop(((∃ d, owns (c : Thread nD τ) scMR0 fullShare d) ∗ restR0 (F := F) c) ∗ (∃ r, prngReg c r)) := by
  unfold Pipeline.ΦA; rw [scopedSplitR0]; simp only [scMR0, owns_whole]; try rfl

/-- The region invariant before position n: the class's before the first point; afterwards the scratch row at what the
    point before left. -/
def PhiR0 (c : Dev nD) : (n : ℕ) → n ≤ cfg0.N → sProp 𝕄
  | 0, _ => Pipeline.ΦA spec0 c
  | n + 1, hn => iprop((owns (c : Thread nD τ) scMR0 fullShare (scAtR0 V c n hn) ∗ restR0 (F := F) c) ∗ (∃ r, prngReg c r))

theorem PhiR0_zero (c : Dev nD) (n : ℕ) (h : n ≤ cfg0.N) (hz : n = 0) : PhiR0 V c n h = Pipeline.ΦA spec0 c := by
  subst hz; rfl
theorem PhiR0_succ (c : Dev nD) (n : ℕ) (hn : n < cfg0.N) :
    PhiR0 V c (n + 1) hn = iprop((owns (c : Thread nD τ) scMR0 fullShare (scAtR0 V c n hn) ∗ restR0 (F := F) c) ∗ (∃ r, prngReg c r)) := rfl
theorem PhiR0_pos (c : Dev nD) (n : ℕ) (h : n ≤ cfg0.N) (hz : n ≠ 0) :
    PhiR0 V c n h = iprop((owns (c : Thread nD τ) scMR0 fullShare (scAtR0 V c (n - 1) (by omega)) ∗ restR0 (F := F) c) ∗ (∃ r, prngReg c r)) := by
  cases n with
  | zero => exact absurd rfl hz
  | succ n => rfl

/-- The proof data. -/
def datR0 (c : Dev nD) : Dat τ (Elt F) Unit ℕ (UR sig nD τ) ℕ cfg0 c where
  A w := V c (Pipeline.arrRef spec0 w)
  after w t := match w with
    | ⟨0, _⟩ => iblkR0 V c 0 t
    | ⟨1, _⟩ => iblkR0 V c 1 t
    | ⟨2, _⟩ => iblkR0 V c 2 t
    | ⟨3, _⟩ => iblkR0 V c 3 t
    | ⟨4, _⟩ => scAtR0 V c t.val t.isLt
  Φ t := PhiR0 V c t.val (Nat.le_of_lt_succ t.isLt)
  q _ := fullShare
  owed _ := 0

theorem A_R0 (c : Dev nD) (w : Fin cfg0.W) : (datR0 V c).A w = V c (Pipeline.arrRef spec0 w) := by
  dsimp only [datR0]
theorem afterR0_0 (c : Dev nD) (t : Fin cfg0.N) : (datR0 V c).after 0 t = iblkR0 V c 0 t := by dsimp only [datR0]
theorem afterR0_1 (c : Dev nD) (t : Fin cfg0.N) : (datR0 V c).after 1 t = iblkR0 V c 1 t := by dsimp only [datR0]
theorem afterR0_2 (c : Dev nD) (t : Fin cfg0.N) : (datR0 V c).after 2 t = iblkR0 V c 2 t := by dsimp only [datR0]
theorem afterR0_3 (c : Dev nD) (t : Fin cfg0.N) : (datR0 V c).after 3 t = iblkR0 V c 3 t := by dsimp only [datR0]
theorem afterR0_4 (c : Dev nD) (t : Fin cfg0.N) : (datR0 V c).after 4 t = scAtR0 V c t.val t.isLt := by dsimp only [datR0]
theorem beforeR0_0 (c : Dev nD) (t : Fin cfg0.N) (d) : (datR0 V c).before 0 t d = iblkR0 V c 0 t :=
  beforeR0_0_of V (datR0 V c) (A_R0 V c 0) (afterR0_0 V c) t d
theorem beforeR0_1 (c : Dev nD) (t : Fin cfg0.N) (d) : (datR0 V c).before 1 t d = iblkR0 V c 1 t :=
  beforeR0_1_of V (datR0 V c) (A_R0 V c 1) (afterR0_1 V c) t d
theorem beforeR0_2 (c : Dev nD) (t : Fin cfg0.N) (d) : (datR0 V c).before 2 t d = iblkR0 V c 2 t :=
  beforeR0_2_of V (datR0 V c) (A_R0 V c 2) (afterR0_2 V c) t d
theorem beforeR0_3 (c : Dev nD) (t : Fin cfg0.N) (d) : (datR0 V c).before 3 t d = iblkR0 V c 3 t :=
  beforeR0_3_of V (datR0 V c) (A_R0 V c 3) (afterR0_3 V c) t d

theorem Phi_castSuccR0 (c : Dev nD) (t : Fin cfg0.N) :
    (datR0 V c).Φ t.castSucc = PhiR0 V c t.val (Nat.le_of_lt t.isLt) := by
  dsimp only [datR0]; simp only [Fin.coe_castSucc]

/-! ## The body obligation -/

def bodyPreR0 (c : Dev nD) (t : Fin cfg0.N) : sProp 𝕄 :=
  iprop((datR0 V c).Φ t.castSucc ∗ (datR0 V c).owesAt () t.castSucc
    ∗ (∃ d, owns (c : Thread nD τ) (st0_0 t) fullShare ((datR0 V c).before 0 t d))
    ∗ (∃ d, owns (c : Thread nD τ) (st0_1 t) fullShare ((datR0 V c).before 1 t d))
    ∗ (∃ d, owns (c : Thread nD τ) (st0_2 t) fullShare ((datR0 V c).before 2 t d))
    ∗ (∃ d, owns (c : Thread nD τ) (st0_3 t) fullShare ((datR0 V c).before 3 t d))
    ∗ (∃ d, owns (c : Thread nD τ) (st0_4 t) fullShare ((datR0 V c).before 4 t d)))

def bodyPostR0 (c : Dev nD) (t : Fin cfg0.N) : sProp 𝕄 :=
  iprop((datR0 V c).Φ t.succ ∗ (datR0 V c).owesAt () t.succ
    ∗ (datR0 V c).leavesExact 0 t
    ∗ (datR0 V c).leavesExact 1 t
    ∗ (datR0 V c).leavesExact 2 t
    ∗ (datR0 V c).leavesExact 3 t
    ∗ (datR0 V c).leavesExact 4 t)

set_option maxHeartbeats 4800000 in
/-- The body at any point: the position in the sweep picks the triple; the invariant hands over the scratch row and takes
    it back at this point's contents. -/
theorem sound_bodyR0 (c : Dev nD) (t : Fin cfg0.N) :
    bodyPreR0 V c t ⊢ wp frame (wpE (defs₀ (F := F)) Variants.none c none) Set.univ (bodyAt0 t) (fun _ => bodyPostR0 V c t) := by
  unfold bodyPreR0 bodyPostR0 bodyAt0
  simp only [beforeR0_0, beforeR0_1, beforeR0_2, beforeR0_3]
  rw [show (datR0 V c).owesAt () t.succ = (datR0 V c).owesAt () t.castSucc from rfl]
  rw [show (datR0 V c).Φ t.succ = PhiR0 V c (t.val + 1) t.isLt from rfl, PhiR0_succ]
  rw [show (datR0 V c).leavesExact 0 t = owns (c : Thread nD τ) (st0_0 t) fullShare ((datR0 V c).after 0 t) from by
    unfold Dat.leavesExact; rw [liveR0_0 t], afterR0_0]
  rw [show (datR0 V c).leavesExact 1 t = owns (c : Thread nD τ) (st0_1 t) fullShare ((datR0 V c).after 1 t) from by
    unfold Dat.leavesExact; rw [liveR0_1 t], afterR0_1]
  rw [show (datR0 V c).leavesExact 2 t = owns (c : Thread nD τ) (st0_2 t) fullShare ((datR0 V c).after 2 t) from by
    unfold Dat.leavesExact; rw [liveR0_2 t], afterR0_2]
  rw [show (datR0 V c).leavesExact 3 t = owns (c : Thread nD τ) (st0_3 t) fullShare ((datR0 V c).after 3 t) from by
    unfold Dat.leavesExact; rw [liveR0_3 t], afterR0_3]
  have hN : t.val < 256 := lt_of_lt_of_eq t.isLt (show cfg0.N = 256 from N_0)
  by_cases hf : t.val % 16 = 0
  · have hl : ¬t.val % 16 = 15 := by omega
    rw [Dat.leavesExact_idle (datR0 V c) 4 t (idleR0_4 t (fun h => hl ((lastR0_iff t).mp h))) (noFlushR0_4 t (fun h => hl ((lastR0_iff t).mp h)))]
    rw [scAtR0_first V c t hf]
    unfold stepR0
    by_cases hz : t.val = 0
    · rw [Phi_castSuccR0 V c t, PhiR0_zero V c _ _ hz, PhiA_R0]
      iintro ⟨⟨⟨HS, Hrest⟩, Hg⟩, Ho, ⟨%d0, H0⟩, ⟨%d1, H1⟩, ⟨%d2, H2⟩, ⟨%d3, H3⟩, ⟨%d4, H4⟩⟩
      iapply (stepFirstR0 c (grid0.coords t) _ _ _ _ _ _ _ _ _ _ _ _ ((firstR0_iff t).mpr hf) (fun h => hl ((lastR0_iff t).mp h)) (iblkR0 V c 0 t) (iblkR0 V c 1 t) (iblkR0 V c 2 t) (iblkR0 V c 3 t) _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      isplitl [H2]; · iexact H2
      isplitl [H3]; · iexact H3
      iexists _; iexact H4
    · rw [Phi_castSuccR0 V c t, PhiR0_pos V c _ _ hz]
      iintro ⟨⟨⟨HS, Hrest⟩, Hg⟩, Ho, ⟨%d0, H0⟩, ⟨%d1, H1⟩, ⟨%d2, H2⟩, ⟨%d3, H3⟩, ⟨%d4, H4⟩⟩
      iapply (stepFirstR0 c (grid0.coords t) _ _ _ _ _ _ _ _ _ _ _ _ ((firstR0_iff t).mpr hf) (fun h => hl ((lastR0_iff t).mp h)) (iblkR0 V c 0 t) (iblkR0 V c 1 t) (iblkR0 V c 2 t) (iblkR0 V c 3 t) _ Set.univ _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun h => hf (by rw [h])
    rw [scAtR0_next V c t hf]
    unfold stepR0
    rw [Phi_castSuccR0 V c t, PhiR0_pos V c _ _ hz]
    by_cases hl : t.val % 16 = 15
    · rw [show (datR0 V c).leavesExact 4 t = owns (c : Thread nD τ) (st0_4 t) fullShare ((datR0 V c).after 4 t) from by
        unfold Dat.leavesExact; rw [liveR0_4 t ((lastR0_iff t).mpr hl)], afterR0_4, scAtR0_next V c t hf]
      unfold stepR0
      iintro ⟨⟨⟨HS, Hrest⟩, Hg⟩, Ho, ⟨%d0, H0⟩, ⟨%d1, H1⟩, ⟨%d2, H2⟩, ⟨%d3, H3⟩, ⟨%d4, H4⟩⟩
      iapply (stepLastR0 c (grid0.coords t) _ _ _ _ _ _ _ _ _ _ _ _ (fun h => hf ((firstR0_iff t).mp h)) ((lastR0_iff t).mpr hl) (iblkR0 V c 0 t) (iblkR0 V c 1 t) (iblkR0 V c 2 t) (iblkR0 V c 3 t) _ Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      isplitl [H2]; · iexact H2
      isplitl [H3]; · iexact H3
      iexact H4
    · rw [Dat.leavesExact_idle (datR0 V c) 4 t (idleR0_4 t (fun h => hl ((lastR0_iff t).mp h))) (noFlushR0_4 t (fun h => hl ((lastR0_iff t).mp h)))]
      iintro ⟨⟨⟨HS, Hrest⟩, Hg⟩, Ho, ⟨%d0, H0⟩, ⟨%d1, H1⟩, ⟨%d2, H2⟩, ⟨%d3, H3⟩, ⟨%d4, H4⟩⟩
      iapply (stepMiddleR0 c (grid0.coords t) _ _ _ _ _ _ _ _ _ _ _ _ (fun h => hf ((firstR0_iff t).mp h)) (fun h => hl ((lastR0_iff t).mp h)) (iblkR0 V c 0 t) (iblkR0 V c 1 t) (iblkR0 V c 2 t) (iblkR0 V c 3 t) _ _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligationR0 (c : Dev nD) : BodyObligation (datR0 (F := F) V c) (defs₀ (F := F)) Variants.none () Set.univ := fun t => by
  rw [bigSep_W0, bigSep_W0]
  exact sound_bodyR0 V c t

/-- What the launch hands the region is the invariant before the first point. -/
theorem hinR0 (c : Dev nD) : Pipeline.ΦA spec0 c ⊢ (datR0 V c).Φ 0 := by
  rw [show (datR0 V c).Φ 0 = PhiR0 V c 0 (Nat.zero_le _) from rfl, PhiR0_zero V c 0 _ rfl]
  try exact Idealize.SL.BI.Entails.refl _

/-- After the last point the invariant gives the class's back: what the scratch row holds is forgotten. -/
theorem houtR0 (c : Dev nD) : (datR0 V c).Φ (Fin.last cfg0.N) ⊢ Pipeline.ΦA spec0 c := by
  rw [show (datR0 V c).Φ (Fin.last cfg0.N) = PhiR0 V c (Fin.last cfg0.N).val (Nat.le_of_lt_succ (Fin.last cfg0.N).isLt) from rfl,
    PhiR0_pos V c _ _ (by rw [Fin.val_last]; have : cfg0.N = 256 := N_0; omega), PhiA_R0]
  iintro ⟨⟨HS, Hrest⟩, Hg⟩
  isplitl [HS Hrest]
  · isplitl [HS]; · iexists _; iexact HS
    iexact Hrest
  iexact Hg

end Region0

end Cert.Kernel.Hand

end
-- ==== Proof.K.Body1.lean ====
/-
  One step of the online-minimum kernel (the two pallas_calls run the same kernel function) as a Hoare triple, in the three situations a grid point can be in.
  Writing S for the running-minimum scratch row and R(x0,x1,x2,x3) for the row of minima the step computes from its
  four input blocks, the step's effect is S := min(S, R), preceded at the first step of a sweep by S := +inf and
  followed at the last step by a copy of S into the output block. The generated payload `k1_pay2 x0 x1 x2 x3 s` is
  exactly min(s, R(x0..x3)) and `k1_pay1` is the constant +inf row, so the three triples say:
    first step : scratch (anything)  ↦  k1_pay2 … k1_pay1, output block untouched;
    middle step: scratch s           ↦  k1_pay2 … s,       output block untouched;
    last step  : scratch s           ↦  k1_pay2 … s,       output block := the same row.
  The inputs' staging buffers are only read. Each store covers its whole buffer, so what a buffer holds afterwards is
  the last payload stored, whatever it held before.
-/
import proofs.«130439_j26027501814344_1_alg».proof.Proof.K.Cases

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
theorem stepMiddleR1 (c : Dev nD) (i : grid1.Coords) (arg2 : Memref sig .tc .vmem S1024x3 .f32) (harg2 : arg2.IsWhole) (arg3 : Memref sig .tc .vmem S1024x3 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (hc0 : ¬firstR1 i) (hc1 : ¬lastR1 i)
    (x0 : Vec F S1024x3 .f32) (x1 : Vec F S1024x3 .f32) (x2 : Vec F S1024x1 .f32) (x3 : Vec F S1x1024 .f32) (xi4 : Vec F S1x1024 .f32) (xs : Vec F S1x1024 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg6 fullShare xi4 ∗ owns (c : Thread nD τ) arg7 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xi4 ∗ owns (c : Thread nD τ) arg7 fullShare (k1_pay2 x0 x1 x2 x3 xs)) -∗ K ⟨⟩))
      ⊢ wp frame (wpE (defs₀ (F := F)) Variants.none c none) E (cc1__min_dist_kernel i arg2 harg2 arg3 harg3 arg4 harg4 arg5 harg5 arg6 harg6 arg7 harg7) K := by
  simp only [cc1__min_dist_kernel_eq_skeleton]; unfold cc1__min_dist_kernel_skel
  unfold owns
  iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
  obtain rfl := harg2.eq_unread hf0; obtain rfl := harg3.eq_unread hf1; obtain rfl := harg4.eq_unread hf2; obtain rfl := harg5.eq_unread hf3; obtain rfl := harg7.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact hf4
    iexact H4
  iexists _; isplitr
  swap; · iexact HS
  ipureintro
  sl_unfold_words
  rw [read_writes_whole _ _ zero2]
  simp only [View.readAt_eq_ld, Memref.IsWhole.read_unread, View.ld_unit_zero (S := S1024x3) zero2, View.ld_unit_zero (S := S1024x1) zero2, View.ld_unit_zero (S := S1x1024) zero2]

set_option maxHeartbeats 1000000 in
theorem stepFirstR1 (c : Dev nD) (i : grid1.Coords) (arg2 : Memref sig .tc .vmem S1024x3 .f32) (harg2 : arg2.IsWhole) (arg3 : Memref sig .tc .vmem S1024x3 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (hc0 : firstR1 i) (hc1 : ¬lastR1 i)
    (x0 : Vec F S1024x3 .f32) (x1 : Vec F S1024x3 .f32) (x2 : Vec F S1024x1 .f32) (x3 : Vec F S1x1024 .f32) (xi4 : Vec F S1x1024 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg6 fullShare xi4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xi4 ∗ owns (c : Thread nD τ) arg7 fullShare (k1_pay2 x0 x1 x2 x3 (k1_pay1 (F := F)))) -∗ K ⟨⟩))
      ⊢ wp frame (wpE (defs₀ (F := F)) Variants.none c none) E (cc1__min_dist_kernel i arg2 harg2 arg3 harg3 arg4 harg4 arg5 harg5 arg6 harg6 arg7 harg7) K := by
  simp only [cc1__min_dist_kernel_eq_skeleton]; unfold cc1__min_dist_kernel_skel
  unfold owns
  iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
  obtain rfl := harg2.eq_unread hf0; obtain rfl := harg3.eq_unread hf1; obtain rfl := harg4.eq_unread hf2; obtain rfl := harg5.eq_unread hf3
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact hf4
    iexact H4
  iexists _; isplitr
  swap; · iexact HS
  ipureintro
  sl_unfold_words
  rw [read_writes_whole _ _ zero2]
  simp only [View.readAt_eq_ld, Memref.IsWhole.read_unread, View.ld_unit_zero (S := S1024x3) zero2, View.ld_unit_zero (S := S1024x1) zero2, View.ld_unit_zero (S := S1x1024) zero2,
    View.readCov_unit_zero (S := S1x1024) _ zero2]

set_option maxHeartbeats 1000000 in
theorem stepLastR1 (c : Dev nD) (i : grid1.Coords) (arg2 : Memref sig .tc .vmem S1024x3 .f32) (harg2 : arg2.IsWhole) (arg3 : Memref sig .tc .vmem S1024x3 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (hc0 : ¬firstR1 i) (hc1 : lastR1 i)
    (x0 : Vec F S1024x3 .f32) (x1 : Vec F S1024x3 .f32) (x2 : Vec F S1024x1 .f32) (x3 : Vec F S1x1024 .f32) (xs : Vec F S1x1024 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg6 fullShare d) ∗ owns (c : Thread nD τ) arg7 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (k1_pay2 x0 x1 x2 x3 xs) ∗ owns (c : Thread nD τ) arg7 fullShare (k1_pay2 x0 x1 x2 x3 xs)) -∗ K ⟨⟩))
      ⊢ wp frame (wpE (defs₀ (F := F)) Variants.none c none) E (cc1__min_dist_kernel i arg2 harg2 arg3 harg3 arg4 harg4 arg5 harg5 arg6 harg6 arg7 harg7) K := by
  simp only [cc1__min_dist_kernel_eq_skeleton]; unfold cc1__min_dist_kernel_skel
  unfold owns
  iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
  obtain rfl := harg2.eq_unread hf0; obtain rfl := harg3.eq_unread hf1; obtain rfl := harg4.eq_unread hf2; obtain rfl := harg5.eq_unread hf3; obtain rfl := harg7.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro
    sl_unfold_words
    rw [read_writes_whole _ _ zero2]
    simp only [View.readAt_eq_ld, Memref.IsWhole.read_unread, View.ld_unit_zero (S := S1024x3) zero2, View.ld_unit_zero (S := S1024x1) zero2, View.ld_unit_zero (S := S1x1024) zero2,
      View.readCov_unit_zero (S := S1x1024) _ zero2]
  iexists _; isplitr
  swap; · iexact HS
  ipureintro
  sl_unfold_words
  rw [read_writes_whole _ _ zero2]
  simp only [View.readAt_eq_ld, Memref.IsWhole.read_unread, View.ld_unit_zero (S := S1024x3) zero2, View.ld_unit_zero (S := S1024x1) zero2, View.ld_unit_zero (S := S1x1024) zero2]

end Cert.Kernel.Hand

end
-- ==== Proof.K.Data1.lean ====
/-
  The proof data of one of the two pallas_calls (each takes, for every point of its first cloud, the minimum over its second cloud), at a parameter V: the contents of
  the TensorCore's buffers when the region is entered.

  The grid is 16 x 16, point t = 16·i + j. Windows 0..3 are inputs (the a-rows block i, the b-rows block j, the squared
  norms of those rows), each found in its staging buffer at its block of the entry array at every point. Window 4 is the
  output row block i, stored only at j = 15. Between points the kernel keeps its running minimum in a scratch row:
  `scAtR1 V c t` is what that row holds after point t,
      scAt(t) = step_t( +inf )          if j = 0,
      scAt(t) = step_t( scAt(t-1) )     otherwise,
  where step_t(s) = min(s, row minima of block pair (i, j)) is the generated payload `k1_pay2` at the four input blocks.
  The region invariant carries the scratch row at scAt(t-1) before point t (at anything before the first point), the
  rest of the scoped memory unopened, and the generator register untouched; the output block after point t is scAt(t)
  (at j = 15; elsewhere the window is idle and the value is not consulted).
-/
import proofs.«130439_j26027501814344_1_alg».proof.Proof.K.Body1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-- Window w's block at point t, read off its array as the region finds it. -/
def iblkR1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or carried over from the point
    before (its block index has not moved), for any proof data over V whose body leaves the block in place. -/
theorem beforeR1_0_of {c : Dev nD} (dat : Dat τ (Elt F) Unit ℕ (UR sig nD τ) ℕ cfg1 c) (hA : dat.A 0 = V c (Pipeline.arrRef spec1 0))
    (hafter : ∀ t, dat.after 0 t = iblkR1 V c 0 t) (t : Fin cfg1.N) (d) : dat.before 0 t d = iblkR1 V c 0 t :=
  (dat.before_in_eq_fetched 0 rfl (fun _ => rfl) (fun _ _ _ => rfl) (fun t => by rw [hafter]; unfold Dat.blockOf iblkR1; rw [hA]; try rfl) t d).trans
    (by unfold Dat.fetched Dat.blockOf iblkR1; rw [hA]; try rfl)

/-- Input window 1's current staging buffer holds its block at every point, fetched there or carried over from the point
    before (its block index has not moved), for any proof data over V whose body leaves the block in place. -/
theorem beforeR1_1_of {c : Dev nD} (dat : Dat τ (Elt F) Unit ℕ (UR sig nD τ) ℕ cfg1 c) (hA : dat.A 1 = V c (Pipeline.arrRef spec1 1))
    (hafter : ∀ t, dat.after 1 t = iblkR1 V c 1 t) (t : Fin cfg1.N) (d) : dat.before 1 t d = iblkR1 V c 1 t :=
  (dat.before_in_eq_fetched 1 rfl (fun _ => rfl) (fun _ _ _ => rfl) (fun t => by rw [hafter]; unfold Dat.blockOf iblkR1; rw [hA]; try rfl) t d).trans
    (by unfold Dat.fetched Dat.blockOf iblkR1; rw [hA]; try rfl)

/-- Input window 2's current staging buffer holds its block at every point, fetched there or carried over from the point
    before (its block index has not moved), for any proof data over V whose body leaves the block in place. -/
theorem beforeR1_2_of {c : Dev nD} (dat : Dat τ (Elt F) Unit ℕ (UR sig nD τ) ℕ cfg1 c) (hA : dat.A 2 = V c (Pipeline.arrRef spec1 2))
    (hafter : ∀ t, dat.after 2 t = iblkR1 V c 2 t) (t : Fin cfg1.N) (d) : dat.before 2 t d = iblkR1 V c 2 t :=
  (dat.before_in_eq_fetched 2 rfl (fun _ => rfl) (fun _ _ _ => rfl) (fun t => by rw [hafter]; unfold Dat.blockOf iblkR1; rw [hA]; try rfl) t d).trans
    (by unfold Dat.fetched Dat.blockOf iblkR1; rw [hA]; try rfl)

/-- Input window 3's current staging buffer holds its block at every point, fetched there or carried over from the point
    before (its block index has not moved), for any proof data over V whose body leaves the block in place. -/
theorem beforeR1_3_of {c : Dev nD} (dat : Dat τ (Elt F) Unit ℕ (UR sig nD τ) ℕ cfg1 c) (hA : dat.A 3 = V c (Pipeline.arrRef spec1 3))
    (hafter : ∀ t, dat.after 3 t = iblkR1 V c 3 t) (t : Fin cfg1.N) (d) : dat.before 3 t d = iblkR1 V c 3 t :=
  (dat.before_in_eq_fetched 3 rfl (fun _ => rfl) (fun _ _ _ => rfl) (fun t => by rw [hafter]; unfold Dat.blockOf iblkR1; rw [hA]; try rfl) t d).trans
    (by unfold Dat.fetched Dat.blockOf iblkR1; rw [hA]; try rfl)

/-- The scratch row, as a whole-buffer memref. -/
abbrev scMR1 : Memref sig .tc .vmem S1x1024 .f32 := Memref.whole cc1_scratch0

/-- One step at point t: the new running minimum from the previous one and the point's four input blocks. -/
def stepR1 (c : Dev nD) (t : Fin cfg1.N) (s : Vec F S1x1024 .f32) : Vec F S1x1024 .f32 :=
  k1_pay2 (iblkR1 V c 0 t) (iblkR1 V c 1 t) (iblkR1 V c 2 t) (iblkR1 V c 3 t) s

/-- The scratch row after point n: restarted from +inf at the first step of each sweep. -/
def scAtR1 (c : Dev nD) : (n : ℕ) → n < cfg1.N → Vec F S1x1024 .f32
  | 0, hn => stepR1 V c ⟨0, hn⟩ (k1_pay1 (F := F))
  | n + 1, hn => stepR1 V c ⟨n + 1, hn⟩ (if (n + 1) % 16 = 0 then k1_pay1 (F := F) else scAtR1 c n (Nat.lt_of_succ_lt hn))

theorem scAtR1_first (c : Dev nD) (t : Fin cfg1.N) (h : t.val % 16 = 0) :
    scAtR1 V c t.val t.isLt = stepR1 V c t (k1_pay1 (F := F)) := by
  obtain ⟨n, hn⟩ := t
  cases n with
  | zero => rfl
  | succ n => show stepR1 V c ⟨n + 1, hn⟩ (if (n + 1) % 16 = 0 then _ else _) = _; rw [if_pos h]

theorem scAtR1_next (c : Dev nD) (t : Fin cfg1.N) (h : ¬t.val % 16 = 0) :
    scAtR1 V c t.val t.isLt = stepR1 V c t (scAtR1 V c (t.val - 1) (Nat.lt_of_le_of_lt (Nat.sub_le _ _) t.isLt)) := by
  obtain ⟨n, hn⟩ := t
  cases n with
  | zero => exact absurd (Nat.zero_mod _) h
  | succ n => show stepR1 V c ⟨n + 1, hn⟩ (if (n + 1) % 16 = 0 then _ else _) = _; rw [if_neg h]; rfl

/-- The scoped memory no window stages: the scratch row, and everything else unopened. -/
theorem scopedSplitR1 (c : Dev nD) :
    (Pipeline.scopedRest (Ix := Unit) (Name := ℕ) (U := UR sig nD τ) (Lvl := ℕ) (Val := Elt F) spec1 c : sProp 𝕄)
      = iprop((∃ f : Buf (Elt F) ((c : Thread nD τ).loc cc1_scratch0), ((c : Thread nD τ).loc cc1_scratch0) ↦{fullShare} f)
          ∗ Pipeline.scopedRestBut (Ix := Unit) (Name := ℕ) (U := UR sig nD τ) (Lvl := ℕ) (Val := Elt F) spec1 c [cc1_scratch0]) :=
  Pipeline.scopedRest_split_of_list spec1 c [cc1_scratch0] (by decide) (by decide)

/-- Everything scoped but the staging buffers and the scratch row. -/
abbrev restR1 (c : Dev nD) : sProp 𝕄 :=
  Pipeline.scopedRestBut (Ix := Unit) (Name := ℕ) (U := UR sig nD τ) (Lvl := ℕ) (Val := Elt F) spec1 c [cc1_scratch0]

/-- The class invariant with the scratch row as an owned memref at some contents. -/
theorem PhiA_R1 (c : Dev nD) :
    (Pipeline.ΦA spec1 c : sProp 𝕄)
      = iprop(((∃ d, owns (c : Thread nD τ) scMR1 fullShare d) ∗ restR1 (F := F) c) ∗ (∃ r, prngReg c r)) := by
  unfold Pipeline.ΦA; rw [scopedSplitR1]; simp only [scMR1, owns_whole]; try rfl

/-- The region invariant before position n: the class's before the first point; afterwards the scratch row at what the
    point before left. -/
def PhiR1 (c : Dev nD) : (n : ℕ) → n ≤ cfg1.N → sProp 𝕄
  | 0, _ => Pipeline.ΦA spec1 c
  | n + 1, hn => iprop((owns (c : Thread nD τ) scMR1 fullShare (scAtR1 V c n hn) ∗ restR1 (F := F) c) ∗ (∃ r, prngReg c r))

theorem PhiR1_zero (c : Dev nD) (n : ℕ) (h : n ≤ cfg1.N) (hz : n = 0) : PhiR1 V c n h = Pipeline.ΦA spec1 c := by
  subst hz; rfl
theorem PhiR1_succ (c : Dev nD) (n : ℕ) (hn : n < cfg1.N) :
    PhiR1 V c (n + 1) hn = iprop((owns (c : Thread nD τ) scMR1 fullShare (scAtR1 V c n hn) ∗ restR1 (F := F) c) ∗ (∃ r, prngReg c r)) := rfl
theorem PhiR1_pos (c : Dev nD) (n : ℕ) (h : n ≤ cfg1.N) (hz : n ≠ 0) :
    PhiR1 V c n h = iprop((owns (c : Thread nD τ) scMR1 fullShare (scAtR1 V c (n - 1) (by omega)) ∗ restR1 (F := F) c) ∗ (∃ r, prngReg c r)) := by
  cases n with
  | zero => exact absurd rfl hz
  | succ n => rfl

/-- The proof data. -/
def datR1 (c : Dev nD) : Dat τ (Elt F) Unit ℕ (UR sig nD τ) ℕ cfg1 c where
  A w := V c (Pipeline.arrRef spec1 w)
  after w t := match w with
    | ⟨0, _⟩ => iblkR1 V c 0 t
    | ⟨1, _⟩ => iblkR1 V c 1 t
    | ⟨2, _⟩ => iblkR1 V c 2 t
    | ⟨3, _⟩ => iblkR1 V c 3 t
    | ⟨4, _⟩ => scAtR1 V c t.val t.isLt
  Φ t := PhiR1 V c t.val (Nat.le_of_lt_succ t.isLt)
  q _ := fullShare
  owed _ := 0

theorem A_R1 (c : Dev nD) (w : Fin cfg1.W) : (datR1 V c).A w = V c (Pipeline.arrRef spec1 w) := by
  dsimp only [datR1]
theorem afterR1_0 (c : Dev nD) (t : Fin cfg1.N) : (datR1 V c).after 0 t = iblkR1 V c 0 t := by dsimp only [datR1]
theorem afterR1_1 (c : Dev nD) (t : Fin cfg1.N) : (datR1 V c).after 1 t = iblkR1 V c 1 t := by dsimp only [datR1]
theorem afterR1_2 (c : Dev nD) (t : Fin cfg1.N) : (datR1 V c).after 2 t = iblkR1 V c 2 t := by dsimp only [datR1]
theorem afterR1_3 (c : Dev nD) (t : Fin cfg1.N) : (datR1 V c).after 3 t = iblkR1 V c 3 t := by dsimp only [datR1]
theorem afterR1_4 (c : Dev nD) (t : Fin cfg1.N) : (datR1 V c).after 4 t = scAtR1 V c t.val t.isLt := by dsimp only [datR1]
theorem beforeR1_0 (c : Dev nD) (t : Fin cfg1.N) (d) : (datR1 V c).before 0 t d = iblkR1 V c 0 t :=
  beforeR1_0_of V (datR1 V c) (A_R1 V c 0) (afterR1_0 V c) t d
theorem beforeR1_1 (c : Dev nD) (t : Fin cfg1.N) (d) : (datR1 V c).before 1 t d = iblkR1 V c 1 t :=
  beforeR1_1_of V (datR1 V c) (A_R1 V c 1) (afterR1_1 V c) t d
theorem beforeR1_2 (c : Dev nD) (t : Fin cfg1.N) (d) : (datR1 V c).before 2 t d = iblkR1 V c 2 t :=
  beforeR1_2_of V (datR1 V c) (A_R1 V c 2) (afterR1_2 V c) t d
theorem beforeR1_3 (c : Dev nD) (t : Fin cfg1.N) (d) : (datR1 V c).before 3 t d = iblkR1 V c 3 t :=
  beforeR1_3_of V (datR1 V c) (A_R1 V c 3) (afterR1_3 V c) t d

theorem Phi_castSuccR1 (c : Dev nD) (t : Fin cfg1.N) :
    (datR1 V c).Φ t.castSucc = PhiR1 V c t.val (Nat.le_of_lt t.isLt) := by
  dsimp only [datR1]; simp only [Fin.coe_castSucc]

/-! ## The body obligation -/

def bodyPreR1 (c : Dev nD) (t : Fin cfg1.N) : sProp 𝕄 :=
  iprop((datR1 V c).Φ t.castSucc ∗ (datR1 V c).owesAt () t.castSucc
    ∗ (∃ d, owns (c : Thread nD τ) (st1_0 t) fullShare ((datR1 V c).before 0 t d))
    ∗ (∃ d, owns (c : Thread nD τ) (st1_1 t) fullShare ((datR1 V c).before 1 t d))
    ∗ (∃ d, owns (c : Thread nD τ) (st1_2 t) fullShare ((datR1 V c).before 2 t d))
    ∗ (∃ d, owns (c : Thread nD τ) (st1_3 t) fullShare ((datR1 V c).before 3 t d))
    ∗ (∃ d, owns (c : Thread nD τ) (st1_4 t) fullShare ((datR1 V c).before 4 t d)))

def bodyPostR1 (c : Dev nD) (t : Fin cfg1.N) : sProp 𝕄 :=
  iprop((datR1 V c).Φ t.succ ∗ (datR1 V c).owesAt () t.succ
    ∗ (datR1 V c).leavesExact 0 t
    ∗ (datR1 V c).leavesExact 1 t
    ∗ (datR1 V c).leavesExact 2 t
    ∗ (datR1 V c).leavesExact 3 t
    ∗ (datR1 V c).leavesExact 4 t)

set_option maxHeartbeats 4800000 in
/-- The body at any point: the position in the sweep picks the triple; the invariant hands over the scratch row and takes
    it back at this point's contents. -/
theorem sound_bodyR1 (c : Dev nD) (t : Fin cfg1.N) :
    bodyPreR1 V c t ⊢ wp frame (wpE (defs₀ (F := F)) Variants.none c none) Set.univ (bodyAt1 t) (fun _ => bodyPostR1 V c t) := by
  unfold bodyPreR1 bodyPostR1 bodyAt1
  simp only [beforeR1_0, beforeR1_1, beforeR1_2, beforeR1_3]
  rw [show (datR1 V c).owesAt () t.succ = (datR1 V c).owesAt () t.castSucc from rfl]
  rw [show (datR1 V c).Φ t.succ = PhiR1 V c (t.val + 1) t.isLt from rfl, PhiR1_succ]
  rw [show (datR1 V c).leavesExact 0 t = owns (c : Thread nD τ) (st1_0 t) fullShare ((datR1 V c).after 0 t) from by
    unfold Dat.leavesExact; rw [liveR1_0 t], afterR1_0]
  rw [show (datR1 V c).leavesExact 1 t = owns (c : Thread nD τ) (st1_1 t) fullShare ((datR1 V c).after 1 t) from by
    unfold Dat.leavesExact; rw [liveR1_1 t], afterR1_1]
  rw [show (datR1 V c).leavesExact 2 t = owns (c : Thread nD τ) (st1_2 t) fullShare ((datR1 V c).after 2 t) from by
    unfold Dat.leavesExact; rw [liveR1_2 t], afterR1_2]
  rw [show (datR1 V c).leavesExact 3 t = owns (c : Thread nD τ) (st1_3 t) fullShare ((datR1 V c).after 3 t) from by
    unfold Dat.leavesExact; rw [liveR1_3 t], afterR1_3]
  have hN : t.val < 256 := lt_of_lt_of_eq t.isLt (show cfg1.N = 256 from N_1)
  by_cases hf : t.val % 16 = 0
  · have hl : ¬t.val % 16 = 15 := by omega
    rw [Dat.leavesExact_idle (datR1 V c) 4 t (idleR1_4 t (fun h => hl ((lastR1_iff t).mp h))) (noFlushR1_4 t (fun h => hl ((lastR1_iff t).mp h)))]
    rw [scAtR1_first V c t hf]
    unfold stepR1
    by_cases hz : t.val = 0
    · rw [Phi_castSuccR1 V c t, PhiR1_zero V c _ _ hz, PhiA_R1]
      iintro ⟨⟨⟨HS, Hrest⟩, Hg⟩, Ho, ⟨%d0, H0⟩, ⟨%d1, H1⟩, ⟨%d2, H2⟩, ⟨%d3, H3⟩, ⟨%d4, H4⟩⟩
      iapply (stepFirstR1 c (grid1.coords t) _ _ _ _ _ _ _ _ _ _ _ _ ((firstR1_iff t).mpr hf) (fun h => hl ((lastR1_iff t).mp h)) (iblkR1 V c 0 t) (iblkR1 V c 1 t) (iblkR1 V c 2 t) (iblkR1 V c 3 t) _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      isplitl [H2]; · iexact H2
      isplitl [H3]; · iexact H3
      iexists _; iexact H4
    · rw [Phi_castSuccR1 V c t, PhiR1_pos V c _ _ hz]
      iintro ⟨⟨⟨HS, Hrest⟩, Hg⟩, Ho, ⟨%d0, H0⟩, ⟨%d1, H1⟩, ⟨%d2, H2⟩, ⟨%d3, H3⟩, ⟨%d4, H4⟩⟩
      iapply (stepFirstR1 c (grid1.coords t) _ _ _ _ _ _ _ _ _ _ _ _ ((firstR1_iff t).mpr hf) (fun h => hl ((lastR1_iff t).mp h)) (iblkR1 V c 0 t) (iblkR1 V c 1 t) (iblkR1 V c 2 t) (iblkR1 V c 3 t) _ Set.univ _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun h => hf (by rw [h])
    rw [scAtR1_next V c t hf]
    unfold stepR1
    rw [Phi_castSuccR1 V c t, PhiR1_pos V c _ _ hz]
    by_cases hl : t.val % 16 = 15
    · rw [show (datR1 V c).leavesExact 4 t = owns (c : Thread nD τ) (st1_4 t) fullShare ((datR1 V c).after 4 t) from by
        unfold Dat.leavesExact; rw [liveR1_4 t ((lastR1_iff t).mpr hl)], afterR1_4, scAtR1_next V c t hf]
      unfold stepR1
      iintro ⟨⟨⟨HS, Hrest⟩, Hg⟩, Ho, ⟨%d0, H0⟩, ⟨%d1, H1⟩, ⟨%d2, H2⟩, ⟨%d3, H3⟩, ⟨%d4, H4⟩⟩
      iapply (stepLastR1 c (grid1.coords t) _ _ _ _ _ _ _ _ _ _ _ _ (fun h => hf ((firstR1_iff t).mp h)) ((lastR1_iff t).mpr hl) (iblkR1 V c 0 t) (iblkR1 V c 1 t) (iblkR1 V c 2 t) (iblkR1 V c 3 t) _ Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      isplitl [H2]; · iexact H2
      isplitl [H3]; · iexact H3
      iexact H4
    · rw [Dat.leavesExact_idle (datR1 V c) 4 t (idleR1_4 t (fun h => hl ((lastR1_iff t).mp h))) (noFlushR1_4 t (fun h => hl ((lastR1_iff t).mp h)))]
      iintro ⟨⟨⟨HS, Hrest⟩, Hg⟩, Ho, ⟨%d0, H0⟩, ⟨%d1, H1⟩, ⟨%d2, H2⟩, ⟨%d3, H3⟩, ⟨%d4, H4⟩⟩
      iapply (stepMiddleR1 c (grid1.coords t) _ _ _ _ _ _ _ _ _ _ _ _ (fun h => hf ((firstR1_iff t).mp h)) (fun h => hl ((lastR1_iff t).mp h)) (iblkR1 V c 0 t) (iblkR1 V c 1 t) (iblkR1 V c 2 t) (iblkR1 V c 3 t) _ _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligationR1 (c : Dev nD) : BodyObligation (datR1 (F := F) V c) (defs₀ (F := F)) Variants.none () Set.univ := fun t => by
  rw [bigSep_W1, bigSep_W1]
  exact sound_bodyR1 V c t

/-- What the launch hands the region is the invariant before the first point. -/
theorem hinR1 (c : Dev nD) : Pipeline.ΦA spec1 c ⊢ (datR1 V c).Φ 0 := by
  rw [show (datR1 V c).Φ 0 = PhiR1 V c 0 (Nat.zero_le _) from rfl, PhiR1_zero V c 0 _ rfl]
  try exact Idealize.SL.BI.Entails.refl _

/-- After the last point the invariant gives the class's back: what the scratch row holds is forgotten. -/
theorem houtR1 (c : Dev nD) : (datR1 V c).Φ (Fin.last cfg1.N) ⊢ Pipeline.ΦA spec1 c := by
  rw [show (datR1 V c).Φ (Fin.last cfg1.N) = PhiR1 V c (Fin.last cfg1.N).val (Nat.le_of_lt_succ (Fin.last cfg1.N).isLt) from rfl,
    PhiR1_pos V c _ _ (by rw [Fin.val_last]; have : cfg1.N = 256 := N_1; omega), PhiA_R1]
  iintro ⟨⟨HS, Hrest⟩, Hg⟩
  isplitl [HS Hrest]
  · isplitl [HS]; · iexists _; iexact HS
    iexact Hrest
  iexact Hg

end Region1

end Cert.Kernel.Hand

end
-- ==== Proof.K.Main.lean ====
/-
  The whole run of @main: host operations, the first pallas_call, one reshape, the second pallas_call, the host tail.
  The contents of the TensorCore's unscoped buffers are followed from the launch memory through the five items
  (`W0` … `W5`): a host stretch applies its operations; a pallas_call replaces its windows' arrays by what its
  write-backs leave (`Dat.arrAt … N` of its proof data: the inputs as entered, the output row as the blocks stored)
  and touches nothing else. Every weakly fair execution terminates with EVERY unscoped buffer at `W5`; the four
  argument arrays are written by no item, so they end as launched.
-/
import proofs.«130439_j26027501814344_1_alg».proof.Proof.K.Data0
import proofs.«130439_j26027501814344_1_alg».proof.Proof.K.Data1
import proofs.«130439_j26027501814344_1_alg».proof.Proof.Gen.Kernel.Regions
import Idealize.ShloMosaic.Lib.Pipeline.RegionsLoop

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg)

/-! ## The buffer contents at each boundary -/

/-- At launch. -/
abbrev W0 : Dev nD → Valuation τ sig (Elt F) := fun c b => m ((c : Dev nD), b)
/-- After the first host stretch (the first pallas_call's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At the first pallas_call's exit. -/
def W2 (c : Dev nD) : Valuation τ sig (Elt F) :=
  Pipeline.withArrays spec0 c (W1 m c) fun w => (datR0 (V1 m) c).arrAt w cfg0.N
theorem W2_arr (c : Dev nD) (w : Fin cfg0.W) :
    W2 m c (Proc.devRef .tc (Pipeline.arrRef spec0 w)) = (datR0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (datR0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- After the reshape between the calls (the second pallas_call's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At the second pallas_call's exit. -/
def W4 (c : Dev nD) : Valuation τ sig (Elt F) :=
  Pipeline.withArrays spec1 c (W3 m c) fun w => (datR1 (V3 m) c).arrAt w cfg1.N
theorem W4_arr (c : Dev nD) (w : Fin cfg1.W) :
    W4 m c (Proc.devRef .tc (Pipeline.arrRef spec1 w)) = (datR1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (datR1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)
/-- After the host tail: the end. -/
abbrev W5 : Dev nD → Valuation τ sig (Elt F) := fun c => StableHlo.after hostOps2 (W4 m c)

/-! ## The arguments end as launched -/

theorem W5_main_arg0 (c : Dev nD) : W5 m c (Proc.devRef .tc main_arg0) = m ((c : Thread nD τ).loc main_arg0) :=
  calc W5 m c (Proc.devRef .tc main_arg0)
    _ = W4 m c (Proc.devRef .tc main_arg0) := StableHlo.after_of_writes_sub hostOps2 _ hostOps2_writes (by decide : main_arg0 ∉ hostOps2_W)
    _ = W3 m c (Proc.devRef .tc main_arg0) := ((W4_arr m c 1).trans (((datR1 (V3 m) c).arrAt_in 1 rfl _).trans (A_R1 (V3 m) c 1)))
    _ = W2 m c (Proc.devRef .tc main_arg0) := StableHlo.after_of_writes_sub hostOps1 _ hostOps1_writes (by decide : main_arg0 ∉ hostOps1_W)
    _ = W1 m c (Proc.devRef .tc main_arg0) := ((W2_arr m c 0).trans (((datR0 (V1 m) c).arrAt_in 0 rfl _).trans (A_R0 (V1 m) c 0)))
    _ = W0 m c (Proc.devRef .tc main_arg0) := StableHlo.after_of_writes_sub hostOps0 _ hostOps0_writes (by decide : main_arg0 ∉ hostOps0_W)
    _ = m ((c : Thread nD τ).loc main_arg0) := rfl
theorem W5_main_arg1 (c : Dev nD) : W5 m c (Proc.devRef .tc main_arg1) = m ((c : Thread nD τ).loc main_arg1) :=
  calc W5 m c (Proc.devRef .tc main_arg1)
    _ = W4 m c (Proc.devRef .tc main_arg1) := StableHlo.after_of_writes_sub hostOps2 _ hostOps2_writes (by decide : main_arg1 ∉ hostOps2_W)
    _ = W3 m c (Proc.devRef .tc main_arg1) := ((W4_arr m c 0).trans (((datR1 (V3 m) c).arrAt_in 0 rfl _).trans (A_R1 (V3 m) c 0)))
    _ = W2 m c (Proc.devRef .tc main_arg1) := StableHlo.after_of_writes_sub hostOps1 _ hostOps1_writes (by decide : main_arg1 ∉ hostOps1_W)
    _ = W1 m c (Proc.devRef .tc main_arg1) := ((W2_arr m c 1).trans (((datR0 (V1 m) c).arrAt_in 1 rfl _).trans (A_R0 (V1 m) c 1)))
    _ = W0 m c (Proc.devRef .tc main_arg1) := StableHlo.after_of_writes_sub hostOps0 _ hostOps0_writes (by decide : main_arg1 ∉ hostOps0_W)
    _ = m ((c : Thread nD τ).loc main_arg1) := rfl
theorem W5_main_arg2 (c : Dev nD) : W5 m c (Proc.devRef .tc main_arg2) = m ((c : Thread nD τ).loc main_arg2) :=
  calc W5 m c (Proc.devRef .tc main_arg2)
    _ = W4 m c (Proc.devRef .tc main_arg2) := StableHlo.after_of_writes_sub hostOps2 _ hostOps2_writes (by decide : main_arg2 ∉ hostOps2_W)
    _ = W3 m c (Proc.devRef .tc main_arg2) := (W4_of_ne m c main_arg2 (by decide))
    _ = W2 m c (Proc.devRef .tc main_arg2) := StableHlo.after_of_writes_sub hostOps1 _ hostOps1_writes (by decide : main_arg2 ∉ hostOps1_W)
    _ = W1 m c (Proc.devRef .tc main_arg2) := (W2_of_ne m c main_arg2 (by decide))
    _ = W0 m c (Proc.devRef .tc main_arg2) := StableHlo.after_of_writes_sub hostOps0 _ hostOps0_writes (by decide : main_arg2 ∉ hostOps0_W)
    _ = m ((c : Thread nD τ).loc main_arg2) := rfl
theorem W5_main_arg3 (c : Dev nD) : W5 m c (Proc.devRef .tc main_arg3) = m ((c : Thread nD τ).loc main_arg3) :=
  calc W5 m c (Proc.devRef .tc main_arg3)
    _ = W4 m c (Proc.devRef .tc main_arg3) := StableHlo.after_of_writes_sub hostOps2 _ hostOps2_writes (by decide : main_arg3 ∉ hostOps2_W)
    _ = W3 m c (Proc.devRef .tc main_arg3) := (W4_of_ne m c main_arg3 (by decide))
    _ = W2 m c (Proc.devRef .tc main_arg3) := StableHlo.after_of_writes_sub hostOps1 _ hostOps1_writes (by decide : main_arg3 ∉ hostOps1_W)
    _ = W1 m c (Proc.devRef .tc main_arg3) := (W2_of_ne m c main_arg3 (by decide))
    _ = W0 m c (Proc.devRef .tc main_arg3) := StableHlo.after_of_writes_sub hostOps0 _ hostOps0_writes (by decide : main_arg3 ∉ hostOps0_W)
    _ = m ((c : Thread nD τ).loc main_arg3) := rfl

/-! ## The proof data family and the thread state -/

abbrev admH : (p : Fin 2) → (pcfgs (F := F) p).Adm := fun p => (cfgs p).toPCfg_adm
/-- Both pipelines' proof data, each at its region's entry contents. -/
def pdats : (p : Fin 2) → (c : Dev nD) → Dat τ (Elt F) Unit ℕ (UR sig nD τ) ℕ (Pipeline.pin (pcfgs (F := F)) admH p) c
  | ⟨0, _⟩ => fun c => datR0 (V1 m) c
  | ⟨1, _⟩ => fun c => datR1 (V3 m) c
abbrev 𝒱H : Variants := Variants.none
abbrev LH : GSem nD τ sig → Finset Unit := fun _ => ∅
abbrev lvH : GSem nD τ sig → Unit → ℕ := fun _ _ => 0
/-- What rides beside the buffers through every item: the generator register at some state, and nothing owed. -/
abbrev RR (c : Dev nD) : sProp 𝕄 := iprop((∃ r, prngReg c r) ∗ ∃ W, owes (c : Thread nD τ) (0 : CellTallies nD τ sig Unit) W)
/-- A host stretch as a segment over the unscoped buffers from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱H LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RR

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev TN (c : Dev nD) : sProp 𝕄 := iprop(StableHlo.held (c : Thread nD τ) (Pipeline.ucRefs τ sig) (W5 m c) ∗ ∃ r, prngReg c r)

/-! ## The two pallas_calls as segments -/

-- a library lemma stated over the pinned configuration unifies with the printed one only when unification may unfold
-- plain definitions in a metavariable's type
set_option backward.isDefEq.respectTransparency.types false in
/-- The pallas_call number 0 as a segment of @main: entered with every unscoped buffer at `W1`, left with them at
    `W2`. Its arrays are split out of the unscoped buffers at entry and put back at exit; the generator register
    and the scoped memory go into the region invariant and come back; nothing is owed; the kernel has no semaphore of its own. -/
def reg0 : Pipeline.RegionSeg (pcfgs (F := F)) admH (pdats m) () defs₀ 𝒱H LH lvH 0 where
  win := launch0.win.to₀
  block_pos := launch0.block_pos
  stage_whole := launch0.stage_whole
  K := PEmpty
  osem k := k.elim
  ho := Pipeline.OwnSemFacts.none _
  hbody c := (body_obligationR0 (V1 m) c).loose
  hwaits := Pipeline.hwaits_of_owed_zero _ _ _ _ LH lvH 0 fun _ _ => rfl
  pre c := iprop(StableHlo.held (c : Thread nD τ) (Pipeline.ucRefs τ sig) (W1 m c) ∗ RR c)
  post c := iprop(StableHlo.held (c : Thread nD τ) (Pipeline.ucRefs τ sig) (W2 m c) ∗ RR c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) admH (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hinR0 (V1 m) c)
    unfold Pipeline.ΦA
    iintro ⟨Hp, -, Hr⟩
    isplitl [Hr]; · iexact Hr
    iexact Hp
  hout c := by
    rw [Pipeline.ownSems0_none]
    refine BIBase.Entails.trans (houtR0 (V1 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- The pallas_call number 1 as a segment of @main: entered with every unscoped buffer at `W3`, left with them at
    `W4`. Its arrays are split out of the unscoped buffers at entry and put back at exit; the generator register
    and the scoped memory go into the region invariant and come back; nothing is owed; the kernel has no semaphore of its own. -/
def reg1 : Pipeline.RegionSeg (pcfgs (F := F)) admH (pdats m) () defs₀ 𝒱H LH lvH 1 where
  win := launch1.win.to₀
  block_pos := launch1.block_pos
  stage_whole := launch1.stage_whole
  K := PEmpty
  osem k := k.elim
  ho := Pipeline.OwnSemFacts.none _
  hbody c := (body_obligationR1 (V3 m) c).loose
  hwaits := Pipeline.hwaits_of_owed_zero _ _ _ _ LH lvH 1 fun _ _ => rfl
  pre c := iprop(StableHlo.held (c : Thread nD τ) (Pipeline.ucRefs τ sig) (W3 m c) ∗ RR c)
  post c := iprop(StableHlo.held (c : Thread nD τ) (Pipeline.ucRefs τ sig) (W4 m c) ∗ RR c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) admH (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hinR1 (V3 m) c)
    unfold Pipeline.ΦA
    iintro ⟨Hp, -, Hr⟩
    isplitl [Hr]; · iexact Hr
    iexact Hp
  hout c := by
    rw [Pipeline.ownSems0_none]
    refine BIBase.Entails.trans (houtR1 (V3 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segsH : List (Pipeline.Seg (pcfgs (F := F)) admH (pdats m) () defs₀ 𝒱H LH lvH) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)) ]

theorem main_runH (c : Dev nD) : main (F := F) c = Pipeline.Seg.run (segsH m) := (main_chain c).trans (by chain_rfl)

set_option backward.isDefEq.respectTransparency.types false in
/-- THE RUN: every weakly fair execution of @main from memory `m` with zero counters terminates, nothing faulting, with
    every unscoped TensorCore buffer at `W5`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) admH (pdats m) () cellOf_inj emb₁ defs₀ 𝒱H LH lvH m ρ main (segsH m)
    (fun c Q => by rw [main_runH m c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ RR c)) (Tₙ := TN m)
    (hch := ⟨fun _ => .rfl, fun _ => .rfl, fun _ => .rfl, fun _ => .rfl, fun _ => .rfl, fun c => by
      show (iprop(StableHlo.held (c : Thread nD τ) (Pipeline.ucRefs τ sig) (W5 m c) ∗ RR c) : sProp 𝕄) ⊢ _
      iintro ⟨Hh, Hp, HO⟩
      isplitl [Hh Hp]
      · isplitl [Hh]; · iexact Hh
        iexact Hp
      iexact HO⟩)
    (hinit := by
      refine Pipeline.initEach LH lvH fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

/-- THE FRAME: the argument arrays end as launched. -/
theorem frameH : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W5_main_arg0 m c),
     (h c _ (mem_uc main_arg1 (by decide))).trans (W5_main_arg1 m c),
     (h c _ (mem_uc main_arg2 (by decide))).trans (W5_main_arg2 m c),
     (h c _ (mem_uc main_arg3 (by decide))).trans (W5_main_arg3 m c)⟩) (run_all m ρ)

end Cert.Kernel.Hand

end
-- ==== Proof.KI.Cases.lean ====
/-
  Where each grid point of the two pallas_calls sits in its sweep. Both grids are 16 x 16, walked row-major, so point
  t has sweep position t % 16: the running minimum is reset at position 0 and written to the output block at
  position 15. These are the two scf.if conditions of the kernel body, decided over the 256 points, and what they
  mean for the output window: idle (nothing stored, nothing written back) everywhere but at position 15.
-/
import proofs.«130439_j26027501814344_1_alg».proof.Proof.Gen.KernelIdeal.Launch
import proofs.«130439_j26027501814344_1_alg».proof.Proof.Gen.KernelIdeal.Skeleton
import proofs.«130439_j26027501814344_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## Two facts about whole-buffer stores, used by every step of both kernels -/

/-- A whole-buffer store leaves its payload, whatever earlier stores and the prior contents were. -/
theorem read_writes_whole {Val : EltTy → Type} [∀ e, Nonempty (Val e)] {sg : RefSig} {κ : Kind} {sp : Space} {S : Shape} {e : EltTy}
    (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  subst h
  rw [View.read_writes_eq_canon _ _ _ (fun y => ⟨_, List.mem_cons_self, by
    show y ∈ (Rect.whole S).set; rw [Rect.set_whole]; exact Finset.mem_univ y⟩), View.canon_cons_unit_zero rfl]

theorem zero2 : (![0, 0] : Fin 2 → Nat) = fun _ => 0 := by funext a; fin_cases a <;> rfl

/-! ## Region 0 -/

/-- "This is the first step of the sweep" (the reset branch), as the body computes it from the grid coordinates. -/
abbrev firstR0 (i : grid0.Coords) : Prop := (Scalar.cmpi .ne (Scalar.extui (Scalar.cmpi .eq (BitVec.ofNat 32 (i 1).val) 0#32)) 0#32) = 1#1
/-- "This is the last step of the sweep" (the branch that stores the output block). -/
abbrev lastR0 (i : grid0.Coords) : Prop := k0_cond2 i = 1#1

theorem firstR0_iff : ∀ t : Fin cfg0.N, firstR0 (grid0.coords t) ↔ t.val % 16 = 0 :=
  (by decide +kernel : ∀ t : Fin grid0.N, firstR0 (grid0.coords t) ↔ t.val % 16 = 0)
theorem lastR0_iff : ∀ t : Fin cfg0.N, lastR0 (grid0.coords t) ↔ t.val % 16 = 15 :=
  (by decide +kernel : ∀ t : Fin grid0.N, lastR0 (grid0.coords t) ↔ t.val % 16 = 15)

/-- The four input windows are never idle. -/
theorem liveR0_0 : ∀ t : Fin cfg0.N, cfg0.idle 0 (grid0.coords t) = false := by decide +kernel
theorem liveR0_1 : ∀ t : Fin cfg0.N, cfg0.idle 1 (grid0.coords t) = false := by decide +kernel
theorem liveR0_2 : ∀ t : Fin cfg0.N, cfg0.idle 2 (grid0.coords t) = false := by decide +kernel
theorem liveR0_3 : ∀ t : Fin cfg0.N, cfg0.idle 3 (grid0.coords t) = false := by decide +kernel
/-- The output window is idle, and not written back, away from the last step of a sweep; live at the last step. -/
theorem idleR0_4 : ∀ t : Fin cfg0.N, ¬lastR0 (grid0.coords t) → cfg0.idle 4 (grid0.coords t) = true := by decide +kernel
theorem noFlushR0_4 : ∀ t : Fin cfg0.N, ¬lastR0 (grid0.coords t) → (cfg0.win 4).flush t = false := by decide +kernel
theorem liveR0_4 : ∀ t : Fin cfg0.N, lastR0 (grid0.coords t) → cfg0.idle 4 (grid0.coords t) = false := by decide +kernel

/-! ## Region 1 -/

abbrev firstR1 (i : grid1.Coords) : Prop := (Scalar.cmpi .ne (Scalar.extui (Scalar.cmpi .eq (BitVec.ofNat 32 (i 1).val) 0#32)) 0#32) = 1#1
abbrev lastR1 (i : grid1.Coords) : Prop := k1_cond2 i = 1#1

theorem firstR1_iff : ∀ t : Fin cfg1.N, firstR1 (grid1.coords t) ↔ t.val % 16 = 0 :=
  (by decide +kernel : ∀ t : Fin grid1.N, firstR1 (grid1.coords t) ↔ t.val % 16 = 0)
theorem lastR1_iff : ∀ t : Fin cfg1.N, lastR1 (grid1.coords t) ↔ t.val % 16 = 15 :=
  (by decide +kernel : ∀ t : Fin grid1.N, lastR1 (grid1.coords t) ↔ t.val % 16 = 15)

theorem liveR1_0 : ∀ t : Fin cfg1.N, cfg1.idle 0 (grid1.coords t) = false := by decide +kernel
theorem liveR1_1 : ∀ t : Fin cfg1.N, cfg1.idle 1 (grid1.coords t) = false := by decide +kernel
theorem liveR1_2 : ∀ t : Fin cfg1.N, cfg1.idle 2 (grid1.coords t) = false := by decide +kernel
theorem liveR1_3 : ∀ t : Fin cfg1.N, cfg1.idle 3 (grid1.coords t) = false := by decide +kernel
theorem idleR1_4 : ∀ t : Fin cfg1.N, ¬lastR1 (grid1.coords t) → cfg1.idle 4 (grid1.coords t) = true := by decide +kernel
theorem noFlushR1_4 : ∀ t : Fin cfg1.N, ¬lastR1 (grid1.coords t) → (cfg1.win 4).flush t = false := by decide +kernel
theorem liveR1_4 : ∀ t : Fin cfg1.N, lastR1 (grid1.coords t) → cfg1.idle 4 (grid1.coords t) = false := by decide +kernel

end Cert.KernelIdeal.Hand

end
-- ==== Proof.KI.Body0.lean ====
/-
  One step of the online-minimum kernel (the two pallas_calls run the same kernel function) as a Hoare triple, in the three situations a grid point can be in.
  Writing S for the running-minimum scratch row and R(x0,x1,x2,x3) for the row of minima the step computes from its
  four input blocks, the step's effect is S := min(S, R), preceded at the first step of a sweep by S := +inf and
  followed at the last step by a copy of S into the output block. The generated payload `k0_pay2 x0 x1 x2 x3 s` is
  exactly min(s, R(x0..x3)) and `k0_pay1` is the constant +inf row, so the three triples say:
    first step : scratch (anything)  ↦  k0_pay2 … k0_pay1, output block untouched;
    middle step: scratch s           ↦  k0_pay2 … s,       output block untouched;
    last step  : scratch s           ↦  k0_pay2 … s,       output block := the same row.
  The inputs' staging buffers are only read. Each store covers its whole buffer, so what a buffer holds afterwards is
  the last payload stored, whatever it held before.
-/
import proofs.«130439_j26027501814344_1_alg».proof.Proof.KI.Cases

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
theorem stepMiddleR0 (c : Dev nD) (i : grid0.Coords) (arg2 : Memref sig .tc .vmem S1024x3 .f32) (harg2 : arg2.IsWhole) (arg3 : Memref sig .tc .vmem S1024x3 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (hc0 : ¬firstR0 i) (hc1 : ¬lastR0 i)
    (x0 : Vec F S1024x3 .f32) (x1 : Vec F S1024x3 .f32) (x2 : Vec F S1024x1 .f32) (x3 : Vec F S1x1024 .f32) (xi4 : Vec F S1x1024 .f32) (xs : Vec F S1x1024 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg6 fullShare xi4 ∗ owns (c : Thread nD τ) arg7 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xi4 ∗ owns (c : Thread nD τ) arg7 fullShare (k0_pay2 x0 x1 x2 x3 xs)) -∗ K ⟨⟩))
      ⊢ wp frame (wpE (defs₀ (F := F)) Variants.none c none) E (cc0__min_dist_kernel i arg2 harg2 arg3 harg3 arg4 harg4 arg5 harg5 arg6 harg6 arg7 harg7) K := by
  simp only [cc0__min_dist_kernel_eq_skeleton]; unfold cc0__min_dist_kernel_skel
  unfold owns
  iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
  obtain rfl := harg2.eq_unread hf0; obtain rfl := harg3.eq_unread hf1; obtain rfl := harg4.eq_unread hf2; obtain rfl := harg5.eq_unread hf3; obtain rfl := harg7.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact hf4
    iexact H4
  iexists _; isplitr
  swap; · iexact HS
  ipureintro
  sl_unfold_words
  rw [read_writes_whole _ _ zero2]
  simp only [View.readAt_eq_ld, Memref.IsWhole.read_unread, View.ld_unit_zero (S := S1024x3) zero2, View.ld_unit_zero (S := S1024x1) zero2, View.ld_unit_zero (S := S1x1024) zero2]

set_option maxHeartbeats 1000000 in
theorem stepFirstR0 (c : Dev nD) (i : grid0.Coords) (arg2 : Memref sig .tc .vmem S1024x3 .f32) (harg2 : arg2.IsWhole) (arg3 : Memref sig .tc .vmem S1024x3 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (hc0 : firstR0 i) (hc1 : ¬lastR0 i)
    (x0 : Vec F S1024x3 .f32) (x1 : Vec F S1024x3 .f32) (x2 : Vec F S1024x1 .f32) (x3 : Vec F S1x1024 .f32) (xi4 : Vec F S1x1024 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg6 fullShare xi4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xi4 ∗ owns (c : Thread nD τ) arg7 fullShare (k0_pay2 x0 x1 x2 x3 (k0_pay1 (F := F)))) -∗ K ⟨⟩))
      ⊢ wp frame (wpE (defs₀ (F := F)) Variants.none c none) E (cc0__min_dist_kernel i arg2 harg2 arg3 harg3 arg4 harg4 arg5 harg5 arg6 harg6 arg7 harg7) K := by
  simp only [cc0__min_dist_kernel_eq_skeleton]; unfold cc0__min_dist_kernel_skel
  unfold owns
  iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
  obtain rfl := harg2.eq_unread hf0; obtain rfl := harg3.eq_unread hf1; obtain rfl := harg4.eq_unread hf2; obtain rfl := harg5.eq_unread hf3
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact hf4
    iexact H4
  iexists _; isplitr
  swap; · iexact HS
  ipureintro
  sl_unfold_words
  rw [read_writes_whole _ _ zero2]
  simp only [View.readAt_eq_ld, Memref.IsWhole.read_unread, View.ld_unit_zero (S := S1024x3) zero2, View.ld_unit_zero (S := S1024x1) zero2, View.ld_unit_zero (S := S1x1024) zero2,
    View.readCov_unit_zero (S := S1x1024) _ zero2]

set_option maxHeartbeats 1000000 in
theorem stepLastR0 (c : Dev nD) (i : grid0.Coords) (arg2 : Memref sig .tc .vmem S1024x3 .f32) (harg2 : arg2.IsWhole) (arg3 : Memref sig .tc .vmem S1024x3 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (hc0 : ¬firstR0 i) (hc1 : lastR0 i)
    (x0 : Vec F S1024x3 .f32) (x1 : Vec F S1024x3 .f32) (x2 : Vec F S1024x1 .f32) (x3 : Vec F S1x1024 .f32) (xs : Vec F S1x1024 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg6 fullShare d) ∗ owns (c : Thread nD τ) arg7 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (k0_pay2 x0 x1 x2 x3 xs) ∗ owns (c : Thread nD τ) arg7 fullShare (k0_pay2 x0 x1 x2 x3 xs)) -∗ K ⟨⟩))
      ⊢ wp frame (wpE (defs₀ (F := F)) Variants.none c none) E (cc0__min_dist_kernel i arg2 harg2 arg3 harg3 arg4 harg4 arg5 harg5 arg6 harg6 arg7 harg7) K := by
  simp only [cc0__min_dist_kernel_eq_skeleton]; unfold cc0__min_dist_kernel_skel
  unfold owns
  iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
  obtain rfl := harg2.eq_unread hf0; obtain rfl := harg3.eq_unread hf1; obtain rfl := harg4.eq_unread hf2; obtain rfl := harg5.eq_unread hf3; obtain rfl := harg7.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro
    sl_unfold_words
    rw [read_writes_whole _ _ zero2]
    simp only [View.readAt_eq_ld, Memref.IsWhole.read_unread, View.ld_unit_zero (S := S1024x3) zero2, View.ld_unit_zero (S := S1024x1) zero2, View.ld_unit_zero (S := S1x1024) zero2,
      View.readCov_unit_zero (S := S1x1024) _ zero2]
  iexists _; isplitr
  swap; · iexact HS
  ipureintro
  sl_unfold_words
  rw [read_writes_whole _ _ zero2]
  simp only [View.readAt_eq_ld, Memref.IsWhole.read_unread, View.ld_unit_zero (S := S1024x3) zero2, View.ld_unit_zero (S := S1024x1) zero2, View.ld_unit_zero (S := S1x1024) zero2]

end Cert.KernelIdeal.Hand

end
-- ==== Proof.KI.Data0.lean ====
/-
  The proof data of one of the two pallas_calls (each takes, for every point of its first cloud, the minimum over its second cloud), at a parameter V: the contents of
  the TensorCore's buffers when the region is entered.

  The grid is 16 x 16, point t = 16·i + j. Windows 0..3 are inputs (the a-rows block i, the b-rows block j, the squared
  norms of those rows), each found in its staging buffer at its block of the entry array at every point. Window 4 is the
  output row block i, stored only at j = 15. Between points the kernel keeps its running minimum in a scratch row:
  `scAtR0 V c t` is what that row holds after point t,
      scAt(t) = step_t( +inf )          if j = 0,
      scAt(t) = step_t( scAt(t-1) )     otherwise,
  where step_t(s) = min(s, row minima of block pair (i, j)) is the generated payload `k0_pay2` at the four input blocks.
  The region invariant carries the scratch row at scAt(t-1) before point t (at anything before the first point), the
  rest of the scoped memory unopened, and the generator register untouched; the output block after point t is scAt(t)
  (at j = 15; elsewhere the window is idle and the value is not consulted).
-/
import proofs.«130439_j26027501814344_1_alg».proof.Proof.KI.Body0

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-- Window w's block at point t, read off its array as the region finds it. -/
def iblkR0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or carried over from the point
    before (its block index has not moved), for any proof data over V whose body leaves the block in place. -/
theorem beforeR0_0_of {c : Dev nD} (dat : Dat τ (Elt F) Unit ℕ (UR sig nD τ) ℕ cfg0 c) (hA : dat.A 0 = V c (Pipeline.arrRef spec0 0))
    (hafter : ∀ t, dat.after 0 t = iblkR0 V c 0 t) (t : Fin cfg0.N) (d) : dat.before 0 t d = iblkR0 V c 0 t :=
  (dat.before_in_eq_fetched 0 rfl (fun _ => rfl) (fun _ _ _ => rfl) (fun t => by rw [hafter]; unfold Dat.blockOf iblkR0; rw [hA]; try rfl) t d).trans
    (by unfold Dat.fetched Dat.blockOf iblkR0; rw [hA]; try rfl)

/-- Input window 1's current staging buffer holds its block at every point, fetched there or carried over from the point
    before (its block index has not moved), for any proof data over V whose body leaves the block in place. -/
theorem beforeR0_1_of {c : Dev nD} (dat : Dat τ (Elt F) Unit ℕ (UR sig nD τ) ℕ cfg0 c) (hA : dat.A 1 = V c (Pipeline.arrRef spec0 1))
    (hafter : ∀ t, dat.after 1 t = iblkR0 V c 1 t) (t : Fin cfg0.N) (d) : dat.before 1 t d = iblkR0 V c 1 t :=
  (dat.before_in_eq_fetched 1 rfl (fun _ => rfl) (fun _ _ _ => rfl) (fun t => by rw [hafter]; unfold Dat.blockOf iblkR0; rw [hA]; try rfl) t d).trans
    (by unfold Dat.fetched Dat.blockOf iblkR0; rw [hA]; try rfl)

/-- Input window 2's current staging buffer holds its block at every point, fetched there or carried over from the point
    before (its block index has not moved), for any proof data over V whose body leaves the block in place. -/
theorem beforeR0_2_of {c : Dev nD} (dat : Dat τ (Elt F) Unit ℕ (UR sig nD τ) ℕ cfg0 c) (hA : dat.A 2 = V c (Pipeline.arrRef spec0 2))
    (hafter : ∀ t, dat.after 2 t = iblkR0 V c 2 t) (t : Fin cfg0.N) (d) : dat.before 2 t d = iblkR0 V c 2 t :=
  (dat.before_in_eq_fetched 2 rfl (fun _ => rfl) (fun _ _ _ => rfl) (fun t => by rw [hafter]; unfold Dat.blockOf iblkR0; rw [hA]; try rfl) t d).trans
    (by unfold Dat.fetched Dat.blockOf iblkR0; rw [hA]; try rfl)

/-- Input window 3's current staging buffer holds its block at every point, fetched there or carried over from the point
    before (its block index has not moved), for any proof data over V whose body leaves the block in place. -/
theorem beforeR0_3_of {c : Dev nD} (dat : Dat τ (Elt F) Unit ℕ (UR sig nD τ) ℕ cfg0 c) (hA : dat.A 3 = V c (Pipeline.arrRef spec0 3))
    (hafter : ∀ t, dat.after 3 t = iblkR0 V c 3 t) (t : Fin cfg0.N) (d) : dat.before 3 t d = iblkR0 V c 3 t :=
  (dat.before_in_eq_fetched 3 rfl (fun _ => rfl) (fun _ _ _ => rfl) (fun t => by rw [hafter]; unfold Dat.blockOf iblkR0; rw [hA]; try rfl) t d).trans
    (by unfold Dat.fetched Dat.blockOf iblkR0; rw [hA]; try rfl)

/-- The scratch row, as a whole-buffer memref. -/
abbrev scMR0 : Memref sig .tc .vmem S1x1024 .f32 := Memref.whole cc0_scratch0

/-- One step at point t: the new running minimum from the previous one and the point's four input blocks. -/
def stepR0 (c : Dev nD) (t : Fin cfg0.N) (s : Vec F S1x1024 .f32) : Vec F S1x1024 .f32 :=
  k0_pay2 (iblkR0 V c 0 t) (iblkR0 V c 1 t) (iblkR0 V c 2 t) (iblkR0 V c 3 t) s

/-- The scratch row after point n: restarted from +inf at the first step of each sweep. -/
def scAtR0 (c : Dev nD) : (n : ℕ) → n < cfg0.N → Vec F S1x1024 .f32
  | 0, hn => stepR0 V c ⟨0, hn⟩ (k0_pay1 (F := F))
  | n + 1, hn => stepR0 V c ⟨n + 1, hn⟩ (if (n + 1) % 16 = 0 then k0_pay1 (F := F) else scAtR0 c n (Nat.lt_of_succ_lt hn))

theorem scAtR0_first (c : Dev nD) (t : Fin cfg0.N) (h : t.val % 16 = 0) :
    scAtR0 V c t.val t.isLt = stepR0 V c t (k0_pay1 (F := F)) := by
  obtain ⟨n, hn⟩ := t
  cases n with
  | zero => rfl
  | succ n => show stepR0 V c ⟨n + 1, hn⟩ (if (n + 1) % 16 = 0 then _ else _) = _; rw [if_pos h]

theorem scAtR0_next (c : Dev nD) (t : Fin cfg0.N) (h : ¬t.val % 16 = 0) :
    scAtR0 V c t.val t.isLt = stepR0 V c t (scAtR0 V c (t.val - 1) (Nat.lt_of_le_of_lt (Nat.sub_le _ _) t.isLt)) := by
  obtain ⟨n, hn⟩ := t
  cases n with
  | zero => exact absurd (Nat.zero_mod _) h
  | succ n => show stepR0 V c ⟨n + 1, hn⟩ (if (n + 1) % 16 = 0 then _ else _) = _; rw [if_neg h]; rfl

/-- The scoped memory no window stages: the scratch row, and everything else unopened. -/
theorem scopedSplitR0 (c : Dev nD) :
    (Pipeline.scopedRest (Ix := Unit) (Name := ℕ) (U := UR sig nD τ) (Lvl := ℕ) (Val := Elt F) spec0 c : sProp 𝕄)
      = iprop((∃ f : Buf (Elt F) ((c : Thread nD τ).loc cc0_scratch0), ((c : Thread nD τ).loc cc0_scratch0) ↦{fullShare} f)
          ∗ Pipeline.scopedRestBut (Ix := Unit) (Name := ℕ) (U := UR sig nD τ) (Lvl := ℕ) (Val := Elt F) spec0 c [cc0_scratch0]) :=
  Pipeline.scopedRest_split_of_list spec0 c [cc0_scratch0] (by decide) (by decide)

/-- Everything scoped but the staging buffers and the scratch row. -/
abbrev restR0 (c : Dev nD) : sProp 𝕄 :=
  Pipeline.scopedRestBut (Ix := Unit) (Name := ℕ) (U := UR sig nD τ) (Lvl := ℕ) (Val := Elt F) spec0 c [cc0_scratch0]

/-- The class invariant with the scratch row as an owned memref at some contents. -/
theorem PhiA_R0 (c : Dev nD) :
    (Pipeline.ΦA spec0 c : sProp 𝕄)
      = iprop(((∃ d, owns (c : Thread nD τ) scMR0 fullShare d) ∗ restR0 (F := F) c) ∗ (∃ r, prngReg c r)) := by
  unfold Pipeline.ΦA; rw [scopedSplitR0]; simp only [scMR0, owns_whole]; try rfl

/-- The region invariant before position n: the class's before the first point; afterwards the scratch row at what the
    point before left. -/
def PhiR0 (c : Dev nD) : (n : ℕ) → n ≤ cfg0.N → sProp 𝕄
  | 0, _ => Pipeline.ΦA spec0 c
  | n + 1, hn => iprop((owns (c : Thread nD τ) scMR0 fullShare (scAtR0 V c n hn) ∗ restR0 (F := F) c) ∗ (∃ r, prngReg c r))

theorem PhiR0_zero (c : Dev nD) (n : ℕ) (h : n ≤ cfg0.N) (hz : n = 0) : PhiR0 V c n h = Pipeline.ΦA spec0 c := by
  subst hz; rfl
theorem PhiR0_succ (c : Dev nD) (n : ℕ) (hn : n < cfg0.N) :
    PhiR0 V c (n + 1) hn = iprop((owns (c : Thread nD τ) scMR0 fullShare (scAtR0 V c n hn) ∗ restR0 (F := F) c) ∗ (∃ r, prngReg c r)) := rfl
theorem PhiR0_pos (c : Dev nD) (n : ℕ) (h : n ≤ cfg0.N) (hz : n ≠ 0) :
    PhiR0 V c n h = iprop((owns (c : Thread nD τ) scMR0 fullShare (scAtR0 V c (n - 1) (by omega)) ∗ restR0 (F := F) c) ∗ (∃ r, prngReg c r)) := by
  cases n with
  | zero => exact absurd rfl hz
  | succ n => rfl

/-- The proof data. -/
def datR0 (c : Dev nD) : Dat τ (Elt F) Unit ℕ (UR sig nD τ) ℕ cfg0 c where
  A w := V c (Pipeline.arrRef spec0 w)
  after w t := match w with
    | ⟨0, _⟩ => iblkR0 V c 0 t
    | ⟨1, _⟩ => iblkR0 V c 1 t
    | ⟨2, _⟩ => iblkR0 V c 2 t
    | ⟨3, _⟩ => iblkR0 V c 3 t
    | ⟨4, _⟩ => scAtR0 V c t.val t.isLt
  Φ t := PhiR0 V c t.val (Nat.le_of_lt_succ t.isLt)
  q _ := fullShare
  owed _ := 0

theorem A_R0 (c : Dev nD) (w : Fin cfg0.W) : (datR0 V c).A w = V c (Pipeline.arrRef spec0 w) := by
  dsimp only [datR0]
theorem afterR0_0 (c : Dev nD) (t : Fin cfg0.N) : (datR0 V c).after 0 t = iblkR0 V c 0 t := by dsimp only [datR0]
theorem afterR0_1 (c : Dev nD) (t : Fin cfg0.N) : (datR0 V c).after 1 t = iblkR0 V c 1 t := by dsimp only [datR0]
theorem afterR0_2 (c : Dev nD) (t : Fin cfg0.N) : (datR0 V c).after 2 t = iblkR0 V c 2 t := by dsimp only [datR0]
theorem afterR0_3 (c : Dev nD) (t : Fin cfg0.N) : (datR0 V c).after 3 t = iblkR0 V c 3 t := by dsimp only [datR0]
theorem afterR0_4 (c : Dev nD) (t : Fin cfg0.N) : (datR0 V c).after 4 t = scAtR0 V c t.val t.isLt := by dsimp only [datR0]
theorem beforeR0_0 (c : Dev nD) (t : Fin cfg0.N) (d) : (datR0 V c).before 0 t d = iblkR0 V c 0 t :=
  beforeR0_0_of V (datR0 V c) (A_R0 V c 0) (afterR0_0 V c) t d
theorem beforeR0_1 (c : Dev nD) (t : Fin cfg0.N) (d) : (datR0 V c).before 1 t d = iblkR0 V c 1 t :=
  beforeR0_1_of V (datR0 V c) (A_R0 V c 1) (afterR0_1 V c) t d
theorem beforeR0_2 (c : Dev nD) (t : Fin cfg0.N) (d) : (datR0 V c).before 2 t d = iblkR0 V c 2 t :=
  beforeR0_2_of V (datR0 V c) (A_R0 V c 2) (afterR0_2 V c) t d
theorem beforeR0_3 (c : Dev nD) (t : Fin cfg0.N) (d) : (datR0 V c).before 3 t d = iblkR0 V c 3 t :=
  beforeR0_3_of V (datR0 V c) (A_R0 V c 3) (afterR0_3 V c) t d

theorem Phi_castSuccR0 (c : Dev nD) (t : Fin cfg0.N) :
    (datR0 V c).Φ t.castSucc = PhiR0 V c t.val (Nat.le_of_lt t.isLt) := by
  dsimp only [datR0]; simp only [Fin.coe_castSucc]

/-! ## The body obligation -/

def bodyPreR0 (c : Dev nD) (t : Fin cfg0.N) : sProp 𝕄 :=
  iprop((datR0 V c).Φ t.castSucc ∗ (datR0 V c).owesAt () t.castSucc
    ∗ (∃ d, owns (c : Thread nD τ) (st0_0 t) fullShare ((datR0 V c).before 0 t d))
    ∗ (∃ d, owns (c : Thread nD τ) (st0_1 t) fullShare ((datR0 V c).before 1 t d))
    ∗ (∃ d, owns (c : Thread nD τ) (st0_2 t) fullShare ((datR0 V c).before 2 t d))
    ∗ (∃ d, owns (c : Thread nD τ) (st0_3 t) fullShare ((datR0 V c).before 3 t d))
    ∗ (∃ d, owns (c : Thread nD τ) (st0_4 t) fullShare ((datR0 V c).before 4 t d)))

def bodyPostR0 (c : Dev nD) (t : Fin cfg0.N) : sProp 𝕄 :=
  iprop((datR0 V c).Φ t.succ ∗ (datR0 V c).owesAt () t.succ
    ∗ (datR0 V c).leavesExact 0 t
    ∗ (datR0 V c).leavesExact 1 t
    ∗ (datR0 V c).leavesExact 2 t
    ∗ (datR0 V c).leavesExact 3 t
    ∗ (datR0 V c).leavesExact 4 t)

set_option maxHeartbeats 4800000 in
/-- The body at any point: the position in the sweep picks the triple; the invariant hands over the scratch row and takes
    it back at this point's contents. -/
theorem sound_bodyR0 (c : Dev nD) (t : Fin cfg0.N) :
    bodyPreR0 V c t ⊢ wp frame (wpE (defs₀ (F := F)) Variants.none c none) Set.univ (bodyAt0 t) (fun _ => bodyPostR0 V c t) := by
  unfold bodyPreR0 bodyPostR0 bodyAt0
  simp only [beforeR0_0, beforeR0_1, beforeR0_2, beforeR0_3]
  rw [show (datR0 V c).owesAt () t.succ = (datR0 V c).owesAt () t.castSucc from rfl]
  rw [show (datR0 V c).Φ t.succ = PhiR0 V c (t.val + 1) t.isLt from rfl, PhiR0_succ]
  rw [show (datR0 V c).leavesExact 0 t = owns (c : Thread nD τ) (st0_0 t) fullShare ((datR0 V c).after 0 t) from by
    unfold Dat.leavesExact; rw [liveR0_0 t], afterR0_0]
  rw [show (datR0 V c).leavesExact 1 t = owns (c : Thread nD τ) (st0_1 t) fullShare ((datR0 V c).after 1 t) from by
    unfold Dat.leavesExact; rw [liveR0_1 t], afterR0_1]
  rw [show (datR0 V c).leavesExact 2 t = owns (c : Thread nD τ) (st0_2 t) fullShare ((datR0 V c).after 2 t) from by
    unfold Dat.leavesExact; rw [liveR0_2 t], afterR0_2]
  rw [show (datR0 V c).leavesExact 3 t = owns (c : Thread nD τ) (st0_3 t) fullShare ((datR0 V c).after 3 t) from by
    unfold Dat.leavesExact; rw [liveR0_3 t], afterR0_3]
  have hN : t.val < 256 := lt_of_lt_of_eq t.isLt (show cfg0.N = 256 from N_0)
  by_cases hf : t.val % 16 = 0
  · have hl : ¬t.val % 16 = 15 := by omega
    rw [Dat.leavesExact_idle (datR0 V c) 4 t (idleR0_4 t (fun h => hl ((lastR0_iff t).mp h))) (noFlushR0_4 t (fun h => hl ((lastR0_iff t).mp h)))]
    rw [scAtR0_first V c t hf]
    unfold stepR0
    by_cases hz : t.val = 0
    · rw [Phi_castSuccR0 V c t, PhiR0_zero V c _ _ hz, PhiA_R0]
      iintro ⟨⟨⟨HS, Hrest⟩, Hg⟩, Ho, ⟨%d0, H0⟩, ⟨%d1, H1⟩, ⟨%d2, H2⟩, ⟨%d3, H3⟩, ⟨%d4, H4⟩⟩
      iapply (stepFirstR0 c (grid0.coords t) _ _ _ _ _ _ _ _ _ _ _ _ ((firstR0_iff t).mpr hf) (fun h => hl ((lastR0_iff t).mp h)) (iblkR0 V c 0 t) (iblkR0 V c 1 t) (iblkR0 V c 2 t) (iblkR0 V c 3 t) _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      isplitl [H2]; · iexact H2
      isplitl [H3]; · iexact H3
      iexists _; iexact H4
    · rw [Phi_castSuccR0 V c t, PhiR0_pos V c _ _ hz]
      iintro ⟨⟨⟨HS, Hrest⟩, Hg⟩, Ho, ⟨%d0, H0⟩, ⟨%d1, H1⟩, ⟨%d2, H2⟩, ⟨%d3, H3⟩, ⟨%d4, H4⟩⟩
      iapply (stepFirstR0 c (grid0.coords t) _ _ _ _ _ _ _ _ _ _ _ _ ((firstR0_iff t).mpr hf) (fun h => hl ((lastR0_iff t).mp h)) (iblkR0 V c 0 t) (iblkR0 V c 1 t) (iblkR0 V c 2 t) (iblkR0 V c 3 t) _ Set.univ _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun h => hf (by rw [h])
    rw [scAtR0_next V c t hf]
    unfold stepR0
    rw [Phi_castSuccR0 V c t, PhiR0_pos V c _ _ hz]
    by_cases hl : t.val % 16 = 15
    · rw [show (datR0 V c).leavesExact 4 t = owns (c : Thread nD τ) (st0_4 t) fullShare ((datR0 V c).after 4 t) from by
        unfold Dat.leavesExact; rw [liveR0_4 t ((lastR0_iff t).mpr hl)], afterR0_4, scAtR0_next V c t hf]
      unfold stepR0
      iintro ⟨⟨⟨HS, Hrest⟩, Hg⟩, Ho, ⟨%d0, H0⟩, ⟨%d1, H1⟩, ⟨%d2, H2⟩, ⟨%d3, H3⟩, ⟨%d4, H4⟩⟩
      iapply (stepLastR0 c (grid0.coords t) _ _ _ _ _ _ _ _ _ _ _ _ (fun h => hf ((firstR0_iff t).mp h)) ((lastR0_iff t).mpr hl) (iblkR0 V c 0 t) (iblkR0 V c 1 t) (iblkR0 V c 2 t) (iblkR0 V c 3 t) _ Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      isplitl [H2]; · iexact H2
      isplitl [H3]; · iexact H3
      iexact H4
    · rw [Dat.leavesExact_idle (datR0 V c) 4 t (idleR0_4 t (fun h => hl ((lastR0_iff t).mp h))) (noFlushR0_4 t (fun h => hl ((lastR0_iff t).mp h)))]
      iintro ⟨⟨⟨HS, Hrest⟩, Hg⟩, Ho, ⟨%d0, H0⟩, ⟨%d1, H1⟩, ⟨%d2, H2⟩, ⟨%d3, H3⟩, ⟨%d4, H4⟩⟩
      iapply (stepMiddleR0 c (grid0.coords t) _ _ _ _ _ _ _ _ _ _ _ _ (fun h => hf ((firstR0_iff t).mp h)) (fun h => hl ((lastR0_iff t).mp h)) (iblkR0 V c 0 t) (iblkR0 V c 1 t) (iblkR0 V c 2 t) (iblkR0 V c 3 t) _ _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligationR0 (c : Dev nD) : BodyObligation (datR0 (F := F) V c) (defs₀ (F := F)) Variants.none () Set.univ := fun t => by
  rw [bigSep_W0, bigSep_W0]
  exact sound_bodyR0 V c t

/-- What the launch hands the region is the invariant before the first point. -/
theorem hinR0 (c : Dev nD) : Pipeline.ΦA spec0 c ⊢ (datR0 V c).Φ 0 := by
  rw [show (datR0 V c).Φ 0 = PhiR0 V c 0 (Nat.zero_le _) from rfl, PhiR0_zero V c 0 _ rfl]
  try exact Idealize.SL.BI.Entails.refl _

/-- After the last point the invariant gives the class's back: what the scratch row holds is forgotten. -/
theorem houtR0 (c : Dev nD) : (datR0 V c).Φ (Fin.last cfg0.N) ⊢ Pipeline.ΦA spec0 c := by
  rw [show (datR0 V c).Φ (Fin.last cfg0.N) = PhiR0 V c (Fin.last cfg0.N).val (Nat.le_of_lt_succ (Fin.last cfg0.N).isLt) from rfl,
    PhiR0_pos V c _ _ (by rw [Fin.val_last]; have : cfg0.N = 256 := N_0; omega), PhiA_R0]
  iintro ⟨⟨HS, Hrest⟩, Hg⟩
  isplitl [HS Hrest]
  · isplitl [HS]; · iexists _; iexact HS
    iexact Hrest
  iexact Hg

end Region0

end Cert.KernelIdeal.Hand

end
-- ==== Proof.KI.Body1.lean ====
/-
  One step of the online-minimum kernel (the two pallas_calls run the same kernel function) as a Hoare triple, in the three situations a grid point can be in.
  Writing S for the running-minimum scratch row and R(x0,x1,x2,x3) for the row of minima the step computes from its
  four input blocks, the step's effect is S := min(S, R), preceded at the first step of a sweep by S := +inf and
  followed at the last step by a copy of S into the output block. The generated payload `k1_pay2 x0 x1 x2 x3 s` is
  exactly min(s, R(x0..x3)) and `k1_pay1` is the constant +inf row, so the three triples say:
    first step : scratch (anything)  ↦  k1_pay2 … k1_pay1, output block untouched;
    middle step: scratch s           ↦  k1_pay2 … s,       output block untouched;
    last step  : scratch s           ↦  k1_pay2 … s,       output block := the same row.
  The inputs' staging buffers are only read. Each store covers its whole buffer, so what a buffer holds afterwards is
  the last payload stored, whatever it held before.
-/
import proofs.«130439_j26027501814344_1_alg».proof.Proof.KI.Cases

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
theorem stepMiddleR1 (c : Dev nD) (i : grid1.Coords) (arg2 : Memref sig .tc .vmem S1024x3 .f32) (harg2 : arg2.IsWhole) (arg3 : Memref sig .tc .vmem S1024x3 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (hc0 : ¬firstR1 i) (hc1 : ¬lastR1 i)
    (x0 : Vec F S1024x3 .f32) (x1 : Vec F S1024x3 .f32) (x2 : Vec F S1024x1 .f32) (x3 : Vec F S1x1024 .f32) (xi4 : Vec F S1x1024 .f32) (xs : Vec F S1x1024 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg6 fullShare xi4 ∗ owns (c : Thread nD τ) arg7 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xi4 ∗ owns (c : Thread nD τ) arg7 fullShare (k1_pay2 x0 x1 x2 x3 xs)) -∗ K ⟨⟩))
      ⊢ wp frame (wpE (defs₀ (F := F)) Variants.none c none) E (cc1__min_dist_kernel i arg2 harg2 arg3 harg3 arg4 harg4 arg5 harg5 arg6 harg6 arg7 harg7) K := by
  simp only [cc1__min_dist_kernel_eq_skeleton]; unfold cc1__min_dist_kernel_skel
  unfold owns
  iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
  obtain rfl := harg2.eq_unread hf0; obtain rfl := harg3.eq_unread hf1; obtain rfl := harg4.eq_unread hf2; obtain rfl := harg5.eq_unread hf3; obtain rfl := harg7.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact hf4
    iexact H4
  iexists _; isplitr
  swap; · iexact HS
  ipureintro
  sl_unfold_words
  rw [read_writes_whole _ _ zero2]
  simp only [View.readAt_eq_ld, Memref.IsWhole.read_unread, View.ld_unit_zero (S := S1024x3) zero2, View.ld_unit_zero (S := S1024x1) zero2, View.ld_unit_zero (S := S1x1024) zero2]

set_option maxHeartbeats 1000000 in
theorem stepFirstR1 (c : Dev nD) (i : grid1.Coords) (arg2 : Memref sig .tc .vmem S1024x3 .f32) (harg2 : arg2.IsWhole) (arg3 : Memref sig .tc .vmem S1024x3 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (hc0 : firstR1 i) (hc1 : ¬lastR1 i)
    (x0 : Vec F S1024x3 .f32) (x1 : Vec F S1024x3 .f32) (x2 : Vec F S1024x1 .f32) (x3 : Vec F S1x1024 .f32) (xi4 : Vec F S1x1024 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg6 fullShare xi4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xi4 ∗ owns (c : Thread nD τ) arg7 fullShare (k1_pay2 x0 x1 x2 x3 (k1_pay1 (F := F)))) -∗ K ⟨⟩))
      ⊢ wp frame (wpE (defs₀ (F := F)) Variants.none c none) E (cc1__min_dist_kernel i arg2 harg2 arg3 harg3 arg4 harg4 arg5 harg5 arg6 harg6 arg7 harg7) K := by
  simp only [cc1__min_dist_kernel_eq_skeleton]; unfold cc1__min_dist_kernel_skel
  unfold owns
  iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
  obtain rfl := harg2.eq_unread hf0; obtain rfl := harg3.eq_unread hf1; obtain rfl := harg4.eq_unread hf2; obtain rfl := harg5.eq_unread hf3
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact hf4
    iexact H4
  iexists _; isplitr
  swap; · iexact HS
  ipureintro
  sl_unfold_words
  rw [read_writes_whole _ _ zero2]
  simp only [View.readAt_eq_ld, Memref.IsWhole.read_unread, View.ld_unit_zero (S := S1024x3) zero2, View.ld_unit_zero (S := S1024x1) zero2, View.ld_unit_zero (S := S1x1024) zero2,
    View.readCov_unit_zero (S := S1x1024) _ zero2]

set_option maxHeartbeats 1000000 in
theorem stepLastR1 (c : Dev nD) (i : grid1.Coords) (arg2 : Memref sig .tc .vmem S1024x3 .f32) (harg2 : arg2.IsWhole) (arg3 : Memref sig .tc .vmem S1024x3 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (hc0 : ¬firstR1 i) (hc1 : lastR1 i)
    (x0 : Vec F S1024x3 .f32) (x1 : Vec F S1024x3 .f32) (x2 : Vec F S1024x1 .f32) (x3 : Vec F S1x1024 .f32) (xs : Vec F S1x1024 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg6 fullShare d) ∗ owns (c : Thread nD τ) arg7 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (k1_pay2 x0 x1 x2 x3 xs) ∗ owns (c : Thread nD τ) arg7 fullShare (k1_pay2 x0 x1 x2 x3 xs)) -∗ K ⟨⟩))
      ⊢ wp frame (wpE (defs₀ (F := F)) Variants.none c none) E (cc1__min_dist_kernel i arg2 harg2 arg3 harg3 arg4 harg4 arg5 harg5 arg6 harg6 arg7 harg7) K := by
  simp only [cc1__min_dist_kernel_eq_skeleton]; unfold cc1__min_dist_kernel_skel
  unfold owns
  iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
  obtain rfl := harg2.eq_unread hf0; obtain rfl := harg3.eq_unread hf1; obtain rfl := harg4.eq_unread hf2; obtain rfl := harg5.eq_unread hf3; obtain rfl := harg7.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro
    sl_unfold_words
    rw [read_writes_whole _ _ zero2]
    simp only [View.readAt_eq_ld, Memref.IsWhole.read_unread, View.ld_unit_zero (S := S1024x3) zero2, View.ld_unit_zero (S := S1024x1) zero2, View.ld_unit_zero (S := S1x1024) zero2,
      View.readCov_unit_zero (S := S1x1024) _ zero2]
  iexists _; isplitr
  swap; · iexact HS
  ipureintro
  sl_unfold_words
  rw [read_writes_whole _ _ zero2]
  simp only [View.readAt_eq_ld, Memref.IsWhole.read_unread, View.ld_unit_zero (S := S1024x3) zero2, View.ld_unit_zero (S := S1024x1) zero2, View.ld_unit_zero (S := S1x1024) zero2]

end Cert.KernelIdeal.Hand

end
-- ==== Proof.KI.Data1.lean ====
/-
  The proof data of one of the two pallas_calls (each takes, for every point of its first cloud, the minimum over its second cloud), at a parameter V: the contents of
  the TensorCore's buffers when the region is entered.

  The grid is 16 x 16, point t = 16·i + j. Windows 0..3 are inputs (the a-rows block i, the b-rows block j, the squared
  norms of those rows), each found in its staging buffer at its block of the entry array at every point. Window 4 is the
  output row block i, stored only at j = 15. Between points the kernel keeps its running minimum in a scratch row:
  `scAtR1 V c t` is what that row holds after point t,
      scAt(t) = step_t( +inf )          if j = 0,
      scAt(t) = step_t( scAt(t-1) )     otherwise,
  where step_t(s) = min(s, row minima of block pair (i, j)) is the generated payload `k1_pay2` at the four input blocks.
  The region invariant carries the scratch row at scAt(t-1) before point t (at anything before the first point), the
  rest of the scoped memory unopened, and the generator register untouched; the output block after point t is scAt(t)
  (at j = 15; elsewhere the window is idle and the value is not consulted).
-/
import proofs.«130439_j26027501814344_1_alg».proof.Proof.KI.Body1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-- Window w's block at point t, read off its array as the region finds it. -/
def iblkR1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or carried over from the point
    before (its block index has not moved), for any proof data over V whose body leaves the block in place. -/
theorem beforeR1_0_of {c : Dev nD} (dat : Dat τ (Elt F) Unit ℕ (UR sig nD τ) ℕ cfg1 c) (hA : dat.A 0 = V c (Pipeline.arrRef spec1 0))
    (hafter : ∀ t, dat.after 0 t = iblkR1 V c 0 t) (t : Fin cfg1.N) (d) : dat.before 0 t d = iblkR1 V c 0 t :=
  (dat.before_in_eq_fetched 0 rfl (fun _ => rfl) (fun _ _ _ => rfl) (fun t => by rw [hafter]; unfold Dat.blockOf iblkR1; rw [hA]; try rfl) t d).trans
    (by unfold Dat.fetched Dat.blockOf iblkR1; rw [hA]; try rfl)

/-- Input window 1's current staging buffer holds its block at every point, fetched there or carried over from the point
    before (its block index has not moved), for any proof data over V whose body leaves the block in place. -/
theorem beforeR1_1_of {c : Dev nD} (dat : Dat τ (Elt F) Unit ℕ (UR sig nD τ) ℕ cfg1 c) (hA : dat.A 1 = V c (Pipeline.arrRef spec1 1))
    (hafter : ∀ t, dat.after 1 t = iblkR1 V c 1 t) (t : Fin cfg1.N) (d) : dat.before 1 t d = iblkR1 V c 1 t :=
  (dat.before_in_eq_fetched 1 rfl (fun _ => rfl) (fun _ _ _ => rfl) (fun t => by rw [hafter]; unfold Dat.blockOf iblkR1; rw [hA]; try rfl) t d).trans
    (by unfold Dat.fetched Dat.blockOf iblkR1; rw [hA]; try rfl)

/-- Input window 2's current staging buffer holds its block at every point, fetched there or carried over from the point
    before (its block index has not moved), for any proof data over V whose body leaves the block in place. -/
theorem beforeR1_2_of {c : Dev nD} (dat : Dat τ (Elt F) Unit ℕ (UR sig nD τ) ℕ cfg1 c) (hA : dat.A 2 = V c (Pipeline.arrRef spec1 2))
    (hafter : ∀ t, dat.after 2 t = iblkR1 V c 2 t) (t : Fin cfg1.N) (d) : dat.before 2 t d = iblkR1 V c 2 t :=
  (dat.before_in_eq_fetched 2 rfl (fun _ => rfl) (fun _ _ _ => rfl) (fun t => by rw [hafter]; unfold Dat.blockOf iblkR1; rw [hA]; try rfl) t d).trans
    (by unfold Dat.fetched Dat.blockOf iblkR1; rw [hA]; try rfl)

/-- Input window 3's current staging buffer holds its block at every point, fetched there or carried over from the point
    before (its block index has not moved), for any proof data over V whose body leaves the block in place. -/
theorem beforeR1_3_of {c : Dev nD} (dat : Dat τ (Elt F) Unit ℕ (UR sig nD τ) ℕ cfg1 c) (hA : dat.A 3 = V c (Pipeline.arrRef spec1 3))
    (hafter : ∀ t, dat.after 3 t = iblkR1 V c 3 t) (t : Fin cfg1.N) (d) : dat.before 3 t d = iblkR1 V c 3 t :=
  (dat.before_in_eq_fetched 3 rfl (fun _ => rfl) (fun _ _ _ => rfl) (fun t => by rw [hafter]; unfold Dat.blockOf iblkR1; rw [hA]; try rfl) t d).trans
    (by unfold Dat.fetched Dat.blockOf iblkR1; rw [hA]; try rfl)

/-- The scratch row, as a whole-buffer memref. -/
abbrev scMR1 : Memref sig .tc .vmem S1x1024 .f32 := Memref.whole cc1_scratch0

/-- One step at point t: the new running minimum from the previous one and the point's four input blocks. -/
def stepR1 (c : Dev nD) (t : Fin cfg1.N) (s : Vec F S1x1024 .f32) : Vec F S1x1024 .f32 :=
  k1_pay2 (iblkR1 V c 0 t) (iblkR1 V c 1 t) (iblkR1 V c 2 t) (iblkR1 V c 3 t) s

/-- The scratch row after point n: restarted from +inf at the first step of each sweep. -/
def scAtR1 (c : Dev nD) : (n : ℕ) → n < cfg1.N → Vec F S1x1024 .f32
  | 0, hn => stepR1 V c ⟨0, hn⟩ (k1_pay1 (F := F))
  | n + 1, hn => stepR1 V c ⟨n + 1, hn⟩ (if (n + 1) % 16 = 0 then k1_pay1 (F := F) else scAtR1 c n (Nat.lt_of_succ_lt hn))

theorem scAtR1_first (c : Dev nD) (t : Fin cfg1.N) (h : t.val % 16 = 0) :
    scAtR1 V c t.val t.isLt = stepR1 V c t (k1_pay1 (F := F)) := by
  obtain ⟨n, hn⟩ := t
  cases n with
  | zero => rfl
  | succ n => show stepR1 V c ⟨n + 1, hn⟩ (if (n + 1) % 16 = 0 then _ else _) = _; rw [if_pos h]

theorem scAtR1_next (c : Dev nD) (t : Fin cfg1.N) (h : ¬t.val % 16 = 0) :
    scAtR1 V c t.val t.isLt = stepR1 V c t (scAtR1 V c (t.val - 1) (Nat.lt_of_le_of_lt (Nat.sub_le _ _) t.isLt)) := by
  obtain ⟨n, hn⟩ := t
  cases n with
  | zero => exact absurd (Nat.zero_mod _) h
  | succ n => show stepR1 V c ⟨n + 1, hn⟩ (if (n + 1) % 16 = 0 then _ else _) = _; rw [if_neg h]; rfl

/-- The scoped memory no window stages: the scratch row, and everything else unopened. -/
theorem scopedSplitR1 (c : Dev nD) :
    (Pipeline.scopedRest (Ix := Unit) (Name := ℕ) (U := UR sig nD τ) (Lvl := ℕ) (Val := Elt F) spec1 c : sProp 𝕄)
      = iprop((∃ f : Buf (Elt F) ((c : Thread nD τ).loc cc1_scratch0), ((c : Thread nD τ).loc cc1_scratch0) ↦{fullShare} f)
          ∗ Pipeline.scopedRestBut (Ix := Unit) (Name := ℕ) (U := UR sig nD τ) (Lvl := ℕ) (Val := Elt F) spec1 c [cc1_scratch0]) :=
  Pipeline.scopedRest_split_of_list spec1 c [cc1_scratch0] (by decide) (by decide)

/-- Everything scoped but the staging buffers and the scratch row. -/
abbrev restR1 (c : Dev nD) : sProp 𝕄 :=
  Pipeline.scopedRestBut (Ix := Unit) (Name := ℕ) (U := UR sig nD τ) (Lvl := ℕ) (Val := Elt F) spec1 c [cc1_scratch0]

/-- The class invariant with the scratch row as an owned memref at some contents. -/
theorem PhiA_R1 (c : Dev nD) :
    (Pipeline.ΦA spec1 c : sProp 𝕄)
      = iprop(((∃ d, owns (c : Thread nD τ) scMR1 fullShare d) ∗ restR1 (F := F) c) ∗ (∃ r, prngReg c r)) := by
  unfold Pipeline.ΦA; rw [scopedSplitR1]; simp only [scMR1, owns_whole]; try rfl

/-- The region invariant before position n: the class's before the first point; afterwards the scratch row at what the
    point before left. -/
def PhiR1 (c : Dev nD) : (n : ℕ) → n ≤ cfg1.N → sProp 𝕄
  | 0, _ => Pipeline.ΦA spec1 c
  | n + 1, hn => iprop((owns (c : Thread nD τ) scMR1 fullShare (scAtR1 V c n hn) ∗ restR1 (F := F) c) ∗ (∃ r, prngReg c r))

theorem PhiR1_zero (c : Dev nD) (n : ℕ) (h : n ≤ cfg1.N) (hz : n = 0) : PhiR1 V c n h = Pipeline.ΦA spec1 c := by
  subst hz; rfl
theorem PhiR1_succ (c : Dev nD) (n : ℕ) (hn : n < cfg1.N) :
    PhiR1 V c (n + 1) hn = iprop((owns (c : Thread nD τ) scMR1 fullShare (scAtR1 V c n hn) ∗ restR1 (F := F) c) ∗ (∃ r, prngReg c r)) := rfl
theorem PhiR1_pos (c : Dev nD) (n : ℕ) (h : n ≤ cfg1.N) (hz : n ≠ 0) :
    PhiR1 V c n h = iprop((owns (c : Thread nD τ) scMR1 fullShare (scAtR1 V c (n - 1) (by omega)) ∗ restR1 (F := F) c) ∗ (∃ r, prngReg c r)) := by
  cases n with
  | zero => exact absurd rfl hz
  | succ n => rfl

/-- The proof data. -/
def datR1 (c : Dev nD) : Dat τ (Elt F) Unit ℕ (UR sig nD τ) ℕ cfg1 c where
  A w := V c (Pipeline.arrRef spec1 w)
  after w t := match w with
    | ⟨0, _⟩ => iblkR1 V c 0 t
    | ⟨1, _⟩ => iblkR1 V c 1 t
    | ⟨2, _⟩ => iblkR1 V c 2 t
    | ⟨3, _⟩ => iblkR1 V c 3 t
    | ⟨4, _⟩ => scAtR1 V c t.val t.isLt
  Φ t := PhiR1 V c t.val (Nat.le_of_lt_succ t.isLt)
  q _ := fullShare
  owed _ := 0

theorem A_R1 (c : Dev nD) (w : Fin cfg1.W) : (datR1 V c).A w = V c (Pipeline.arrRef spec1 w) := by
  dsimp only [datR1]
theorem afterR1_0 (c : Dev nD) (t : Fin cfg1.N) : (datR1 V c).after 0 t = iblkR1 V c 0 t := by dsimp only [datR1]
theorem afterR1_1 (c : Dev nD) (t : Fin cfg1.N) : (datR1 V c).after 1 t = iblkR1 V c 1 t := by dsimp only [datR1]
theorem afterR1_2 (c : Dev nD) (t : Fin cfg1.N) : (datR1 V c).after 2 t = iblkR1 V c 2 t := by dsimp only [datR1]
theorem afterR1_3 (c : Dev nD) (t : Fin cfg1.N) : (datR1 V c).after 3 t = iblkR1 V c 3 t := by dsimp only [datR1]
theorem afterR1_4 (c : Dev nD) (t : Fin cfg1.N) : (datR1 V c).after 4 t = scAtR1 V c t.val t.isLt := by dsimp only [datR1]
theorem beforeR1_0 (c : Dev nD) (t : Fin cfg1.N) (d) : (datR1 V c).before 0 t d = iblkR1 V c 0 t :=
  beforeR1_0_of V (datR1 V c) (A_R1 V c 0) (afterR1_0 V c) t d
theorem beforeR1_1 (c : Dev nD) (t : Fin cfg1.N) (d) : (datR1 V c).before 1 t d = iblkR1 V c 1 t :=
  beforeR1_1_of V (datR1 V c) (A_R1 V c 1) (afterR1_1 V c) t d
theorem beforeR1_2 (c : Dev nD) (t : Fin cfg1.N) (d) : (datR1 V c).before 2 t d = iblkR1 V c 2 t :=
  beforeR1_2_of V (datR1 V c) (A_R1 V c 2) (afterR1_2 V c) t d
theorem beforeR1_3 (c : Dev nD) (t : Fin cfg1.N) (d) : (datR1 V c).before 3 t d = iblkR1 V c 3 t :=
  beforeR1_3_of V (datR1 V c) (A_R1 V c 3) (afterR1_3 V c) t d

theorem Phi_castSuccR1 (c : Dev nD) (t : Fin cfg1.N) :
    (datR1 V c).Φ t.castSucc = PhiR1 V c t.val (Nat.le_of_lt t.isLt) := by
  dsimp only [datR1]; simp only [Fin.coe_castSucc]

/-! ## The body obligation -/

def bodyPreR1 (c : Dev nD) (t : Fin cfg1.N) : sProp 𝕄 :=
  iprop((datR1 V c).Φ t.castSucc ∗ (datR1 V c).owesAt () t.castSucc
    ∗ (∃ d, owns (c : Thread nD τ) (st1_0 t) fullShare ((datR1 V c).before 0 t d))
    ∗ (∃ d, owns (c : Thread nD τ) (st1_1 t) fullShare ((datR1 V c).before 1 t d))
    ∗ (∃ d, owns (c : Thread nD τ) (st1_2 t) fullShare ((datR1 V c).before 2 t d))
    ∗ (∃ d, owns (c : Thread nD τ) (st1_3 t) fullShare ((datR1 V c).before 3 t d))
    ∗ (∃ d, owns (c : Thread nD τ) (st1_4 t) fullShare ((datR1 V c).before 4 t d)))

def bodyPostR1 (c : Dev nD) (t : Fin cfg1.N) : sProp 𝕄 :=
  iprop((datR1 V c).Φ t.succ ∗ (datR1 V c).owesAt () t.succ
    ∗ (datR1 V c).leavesExact 0 t
    ∗ (datR1 V c).leavesExact 1 t
    ∗ (datR1 V c).leavesExact 2 t
    ∗ (datR1 V c).leavesExact 3 t
    ∗ (datR1 V c).leavesExact 4 t)

set_option maxHeartbeats 4800000 in
/-- The body at any point: the position in the sweep picks the triple; the invariant hands over the scratch row and takes
    it back at this point's contents. -/
theorem sound_bodyR1 (c : Dev nD) (t : Fin cfg1.N) :
    bodyPreR1 V c t ⊢ wp frame (wpE (defs₀ (F := F)) Variants.none c none) Set.univ (bodyAt1 t) (fun _ => bodyPostR1 V c t) := by
  unfold bodyPreR1 bodyPostR1 bodyAt1
  simp only [beforeR1_0, beforeR1_1, beforeR1_2, beforeR1_3]
  rw [show (datR1 V c).owesAt () t.succ = (datR1 V c).owesAt () t.castSucc from rfl]
  rw [show (datR1 V c).Φ t.succ = PhiR1 V c (t.val + 1) t.isLt from rfl, PhiR1_succ]
  rw [show (datR1 V c).leavesExact 0 t = owns (c : Thread nD τ) (st1_0 t) fullShare ((datR1 V c).after 0 t) from by
    unfold Dat.leavesExact; rw [liveR1_0 t], afterR1_0]
  rw [show (datR1 V c).leavesExact 1 t = owns (c : Thread nD τ) (st1_1 t) fullShare ((datR1 V c).after 1 t) from by
    unfold Dat.leavesExact; rw [liveR1_1 t], afterR1_1]
  rw [show (datR1 V c).leavesExact 2 t = owns (c : Thread nD τ) (st1_2 t) fullShare ((datR1 V c).after 2 t) from by
    unfold Dat.leavesExact; rw [liveR1_2 t], afterR1_2]
  rw [show (datR1 V c).leavesExact 3 t = owns (c : Thread nD τ) (st1_3 t) fullShare ((datR1 V c).after 3 t) from by
    unfold Dat.leavesExact; rw [liveR1_3 t], afterR1_3]
  have hN : t.val < 256 := lt_of_lt_of_eq t.isLt (show cfg1.N = 256 from N_1)
  by_cases hf : t.val % 16 = 0
  · have hl : ¬t.val % 16 = 15 := by omega
    rw [Dat.leavesExact_idle (datR1 V c) 4 t (idleR1_4 t (fun h => hl ((lastR1_iff t).mp h))) (noFlushR1_4 t (fun h => hl ((lastR1_iff t).mp h)))]
    rw [scAtR1_first V c t hf]
    unfold stepR1
    by_cases hz : t.val = 0
    · rw [Phi_castSuccR1 V c t, PhiR1_zero V c _ _ hz, PhiA_R1]
      iintro ⟨⟨⟨HS, Hrest⟩, Hg⟩, Ho, ⟨%d0, H0⟩, ⟨%d1, H1⟩, ⟨%d2, H2⟩, ⟨%d3, H3⟩, ⟨%d4, H4⟩⟩
      iapply (stepFirstR1 c (grid1.coords t) _ _ _ _ _ _ _ _ _ _ _ _ ((firstR1_iff t).mpr hf) (fun h => hl ((lastR1_iff t).mp h)) (iblkR1 V c 0 t) (iblkR1 V c 1 t) (iblkR1 V c 2 t) (iblkR1 V c 3 t) _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      isplitl [H2]; · iexact H2
      isplitl [H3]; · iexact H3
      iexists _; iexact H4
    · rw [Phi_castSuccR1 V c t, PhiR1_pos V c _ _ hz]
      iintro ⟨⟨⟨HS, Hrest⟩, Hg⟩, Ho, ⟨%d0, H0⟩, ⟨%d1, H1⟩, ⟨%d2, H2⟩, ⟨%d3, H3⟩, ⟨%d4, H4⟩⟩
      iapply (stepFirstR1 c (grid1.coords t) _ _ _ _ _ _ _ _ _ _ _ _ ((firstR1_iff t).mpr hf) (fun h => hl ((lastR1_iff t).mp h)) (iblkR1 V c 0 t) (iblkR1 V c 1 t) (iblkR1 V c 2 t) (iblkR1 V c 3 t) _ Set.univ _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun h => hf (by rw [h])
    rw [scAtR1_next V c t hf]
    unfold stepR1
    rw [Phi_castSuccR1 V c t, PhiR1_pos V c _ _ hz]
    by_cases hl : t.val % 16 = 15
    · rw [show (datR1 V c).leavesExact 4 t = owns (c : Thread nD τ) (st1_4 t) fullShare ((datR1 V c).after 4 t) from by
        unfold Dat.leavesExact; rw [liveR1_4 t ((lastR1_iff t).mpr hl)], afterR1_4, scAtR1_next V c t hf]
      unfold stepR1
      iintro ⟨⟨⟨HS, Hrest⟩, Hg⟩, Ho, ⟨%d0, H0⟩, ⟨%d1, H1⟩, ⟨%d2, H2⟩, ⟨%d3, H3⟩, ⟨%d4, H4⟩⟩
      iapply (stepLastR1 c (grid1.coords t) _ _ _ _ _ _ _ _ _ _ _ _ (fun h => hf ((firstR1_iff t).mp h)) ((lastR1_iff t).mpr hl) (iblkR1 V c 0 t) (iblkR1 V c 1 t) (iblkR1 V c 2 t) (iblkR1 V c 3 t) _ Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      isplitl [H2]; · iexact H2
      isplitl [H3]; · iexact H3
      iexact H4
    · rw [Dat.leavesExact_idle (datR1 V c) 4 t (idleR1_4 t (fun h => hl ((lastR1_iff t).mp h))) (noFlushR1_4 t (fun h => hl ((lastR1_iff t).mp h)))]
      iintro ⟨⟨⟨HS, Hrest⟩, Hg⟩, Ho, ⟨%d0, H0⟩, ⟨%d1, H1⟩, ⟨%d2, H2⟩, ⟨%d3, H3⟩, ⟨%d4, H4⟩⟩
      iapply (stepMiddleR1 c (grid1.coords t) _ _ _ _ _ _ _ _ _ _ _ _ (fun h => hf ((firstR1_iff t).mp h)) (fun h => hl ((lastR1_iff t).mp h)) (iblkR1 V c 0 t) (iblkR1 V c 1 t) (iblkR1 V c 2 t) (iblkR1 V c 3 t) _ _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligationR1 (c : Dev nD) : BodyObligation (datR1 (F := F) V c) (defs₀ (F := F)) Variants.none () Set.univ := fun t => by
  rw [bigSep_W1, bigSep_W1]
  exact sound_bodyR1 V c t

/-- What the launch hands the region is the invariant before the first point. -/
theorem hinR1 (c : Dev nD) : Pipeline.ΦA spec1 c ⊢ (datR1 V c).Φ 0 := by
  rw [show (datR1 V c).Φ 0 = PhiR1 V c 0 (Nat.zero_le _) from rfl, PhiR1_zero V c 0 _ rfl]
  try exact Idealize.SL.BI.Entails.refl _

/-- After the last point the invariant gives the class's back: what the scratch row holds is forgotten. -/
theorem houtR1 (c : Dev nD) : (datR1 V c).Φ (Fin.last cfg1.N) ⊢ Pipeline.ΦA spec1 c := by
  rw [show (datR1 V c).Φ (Fin.last cfg1.N) = PhiR1 V c (Fin.last cfg1.N).val (Nat.le_of_lt_succ (Fin.last cfg1.N).isLt) from rfl,
    PhiR1_pos V c _ _ (by rw [Fin.val_last]; have : cfg1.N = 256 := N_1; omega), PhiA_R1]
  iintro ⟨⟨HS, Hrest⟩, Hg⟩
  isplitl [HS Hrest]
  · isplitl [HS]; · iexists _; iexact HS
    iexact Hrest
  iexact Hg

end Region1

end Cert.KernelIdeal.Hand

end
-- ==== Proof.KI.Main.lean ====
/-
  The whole run of @main: host operations, the first pallas_call, one reshape, the second pallas_call, the host tail.
  The contents of the TensorCore's unscoped buffers are followed from the launch memory through the five items
  (`W0` … `W5`): a host stretch applies its operations; a pallas_call replaces its windows' arrays by what its
  write-backs leave (`Dat.arrAt … N` of its proof data: the inputs as entered, the output row as the blocks stored)
  and touches nothing else. Every weakly fair execution terminates with EVERY unscoped buffer at `W5`; the four
  argument arrays are written by no item, so they end as launched.
-/
import proofs.«130439_j26027501814344_1_alg».proof.Proof.KI.Data0
import proofs.«130439_j26027501814344_1_alg».proof.Proof.KI.Data1
import proofs.«130439_j26027501814344_1_alg».proof.Proof.Gen.KernelIdeal.Regions
import Idealize.ShloMosaic.Lib.Pipeline.RegionsLoop

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg)

/-! ## The buffer contents at each boundary -/

/-- At launch. -/
abbrev W0 : Dev nD → Valuation τ sig (Elt F) := fun c b => m ((c : Dev nD), b)
/-- After the first host stretch (the first pallas_call's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At the first pallas_call's exit. -/
def W2 (c : Dev nD) : Valuation τ sig (Elt F) :=
  Pipeline.withArrays spec0 c (W1 m c) fun w => (datR0 (V1 m) c).arrAt w cfg0.N
theorem W2_arr (c : Dev nD) (w : Fin cfg0.W) :
    W2 m c (Proc.devRef .tc (Pipeline.arrRef spec0 w)) = (datR0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (datR0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- After the reshape between the calls (the second pallas_call's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At the second pallas_call's exit. -/
def W4 (c : Dev nD) : Valuation τ sig (Elt F) :=
  Pipeline.withArrays spec1 c (W3 m c) fun w => (datR1 (V3 m) c).arrAt w cfg1.N
theorem W4_arr (c : Dev nD) (w : Fin cfg1.W) :
    W4 m c (Proc.devRef .tc (Pipeline.arrRef spec1 w)) = (datR1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (datR1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)
/-- After the host tail: the end. -/
abbrev W5 : Dev nD → Valuation τ sig (Elt F) := fun c => StableHlo.after hostOps2 (W4 m c)

/-! ## The arguments end as launched -/

theorem W5_main_arg0 (c : Dev nD) : W5 m c (Proc.devRef .tc main_arg0) = m ((c : Thread nD τ).loc main_arg0) :=
  calc W5 m c (Proc.devRef .tc main_arg0)
    _ = W4 m c (Proc.devRef .tc main_arg0) := StableHlo.after_of_writes_sub hostOps2 _ hostOps2_writes (by decide : main_arg0 ∉ hostOps2_W)
    _ = W3 m c (Proc.devRef .tc main_arg0) := ((W4_arr m c 1).trans (((datR1 (V3 m) c).arrAt_in 1 rfl _).trans (A_R1 (V3 m) c 1)))
    _ = W2 m c (Proc.devRef .tc main_arg0) := StableHlo.after_of_writes_sub hostOps1 _ hostOps1_writes (by decide : main_arg0 ∉ hostOps1_W)
    _ = W1 m c (Proc.devRef .tc main_arg0) := ((W2_arr m c 0).trans (((datR0 (V1 m) c).arrAt_in 0 rfl _).trans (A_R0 (V1 m) c 0)))
    _ = W0 m c (Proc.devRef .tc main_arg0) := StableHlo.after_of_writes_sub hostOps0 _ hostOps0_writes (by decide : main_arg0 ∉ hostOps0_W)
    _ = m ((c : Thread nD τ).loc main_arg0) := rfl
theorem W5_main_arg1 (c : Dev nD) : W5 m c (Proc.devRef .tc main_arg1) = m ((c : Thread nD τ).loc main_arg1) :=
  calc W5 m c (Proc.devRef .tc main_arg1)
    _ = W4 m c (Proc.devRef .tc main_arg1) := StableHlo.after_of_writes_sub hostOps2 _ hostOps2_writes (by decide : main_arg1 ∉ hostOps2_W)
    _ = W3 m c (Proc.devRef .tc main_arg1) := ((W4_arr m c 0).trans (((datR1 (V3 m) c).arrAt_in 0 rfl _).trans (A_R1 (V3 m) c 0)))
    _ = W2 m c (Proc.devRef .tc main_arg1) := StableHlo.after_of_writes_sub hostOps1 _ hostOps1_writes (by decide : main_arg1 ∉ hostOps1_W)
    _ = W1 m c (Proc.devRef .tc main_arg1) := ((W2_arr m c 1).trans (((datR0 (V1 m) c).arrAt_in 1 rfl _).trans (A_R0 (V1 m) c 1)))
    _ = W0 m c (Proc.devRef .tc main_arg1) := StableHlo.after_of_writes_sub hostOps0 _ hostOps0_writes (by decide : main_arg1 ∉ hostOps0_W)
    _ = m ((c : Thread nD τ).loc main_arg1) := rfl
theorem W5_main_arg2 (c : Dev nD) : W5 m c (Proc.devRef .tc main_arg2) = m ((c : Thread nD τ).loc main_arg2) :=
  calc W5 m c (Proc.devRef .tc main_arg2)
    _ = W4 m c (Proc.devRef .tc main_arg2) := StableHlo.after_of_writes_sub hostOps2 _ hostOps2_writes (by decide : main_arg2 ∉ hostOps2_W)
    _ = W3 m c (Proc.devRef .tc main_arg2) := (W4_of_ne m c main_arg2 (by decide))
    _ = W2 m c (Proc.devRef .tc main_arg2) := StableHlo.after_of_writes_sub hostOps1 _ hostOps1_writes (by decide : main_arg2 ∉ hostOps1_W)
    _ = W1 m c (Proc.devRef .tc main_arg2) := (W2_of_ne m c main_arg2 (by decide))
    _ = W0 m c (Proc.devRef .tc main_arg2) := StableHlo.after_of_writes_sub hostOps0 _ hostOps0_writes (by decide : main_arg2 ∉ hostOps0_W)
    _ = m ((c : Thread nD τ).loc main_arg2) := rfl
theorem W5_main_arg3 (c : Dev nD) : W5 m c (Proc.devRef .tc main_arg3) = m ((c : Thread nD τ).loc main_arg3) :=
  calc W5 m c (Proc.devRef .tc main_arg3)
    _ = W4 m c (Proc.devRef .tc main_arg3) := StableHlo.after_of_writes_sub hostOps2 _ hostOps2_writes (by decide : main_arg3 ∉ hostOps2_W)
    _ = W3 m c (Proc.devRef .tc main_arg3) := (W4_of_ne m c main_arg3 (by decide))
    _ = W2 m c (Proc.devRef .tc main_arg3) := StableHlo.after_of_writes_sub hostOps1 _ hostOps1_writes (by decide : main_arg3 ∉ hostOps1_W)
    _ = W1 m c (Proc.devRef .tc main_arg3) := (W2_of_ne m c main_arg3 (by decide))
    _ = W0 m c (Proc.devRef .tc main_arg3) := StableHlo.after_of_writes_sub hostOps0 _ hostOps0_writes (by decide : main_arg3 ∉ hostOps0_W)
    _ = m ((c : Thread nD τ).loc main_arg3) := rfl

/-! ## The proof data family and the thread state -/

abbrev admH : (p : Fin 2) → (pcfgs (F := F) p).Adm := fun p => (cfgs p).toPCfg_adm
/-- Both pipelines' proof data, each at its region's entry contents. -/
def pdats : (p : Fin 2) → (c : Dev nD) → Dat τ (Elt F) Unit ℕ (UR sig nD τ) ℕ (Pipeline.pin (pcfgs (F := F)) admH p) c
  | ⟨0, _⟩ => fun c => datR0 (V1 m) c
  | ⟨1, _⟩ => fun c => datR1 (V3 m) c
abbrev 𝒱H : Variants := Variants.none
abbrev LH : GSem nD τ sig → Finset Unit := fun _ => ∅
abbrev lvH : GSem nD τ sig → Unit → ℕ := fun _ _ => 0
/-- What rides beside the buffers through every item: the generator register at some state, and nothing owed. -/
abbrev RR (c : Dev nD) : sProp 𝕄 := iprop((∃ r, prngReg c r) ∗ ∃ W, owes (c : Thread nD τ) (0 : CellTallies nD τ sig Unit) W)
/-- A host stretch as a segment over the unscoped buffers from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱H LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RR

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev TN (c : Dev nD) : sProp 𝕄 := iprop(StableHlo.held (c : Thread nD τ) (Pipeline.ucRefs τ sig) (W5 m c) ∗ ∃ r, prngReg c r)

/-! ## The two pallas_calls as segments -/

-- a library lemma stated over the pinned configuration unifies with the printed one only when unification may unfold
-- plain definitions in a metavariable's type
set_option backward.isDefEq.respectTransparency.types false in
/-- The pallas_call number 0 as a segment of @main: entered with every unscoped buffer at `W1`, left with them at
    `W2`. Its arrays are split out of the unscoped buffers at entry and put back at exit; the generator register
    and the scoped memory go into the region invariant and come back; nothing is owed; the kernel has no semaphore of its own. -/
def reg0 : Pipeline.RegionSeg (pcfgs (F := F)) admH (pdats m) () defs₀ 𝒱H LH lvH 0 where
  win := launch0.win.to₀
  block_pos := launch0.block_pos
  stage_whole := launch0.stage_whole
  K := PEmpty
  osem k := k.elim
  ho := Pipeline.OwnSemFacts.none _
  hbody c := (body_obligationR0 (V1 m) c).loose
  hwaits := Pipeline.hwaits_of_owed_zero _ _ _ _ LH lvH 0 fun _ _ => rfl
  pre c := iprop(StableHlo.held (c : Thread nD τ) (Pipeline.ucRefs τ sig) (W1 m c) ∗ RR c)
  post c := iprop(StableHlo.held (c : Thread nD τ) (Pipeline.ucRefs τ sig) (W2 m c) ∗ RR c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) admH (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hinR0 (V1 m) c)
    unfold Pipeline.ΦA
    iintro ⟨Hp, -, Hr⟩
    isplitl [Hr]; · iexact Hr
    iexact Hp
  hout c := by
    rw [Pipeline.ownSems0_none]
    refine BIBase.Entails.trans (houtR0 (V1 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- The pallas_call number 1 as a segment of @main: entered with every unscoped buffer at `W3`, left with them at
    `W4`. Its arrays are split out of the unscoped buffers at entry and put back at exit; the generator register
    and the scoped memory go into the region invariant and come back; nothing is owed; the kernel has no semaphore of its own. -/
def reg1 : Pipeline.RegionSeg (pcfgs (F := F)) admH (pdats m) () defs₀ 𝒱H LH lvH 1 where
  win := launch1.win.to₀
  block_pos := launch1.block_pos
  stage_whole := launch1.stage_whole
  K := PEmpty
  osem k := k.elim
  ho := Pipeline.OwnSemFacts.none _
  hbody c := (body_obligationR1 (V3 m) c).loose
  hwaits := Pipeline.hwaits_of_owed_zero _ _ _ _ LH lvH 1 fun _ _ => rfl
  pre c := iprop(StableHlo.held (c : Thread nD τ) (Pipeline.ucRefs τ sig) (W3 m c) ∗ RR c)
  post c := iprop(StableHlo.held (c : Thread nD τ) (Pipeline.ucRefs τ sig) (W4 m c) ∗ RR c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) admH (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hinR1 (V3 m) c)
    unfold Pipeline.ΦA
    iintro ⟨Hp, -, Hr⟩
    isplitl [Hr]; · iexact Hr
    iexact Hp
  hout c := by
    rw [Pipeline.ownSems0_none]
    refine BIBase.Entails.trans (houtR1 (V3 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segsH : List (Pipeline.Seg (pcfgs (F := F)) admH (pdats m) () defs₀ 𝒱H LH lvH) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)) ]

theorem main_runH (c : Dev nD) : main (F := F) c = Pipeline.Seg.run (segsH m) := (main_chain c).trans (by chain_rfl)

set_option backward.isDefEq.respectTransparency.types false in
/-- THE RUN: every weakly fair execution of @main from memory `m` with zero counters terminates, nothing faulting, with
    every unscoped TensorCore buffer at `W5`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) admH (pdats m) () cellOf_inj emb₁ defs₀ 𝒱H LH lvH m ρ main (segsH m)
    (fun c Q => by rw [main_runH m c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ RR c)) (Tₙ := TN m)
    (hch := ⟨fun _ => .rfl, fun _ => .rfl, fun _ => .rfl, fun _ => .rfl, fun _ => .rfl, fun c => by
      show (iprop(StableHlo.held (c : Thread nD τ) (Pipeline.ucRefs τ sig) (W5 m c) ∗ RR c) : sProp 𝕄) ⊢ _
      iintro ⟨Hh, Hp, HO⟩
      isplitl [Hh Hp]
      · isplitl [Hh]; · iexact Hh
        iexact Hp
      iexact HO⟩)
    (hinit := by
      refine Pipeline.initEach LH lvH fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

/-- THE FRAME: the argument arrays end as launched. -/
theorem frameH : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W5_main_arg0 m c),
     (h c _ (mem_uc main_arg1 (by decide))).trans (W5_main_arg1 m c),
     (h c _ (mem_uc main_arg2 (by decide))).trans (W5_main_arg2 m c),
     (h c _ (mem_uc main_arg3 (by decide))).trans (W5_main_arg3 m c)⟩) (run_all m ρ)

end Cert.KernelIdeal.Hand

end
-- ==== Proof.Val.Blocks0.lean ====
/-
  Where the first pallas_call's blocks sit in its arrays. Point t of the 16 x 16 grid is (i, j) = (t / 16, t % 16).
  The a-side windows (the 1024 x 3 block of rows and the 1024 x 1 block of their squared norms) are block i of their
  arrays, so local row q is array row 1024·i + q; the b-side windows (1024 x 3 rows, 1 x 1024 norms) are block j, local
  row b being array row 1024·j + b; the output window (1 x 1024) is block i of the 1 x 16384 result row, written back at
  j = 15 only, and those 16 blocks tile the row.
-/
import proofs.«130439_j26027501814344_1_alg».proof.Proof.KI.Data0
import Idealize.ShloMosaic.Lib.ValueIdx
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

section Region0

variable (V : (c : Dev nD) → (b : Ref sig .tc) → Buf (Elt F) ((c : Thread nD τ).loc b))

/-- The four entry arrays, at their literal types. -/
abbrev arrA_R0 (c : Dev nD) : Vec F S16384x3 .f32 := V c (Pipeline.arrRef spec0 0)
abbrev arrB_R0 (c : Dev nD) : Vec F S16384x3 .f32 := V c (Pipeline.arrRef spec0 1)
abbrev colA_R0 (c : Dev nD) : Vec F S16384x1 .f32 := V c (Pipeline.arrRef spec0 2)
abbrev rowB_R0 (c : Dev nD) : Vec F S1x16384 .f32 := V c (Pipeline.arrRef spec0 3)

/-- The four input blocks at a point, at their literal types. -/
abbrev blkA_R0 (c : Dev nD) (t : Fin cfg0.N) : Vec F S1024x3 .f32 := iblkR0 V c 0 t
abbrev blkB_R0 (c : Dev nD) (t : Fin cfg0.N) : Vec F S1024x3 .f32 := iblkR0 V c 1 t
abbrev blkA2_R0 (c : Dev nD) (t : Fin cfg0.N) : Vec F S1024x1 .f32 := iblkR0 V c 2 t
abbrev blkB2_R0 (c : Dev nD) (t : Fin cfg0.N) : Vec F S1x1024 .f32 := iblkR0 V c 3 t

theorem lt256_R0 (t : Fin cfg0.N) : t.val < 256 := lt_of_lt_of_eq t.isLt (show cfg0.N = 256 from N_0)

/-- Array row of local row q of the a-side block at point t, and of local row b of the b-side block. -/
def rowOf_R0 (t : Fin cfg0.N) (q : Fin 1024) : Fin 16384 := ⟨1024 * (t.val / 16) + q.val, by have := lt256_R0 t; have := q.isLt; omega⟩
def colOf_R0 (t : Fin cfg0.N) (b : Fin 1024) : Fin 16384 := ⟨1024 * (t.val % 16) + b.val, by have := lt256_R0 t; have := b.isLt; omega⟩

/-- The block index of every window at point t, decided over the grid: the a-side windows and the output sit at
    block t / 16 of their long axis, the b-side windows at block t % 16, and every short axis at block 0. -/
theorem idx_R0 : ∀ t : Fin cfg0.N,
    win0_0.index t (0 : Fin 2) = t.val / 16 ∧ win0_0.index t (1 : Fin 2) = 0
    ∧ win0_1.index t (0 : Fin 2) = t.val % 16 ∧ win0_1.index t (1 : Fin 2) = 0
    ∧ win0_2.index t (0 : Fin 2) = t.val / 16 ∧ win0_2.index t (1 : Fin 2) = 0
    ∧ win0_3.index t (0 : Fin 2) = 0 ∧ win0_3.index t (1 : Fin 2) = t.val % 16
    ∧ win0_4.index t (0 : Fin 2) = 0 ∧ win0_4.index t (1 : Fin 2) = t.val / 16 :=
  (by decide +kernel : ∀ t : Fin grid0.N, _)

/- Each block entry below is the array's entry at the embedded index; on every axis the embedded coordinate is
   block index × block size + 1 × local coordinate, and the block index is the decided one. -/

theorem blkA_R0_apply (c : Dev nD) (t : Fin cfg0.N) (q : Fin 1024) (k : Fin 3) :
    blkA_R0 V c t (ix2 q k) = arrA_R0 V c (ix2 (rowOf_R0 t q) k) := by
  show V c (Pipeline.arrRef spec0 0) (((cfg0.win 0).blk t).view.emb (ix2 q k)) = V c (Pipeline.arrRef spec0 0) (ix2 (rowOf_R0 t q) k)
  obtain ⟨e0, e1, -⟩ := idx_R0 t
  refine congrArg (V c (Pipeline.arrRef spec0 0)) ?_
  funext a; apply Fin.ext
  match a with
  | ⟨0, _⟩ => show win0_0.index t (0 : Fin 2) * 1024 + 1 * q.val = 1024 * (t.val / 16) + q.val; omega
  | ⟨1, _⟩ => show win0_0.index t (1 : Fin 2) * 3 + 1 * k.val = k.val; omega
theorem blkB_R0_apply (c : Dev nD) (t : Fin cfg0.N) (b : Fin 1024) (k : Fin 3) :
    blkB_R0 V c t (ix2 b k) = arrB_R0 V c (ix2 (colOf_R0 t b) k) := by
  show V c (Pipeline.arrRef spec0 1) (((cfg0.win 1).blk t).view.emb (ix2 b k)) = V c (Pipeline.arrRef spec0 1) (ix2 (colOf_R0 t b) k)
  obtain ⟨-, -, e0, e1, -⟩ := idx_R0 t
  refine congrArg (V c (Pipeline.arrRef spec0 1)) ?_
  funext a; apply Fin.ext
  match a with
  | ⟨0, _⟩ => show win0_1.index t (0 : Fin 2) * 1024 + 1 * b.val = 1024 * (t.val % 16) + b.val; omega
  | ⟨1, _⟩ => show win0_1.index t (1 : Fin 2) * 3 + 1 * k.val = k.val; omega
theorem blkA2_R0_apply (c : Dev nD) (t : Fin cfg0.N) (q : Fin 1024) :
    blkA2_R0 V c t (ix2 q 0) = colA_R0 V c (ix2 (rowOf_R0 t q) 0) := by
  show V c (Pipeline.arrRef spec0 2) (((cfg0.win 2).blk t).view.emb (ix2 q 0)) = V c (Pipeline.arrRef spec0 2) (ix2 (rowOf_R0 t q) 0)
  obtain ⟨-, -, -, -, e0, e1, -⟩ := idx_R0 t
  refine congrArg (V c (Pipeline.arrRef spec0 2)) ?_
  funext a; apply Fin.ext
  match a with
  | ⟨0, _⟩ => show win0_2.index t (0 : Fin 2) * 1024 + 1 * q.val = 1024 * (t.val / 16) + q.val; omega
  | ⟨1, _⟩ => show win0_2.index t (1 : Fin 2) * 1 + 1 * 0 = 0; omega
theorem blkB2_R0_apply (c : Dev nD) (t : Fin cfg0.N) (b : Fin 1024) :
    blkB2_R0 V c t (ix2 0 b) = rowB_R0 V c (ix2 0 (colOf_R0 t b)) := by
  show V c (Pipeline.arrRef spec0 3) (((cfg0.win 3).blk t).view.emb (ix2 0 b)) = V c (Pipeline.arrRef spec0 3) (ix2 0 (colOf_R0 t b))
  obtain ⟨-, -, -, -, -, -, e0, e1, -⟩ := idx_R0 t
  refine congrArg (V c (Pipeline.arrRef spec0 3)) ?_
  funext a; apply Fin.ext
  match a with
  | ⟨0, _⟩ => show win0_3.index t (0 : Fin 2) * 1 + 1 * 0 = 0; omega
  | ⟨1, _⟩ => show win0_3.index t (1 : Fin 2) * 1024 + 1 * b.val = 1024 * (t.val % 16) + b.val; omega

/-- The output window's block at point t, read off any contents G of the result row. -/
theorem outBlk_R0_apply (t : Fin cfg0.N) (G : Vec F S1x16384 .f32) (q : Fin 1024) :
    ((((cfg0.win 4).blk t).view.read (Elt F) G) : Vec F S1x1024 .f32) (ix2 0 q) = G (ix2 0 (rowOf_R0 t q)) := by
  show G (((cfg0.win 4).blk t).view.emb (ix2 0 q)) = G (ix2 0 (rowOf_R0 t q))
  obtain ⟨-, -, -, -, -, -, -, -, e0, e1⟩ := idx_R0 t
  refine congrArg G ?_
  funext a; apply Fin.ext
  match a with
  | ⟨0, _⟩ => show win0_4.index t (0 : Fin 2) * 1 + 1 * 0 = 0; omega
  | ⟨1, _⟩ => show win0_4.index t (1 : Fin 2) * 1024 + 1 * q.val = 1024 * (t.val / 16) + q.val; omega

/-- Every entry of the result row lies in the block of a point that writes back. -/
theorem outCover_R0 (c : Dev nD) (i : ((cfg0.win 4).arr.view.loc (c.tc : Thread nD τ)).2.ty.Idx) :
    ∃ t : Fin cfg0.N, (cfg0.win 4).flush t = true ∧ i ∈ ((cfg0.win 4).blk t).view.set := by
  -- the result row has 1 x 16384 entries; entry (0, n) lies in block n / 1024, whose writing point is 16·(n / 1024) + 15
  have hi0 : (i 0).val < 1 := (i 0).isLt
  have hi1 : (i 1).val < 16384 := (i 1).isLt
  have hN : cfg0.N = 256 := N_0
  let t : Fin cfg0.N := ⟨16 * ((i 1).val / 1024) + 15, by omega⟩
  have ht : t.val = 16 * ((i 1).val / 1024) + 15 := rfl
  refine ⟨t, (flush0_4 t).mpr (by omega), ?_⟩
  obtain ⟨-, -, -, -, -, -, -, -, e0, e1⟩ := idx_R0 t
  show i ∈ ((View.whole (Pipeline.arrRef spec0 4)).slice (win0_4.rect t)).set
  rw [View.set_slice_whole, Rect.mem_set_unit]
  intro a
  match a with
  | ⟨0, _⟩ => show win0_4.index t (0 : Fin 2) * 1 ≤ (i 0).val ∧ (i 0).val < win0_4.index t (0 : Fin 2) * 1 + 1; omega
  | ⟨1, _⟩ => show win0_4.index t (1 : Fin 2) * 1024 ≤ (i 1).val ∧ (i 1).val < win0_4.index t (1 : Fin 2) * 1024 + 1024; omega

end Region0

end Cert.KernelIdeal.Hand

end
-- ==== Proof.Val.Spec.lean ====
/-
  The mathematics both programs compute, over the extended reals.

  For point clouds A, B (16384 points of 3 coordinates) and per-point numbers a2, b2 (the programs pass the squared
  norms, but nothing here depends on that) the clamped "squared distance" is
      d2 p g = max( a2 p + b2 g - 2 · Σ_k A[p,k]·B[g,k] , 0 ),
  and the two directed minima are  minOver p = min_g d2 p g  (a minimum over the second cloud) and, with the roles
  swapped, min_p d2 p g. A minimum from +inf is characterised by its lower bounds: c ≤ min_g f g iff c ≤ +inf and
  c ≤ f g for every g — which is how a minimum taken block by block is compared with one taken at once.
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-- +inf, 2 and 0 as the programs spell them (the same words on both sides; never evaluated). -/
abbrev TOP : EReal := Ideal.ofBits .f32 0x7F800000#32
abbrev TWO : EReal := Ideal.ofBits .f32 0x40000000#32
abbrev ZERO : EReal := Ideal.ofBits .f32 0x00000000#32

/-- The clamped squared distance between point p of A and point g of B. -/
def d2 (A B : (⟨2, ![16384, 3]⟩ : Shape).Idx → EReal) (a2 b2 : Fin 16384 → EReal) (p g : Fin 16384) : EReal :=
  max (a2 p + b2 g - TWO * ∑ k : Fin 3, A (ix2 p k) * B (ix2 g k)) ZERO

/-- The minimum over all points g of B, from +inf. -/
def minOver (A B : (⟨2, ![16384, 3]⟩ : Shape).Idx → EReal) (a2 b2 : Fin 16384 → EReal) (p : Fin 16384) : EReal :=
  (Finset.univ : Finset (Fin 16384)).fold min TOP (fun g => d2 A B a2 b2 p g)

/-- Lower bounds of the minimum. -/
theorem le_minOver_iff (A B : (⟨2, ![16384, 3]⟩ : Shape).Idx → EReal) (a2 b2 : Fin 16384 → EReal) (p : Fin 16384) (c : EReal) :
    c ≤ minOver A B a2 b2 p ↔ c ≤ TOP ∧ ∀ g : Fin 16384, c ≤ d2 A B a2 b2 p g := by
  unfold minOver
  rw [Finset.le_fold_min]
  simp only [Finset.mem_univ, true_implies]

/-- Swapping the two clouds (and their per-point numbers) swaps the arguments of the distance. -/
theorem d2_swap (A B : (⟨2, ![16384, 3]⟩ : Shape).Idx → EReal) (a2 b2 : Fin 16384 → EReal) (p g : Fin 16384) :
    d2 B A b2 a2 g p = d2 A B a2 b2 p g := by
  unfold d2
  rw [add_comm (b2 g) (a2 p)]
  congr 3
  exact Finset.sum_congr rfl fun k _ => mul_comm _ _

/-- Two extended reals with the same lower bounds are equal. -/
theorem eq_of_le_iff {x y : EReal} (h : ∀ c : EReal, c ≤ x ↔ c ≤ y) : x = y :=
  le_antisymm ((h x).mp le_rfl) ((h y).mpr le_rfl)

end Cert.Spec

end
-- ==== Proof.Val.Pay.lean ====
/-
  The kernel's two stored values read at an index, over the extended reals. The reset value is the constant +inf row.
  The step value at column q of the running-minimum row is
      min( s[0,q] , min_b max( x2[q,0] + x3[0,b] - 2·Σ_k x0[q,k]·x1[b,k] , 0 ) ),
  b ranging over the 1024 rows of the second block: the matrix product contracts the 3 coordinates (the transposed
  second operand read back through the transposition), the two broadcasts put x2 down the columns and x3 along the rows,
  the lane reduction is the minimum over b from +inf, and the closing reshapes and the transposition of a one-column
  array only rename the index. Changes of float format are the identity over the extended reals.
-/
import proofs.«130439_j26027501814344_1_alg».proof.Proof.Gen.KernelIdeal.Skeleton
import proofs.«130439_j26027501814344_1_alg».proof.Proof.Val.Spec
import Idealize.ShloMosaic.Lib.Pipeline.Value
import Idealize.ShloMosaic.Lib.ValueLayout
import Idealize.ShloMosaic.Lib.ValueIdx
import Idealize.ShloMosaic.PureOps.Dims
import Idealize.ShloMosaic.PureOps.Reduce
import Idealize.ShloMosaic.PureOps.Ideal.Laws
import Mathlib.Algebra.BigOperators.Group.Finset.Defs
import Mathlib.Algebra.BigOperators.Group.Finset.Basic
import Mathlib.Data.Finset.Fold

set_option maxRecDepth 16384

noncomputable section

open scoped BigOperators

namespace Cert.KernelIdeal.Val

open Idealize.ShloMosaic Idealize.ShloMosaic.ValueIdx Cert.KernelIdeal Cert.KernelIdeal.Gen Cert.Spec

/-! ## Each operation of the step value read at explicit coordinates -/

namespace Pay

/-- A reshape of a one-row array to its own shape reads the same index. -/
theorem shapeCast_same_apply (v : FVec Ideal S1x1024 .f32) (h : S1x1024.ShapeCasts S1x1024) (j : S1x1024.Idx) :
    shapeCast S1x1024 v h j = v j := congrFun (shapeCast_self v h) j

/-- A reshape of a one-column array to its own shape reads the same index. -/
theorem shapeCast_same_col_apply (v : FVec Ideal S1024x1 .f32) (h : S1024x1.ShapeCasts S1024x1) (j : S1024x1.Idx) :
    shapeCast S1024x1 v h j = v j := congrFun (shapeCast_self v h) j

/-- A one-column array transposed to one row reads, at column q, the operand's row q. -/
theorem transpose_col_apply (v : FVec Ideal S1024x1 .f32) (h : S1024x1.Transposes [1, 0] S1x1024) (q : Fin 1024) :
    transpose S1x1024 [1, 0] v h (ix2 0 q) = v (ix2 q 0) :=
  transpose_ix2_apply v h 0 q

/-- A vector reshaped to one column reads, at row q, the vector's element q. -/
theorem shapeCast_col_apply (v : FVec Ideal S1024 .f32) (h : S1024.ShapeCasts S1024x1) (q : Fin 1024) :
    shapeCast S1024x1 v h (ix2 q 0) = v (ix1 q) :=
  shapeCast_apply v h _ _ (by
    rw [Shape.rowMajor_val_two, Shape.rowMajor_val_one]
    show q.val = q.val * 1 + 0
    omega)

/-- One column broadcast along the rows reads, at (q, b), the column's row q. -/
theorem broadcastTo_col_apply (v : FVec Ideal S1024x1 .f32) (h : S1024x1.Broadcasts S1024x1024) (q b : Fin 1024) :
    broadcastTo S1024x1024 v h (ix2 q b) = v (ix2 q 0) := by
  refine broadcastTo_apply v h (ix2 q b) (ix2 q 0) fun ax => ?_
  match ax with
  | ⟨0, _⟩ =>
    show q.val = if (1024 : Nat) = 1 then 0 else q.val
    rw [if_neg (by decide)]
  | ⟨1, _⟩ => rfl

/-- One row broadcast down the columns reads, at (q, b), the row's column b. -/
theorem broadcastTo_row_apply (v : FVec Ideal S1x1024 .f32) (h : S1x1024.Broadcasts S1024x1024) (q b : Fin 1024) :
    broadcastTo S1024x1024 v h (ix2 q b) = v (ix2 0 b) :=
  broadcastTo_1b_ab_apply v h q b

/-- The transposed second operand read back: at (k, b) it is the operand at (b, k). -/
theorem transpose_rhs_apply (v : FVec Ideal S1024x3 .bf16) (h : S1024x3.Transposes [1, 0] S3x1024) (k : Fin 3) (b : Fin 1024) :
    transpose S3x1024 [1, 0] v h (ix2 k b) = v (ix2 b k) :=
  transpose_ix2_apply v h k b

/-- The lane minimum from +inf: at row q it is the minimum over the 1024 columns of that row. -/
theorem minRow_apply (src : FVec Ideal S1024x1024 .f32) (h : S1024x1024.Reduces [1] S1024) (hφ : FKind.Formats .f32)
    (hacc : (0x7F800000#32 : BitVec 32) = FKind.minimumf.neutral .f32 hφ) (q : Fin 1024) :
    multiReduction .minimumf [1] S1024 src 0x7F800000#32 h hφ hacc (ix1 q)
      = (Finset.univ : Finset (Fin 1024)).fold min TOP (fun b => src (ix2 q b)) := by
  rw [multiReduction_minimumf_eq_fold]
  refine (h.fold_filter_drop_single _ _ src (ix1 q)).trans ?_
  have e : ∀ b : Fin 1024, h.lift (ix1 q) b = ix2 q b := fun b => funext fun c => Fin.ext (match c with
    | ⟨0, _⟩ => rfl
    | ⟨1, _⟩ => rfl)
  show (Finset.univ : Finset (Fin 1024)).fold min TOP (fun b => src (h.lift (ix1 q) b)) = _
  exact congrArg ((Finset.univ : Finset (Fin 1024)).fold min TOP) (funext fun b => congrArg src (e b))

/-! The matrix product's operand indices, axis by axis: the first operand is read at (row of the output, contracted
coordinate), the second at (contracted coordinate, column of the output). -/
theorem lhs_dot_0 (i : S1024x1024.Idx) (c : dot_S1024x3_S3x1024_S1024x1024_1_0_0_1_n_n.contr.Idx) :
    (dot_S1024x3_S3x1024_S1024x1024_1_0_0_1_n_n.lhsIdx i c 0).val = (i 0).val := by
  unfold DotDims.lhsIdx
  rw [dif_neg (show ¬(0 : Fin S1024x3.rank) ∈ dot_S1024x3_S3x1024_S1024x1024_1_0_0_1_n_n.lhsBatch by decide), dif_pos (show (0 : Fin S1024x3.rank) ∈ dot_S1024x3_S3x1024_S1024x1024_1_0_0_1_n_n.lhsNonContracting by decide)]
  rfl
theorem lhs_dot_1 (i : S1024x1024.Idx) (c : dot_S1024x3_S3x1024_S1024x1024_1_0_0_1_n_n.contr.Idx) :
    (dot_S1024x3_S3x1024_S1024x1024_1_0_0_1_n_n.lhsIdx i c 1).val = (c ⟨0, by decide⟩).val :=
  dot_S1024x3_S3x1024_S1024x1024_1_0_0_1_n_n.lhsIdx_val_of_single rfl i c
theorem rhs_dot_0 (i : S1024x1024.Idx) (c : dot_S1024x3_S3x1024_S1024x1024_1_0_0_1_n_n.contr.Idx) :
    (dot_S1024x3_S3x1024_S1024x1024_1_0_0_1_n_n.rhsIdx i c 0).val = (c ⟨0, by decide⟩).val :=
  dot_S1024x3_S3x1024_S1024x1024_1_0_0_1_n_n.rhsIdx_val_of_single rfl i c
theorem rhs_dot_1 (i : S1024x1024.Idx) (c : dot_S1024x3_S3x1024_S1024x1024_1_0_0_1_n_n.contr.Idx) :
    (dot_S1024x3_S3x1024_S1024x1024_1_0_0_1_n_n.rhsIdx i c 1).val = (i 1).val := by
  unfold DotDims.rhsIdx
  rw [dif_neg (show ¬(1 : Fin S3x1024.rank) ∈ dot_S1024x3_S3x1024_S1024x1024_1_0_0_1_n_n.rhsBatch by decide), dif_pos (show (1 : Fin S3x1024.rank) ∈ dot_S1024x3_S3x1024_S1024x1024_1_0_0_1_n_n.rhsNonContracting by decide)]
  rfl

/-- The matrix product into the zero accumulator, at (q, b): the sum over the 3 contracted coordinates of the products. -/
theorem matmul_qb_apply (l : FVec Ideal S1024x3 .bf16) (r : FVec Ideal S3x1024 .bf16) (q b : Fin 1024) :
    matmul dot_S1024x3_S3x1024_S1024x1024_1_0_0_1_n_n none l r (constant (F := Ideal) S1024x1024 .f32 0x00000000#32) (ix2 q b)
      = ∑ k : Fin 3, l (ix2 q k) * r (ix2 k b) := by
  simp only [matmul]
  rw [Ideal.matmul_constant_zero_apply, ← Equiv.sum_comp (ValueIdx.contrEquiv1 dot_S1024x3_S3x1024_S1024x1024_1_0_0_1_n_n 3 rfl rfl).symm]
  refine Finset.sum_congr rfl fun k _ => ?_
  have hk := ValueIdx.contrEquiv1_symm_val dot_S1024x3_S3x1024_S1024x1024_1_0_0_1_n_n 3 rfl rfl k
  have el : dot_S1024x3_S3x1024_S1024x1024_1_0_0_1_n_n.lhsIdx (ix2 q b) ((ValueIdx.contrEquiv1 dot_S1024x3_S3x1024_S1024x1024_1_0_0_1_n_n 3 rfl rfl).symm k) = ix2 q k := funext fun a => Fin.ext (by
    match a with
    | ⟨0, _⟩ => exact lhs_dot_0 _ _
    | ⟨1, _⟩ => exact (lhs_dot_1 _ _).trans hk)
  have er : dot_S1024x3_S3x1024_S1024x1024_1_0_0_1_n_n.rhsIdx (ix2 q b) ((ValueIdx.contrEquiv1 dot_S1024x3_S3x1024_S1024x1024_1_0_0_1_n_n 3 rfl rfl).symm k) = ix2 k b := funext fun a => Fin.ext (by
    match a with
    | ⟨0, _⟩ => exact (rhs_dot_0 _ _).trans hk
    | ⟨1, _⟩ => exact rhs_dot_1 _ _)
  rw [el, er]

end Pay

open Pay

/-- The reset value is +inf everywhere. -/
theorem pay1_apply (j : S1x1024.Idx) : (k0_pay1 (F := Ideal) : S1x1024.Idx → EReal) j = TOP := by
  unfold k0_pay1
  exact shapeCast_same_apply _ _ j

/-- The step value at column q. -/
theorem pay2_apply (x0 x1 : Vec Ideal S1024x3 .f32) (x2 : Vec Ideal S1024x1 .f32) (x3 s : Vec Ideal S1x1024 .f32) (q : Fin 1024) :
    (k0_pay2 (F := Ideal) x0 x1 x2 x3 s : S1x1024.Idx → EReal) (ix2 0 q)
      = min (s (ix2 0 q)) ((Finset.univ : Finset (Fin 1024)).fold min TOP
          (fun b => max (x2 (ix2 q 0) + x3 (ix2 0 b) - TWO * ∑ k : Fin 3, x0 (ix2 q k) * x1 (ix2 b k)) ZERO)) := by
  unfold k0_pay2
  -- the closing reshape keeps the index; the minimum with the running row is pointwise
  refine (shapeCast_same_apply _ _ _).trans ?_
  refine (minimumf_apply _ _ _).trans ?_
  refine congrArg (min (s (ix2 0 q))) ?_
  -- the transposition of the one-column array and the reshape of the vector only rename the index
  refine (transpose_col_apply _ _ q).trans ?_
  refine (shapeCast_col_apply _ _ q).trans ?_
  -- the lane reduction is the minimum over the columns b of row q, from +inf
  refine (minRow_apply _ _ _ _ q).trans ?_
  refine congrArg ((Finset.univ : Finset (Fin 1024)).fold min TOP) (funext fun b => ?_)
  -- the clamp, the difference, the sum and the doubling are pointwise
  refine (maximumf_apply _ _ _).trans ?_
  refine congrArg₂ max ?_ rfl
  refine (subf_apply _ _ _).trans ?_
  refine congrArg₂ (· - ·) ?_ ?_
  · -- the two broadcasts: x2 down the columns, x3 along the rows (the reshapes keep the index)
    refine (addf_apply _ _ _).trans ?_
    refine congrArg₂ (· + ·) ?_ ?_
    · refine (broadcastTo_col_apply _ _ q b).trans ?_
      exact shapeCast_same_col_apply _ _ _
    · refine (broadcastTo_row_apply _ _ q b).trans ?_
      exact shapeCast_same_apply _ _ _
  · -- twice the matrix product, the second operand read back through its transposition
    refine (mulf_apply _ _ _).trans ?_
    refine congrArg₂ (· * ·) rfl ?_
    refine (matmul_qb_apply _ _ q b).trans ?_
    refine Finset.sum_congr rfl fun k _ => ?_
    refine congrArg₂ (· * ·) rfl ?_
    exact transpose_rhs_apply _ _ k b

/-- The second pallas_call runs the same kernel function: its two stored values are the same terms. -/
theorem k1_pay1_eq : (k1_pay1 (F := Ideal)) = k0_pay1 (F := Ideal) := rfl
theorem k1_pay2_eq : (k1_pay2 (F := Ideal)) = k0_pay2 (F := Ideal) := rfl

end Cert.KernelIdeal.Val

end
-- ==== Proof.Val.Out0.lean ====
/-
  What the first pallas_call leaves in its result row, over the extended reals: entry p is the minimum over ALL 16384
  points g of the second cloud of the clamped squared distance d2 p g.

  Within sweep i the running-minimum row after step j holds, at column q, the minimum from +inf over the points
  g < 1024·(j+1) — stated by lower bounds: x ≤ row[q] iff x ≤ +inf and x ≤ d2 (1024·i+q) g for all those g. Step j
  adds the points of block j (the step value is min(old, min over the block), and the block's local rows are the array
  rows 1024·j .. 1024·j+1023); the reset at j = 0 starts from +inf. At j = 15 all 16384 points are in, the row is
  copied to output block i, and the 16 output blocks tile the result row.
-/
import proofs.«130439_j26027501814344_1_alg».proof.Proof.Val.Blocks0
import proofs.«130439_j26027501814344_1_alg».proof.Proof.Val.Pay
import proofs.«130439_j26027501814344_1_alg».proof.Proof.Val.Spec

set_option maxRecDepth 16384

noncomputable section

open scoped BigOperators

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx Cert.Spec Cert.KernelIdeal.Val

/-- The reset value is +inf everywhere. -/
theorem pay1_apply_k0 (j : S1x1024.Idx) : (k0_pay1 (F := Ideal) : S1x1024.Idx → EReal) j = TOP := pay1_apply j

/-- The step value at column q. -/
theorem pay2_apply_k0 (x0 x1 : Vec Ideal S1024x3 .f32) (x2 : Vec Ideal S1024x1 .f32) (x3 s : Vec Ideal S1x1024 .f32) (q : Fin 1024) :
    (k0_pay2 (F := Ideal) x0 x1 x2 x3 s : S1x1024.Idx → EReal) (ix2 0 q)
      = min (s (ix2 0 q)) ((Finset.univ : Finset (Fin 1024)).fold min TOP
          (fun b => max (x2 (ix2 q 0) + x3 (ix2 0 b) - TWO * ∑ k : Fin 3, x0 (ix2 q k) * x1 (ix2 b k)) ZERO)) :=
  pay2_apply x0 x1 x2 x3 s q

/-- Lower bounds of one step over abstract blocks: the step value is the minimum of the previous entry and of the
    block's 1024 clamped distances taken from +inf, so a number is below it iff it is below each of them. -/
theorem step_le_iff_R0 (x0 x1 : Vec Ideal S1024x3 .f32) (x2 : Vec Ideal S1024x1 .f32) (x3 s : Vec Ideal S1x1024 .f32)
    (q : Fin 1024) (x : EReal) (f : Fin 1024 → EReal)
    (hf : ∀ b : Fin 1024, max (x2 (ix2 q 0) + x3 (ix2 0 b) - TWO * ∑ k : Fin 3, x0 (ix2 q k) * x1 (ix2 b k)) ZERO = f b) :
    x ≤ (k0_pay2 (F := Ideal) x0 x1 x2 x3 s : S1x1024.Idx → EReal) (ix2 0 q)
      ↔ x ≤ s (ix2 0 q) ∧ x ≤ TOP ∧ ∀ b : Fin 1024, x ≤ f b := by
  rw [pay2_apply_k0, le_min_iff, Finset.le_fold_min]
  simp only [Finset.mem_univ, true_implies, hf]

/-- A statement about the 1024 rows of the second block at point t is a statement about the array rows
    1024·j .. 1024·j + 1023, j = t % 16. -/
theorem forall_colOf_R0_iff (t : Fin cfg0.N) (P : Fin 16384 → Prop) :
    (∀ b : Fin 1024, P (colOf_R0 t b))
      ↔ ∀ g : Fin 16384, 1024 * (t.val % 16) ≤ g.val → g.val < 1024 * (t.val % 16 + 1) → P g := by
  constructor
  · intro h g h1 h2
    have e : colOf_R0 t ⟨g.val - 1024 * (t.val % 16), by omega⟩ = g :=
      Fin.ext (by show 1024 * (t.val % 16) + (g.val - 1024 * (t.val % 16)) = g.val; omega)
    exact e ▸ h _
  · intro h b
    refine h _ ?_ ?_
    · show 1024 * (t.val % 16) ≤ 1024 * (t.val % 16) + b.val; omega
    · show 1024 * (t.val % 16) + b.val < 1024 * (t.val % 16 + 1); have := b.isLt; omega

/-- The rows below 1024·(j+1) are the rows below 1024·j together with the rows of block j. -/
theorem range_split_R0 (P : Fin 16384 → Prop) (j : ℕ) :
    ((∀ g : Fin 16384, g.val < 1024 * j → P g) ∧ (∀ g : Fin 16384, 1024 * j ≤ g.val → g.val < 1024 * (j + 1) → P g))
      ↔ ∀ g : Fin 16384, g.val < 1024 * (j + 1) → P g := by
  constructor
  · rintro ⟨h1, h2⟩ g hg
    by_cases h : g.val < 1024 * j
    · exact h1 g h
    · exact h2 g (by omega) hg
  · intro h
    exact ⟨fun g hg => h g (by omega), fun g _ hg => h g hg⟩

/-- Within a sweep the first cloud's block does not move: the array row of local row q is the same at consecutive points. -/
theorem rowOf_R0_succ (n : ℕ) (hn : n + 1 < cfg0.N) (h : ¬(n + 1) % 16 = 0) (q : Fin 1024) :
    rowOf_R0 ⟨n, Nat.lt_of_succ_lt hn⟩ q = rowOf_R0 ⟨n + 1, hn⟩ q := by
  apply Fin.ext
  show 1024 * (n / 16) + q.val = 1024 * ((n + 1) / 16) + q.val
  omega

section Region0

variable (V : (c : Dev nD) → (b : Ref sig .tc) → Buf (Elt Ideal) ((c : Thread nD τ).loc b))

/-- The clamped squared distance over the region's entry arrays. -/
abbrev d2_R0 (c : Dev nD) (p g : Fin 16384) : EReal :=
  d2 (arrA_R0 V c) (arrB_R0 V c) (fun p => colA_R0 V c (ix2 p 0)) (fun g => rowB_R0 V c (ix2 0 g)) p g

/-- The scratch row at two spellings of one point. -/
theorem scAtR0_congr (c : Dev nD) (n n' : ℕ) (h : n = n') (hn : n < cfg0.N) (hn' : n' < cfg0.N) :
    scAtR0 (F := Ideal) V c n hn = scAtR0 (F := Ideal) V c n' hn' := by
  subst h; rfl

/-- Lower bounds of one step at point t: the block entries are array entries, so the block's 1024 clamped distances are
    d2 (row of q) (row of b), b over the block. -/
theorem step_R0_le_iff (c : Dev nD) (t : Fin cfg0.N) (s : Vec Ideal S1x1024 .f32) (q : Fin 1024) (x : EReal) :
    x ≤ (stepR0 (F := Ideal) V c t s : S1x1024.Idx → EReal) (ix2 0 q)
      ↔ x ≤ s (ix2 0 q) ∧ x ≤ TOP ∧ ∀ b : Fin 1024, x ≤ d2_R0 V c (rowOf_R0 t q) (colOf_R0 t b) :=
  step_le_iff_R0 (blkA_R0 V c t) (blkB_R0 V c t) (blkA2_R0 V c t) (blkB2_R0 V c t) s q x
    (fun b => d2_R0 V c (rowOf_R0 t q) (colOf_R0 t b)) (fun b => by
      rw [blkA2_R0_apply, blkB2_R0_apply]
      simp only [blkA_R0_apply, blkB_R0_apply]
      rfl)

/-- At the first step of a sweep the row restarts from +inf, so it holds the minimum over block 0 alone. -/
theorem scAt_R0_first_le_iff (c : Dev nD) (t : Fin cfg0.N) (h : t.val % 16 = 0) (q : Fin 1024) (x : EReal) :
    x ≤ (scAtR0 (F := Ideal) V c t.val t.isLt : S1x1024.Idx → EReal) (ix2 0 q)
      ↔ x ≤ TOP ∧ ∀ g : Fin 16384, g.val < 1024 * (t.val % 16 + 1) → x ≤ d2_R0 V c (rowOf_R0 t q) g := by
  rw [scAtR0_first V c t h, step_R0_le_iff, pay1_apply_k0,
    forall_colOf_R0_iff t (fun g => x ≤ d2_R0 V c (rowOf_R0 t q) g), h]
  constructor
  · rintro ⟨_, h1, h2⟩
    exact ⟨h1, fun g hg => h2 g (by omega) hg⟩
  · rintro ⟨h1, h2⟩
    exact ⟨h1, h1, fun g _ hg => h2 g hg⟩

/-- Lower bounds of the running-minimum row after point t. -/
theorem scAt_R0_le_iff (c : Dev nD) (t : Fin cfg0.N) (q : Fin 1024) (x : EReal) :
    x ≤ (scAtR0 (F := Ideal) V c t.val t.isLt : S1x1024.Idx → EReal) (ix2 0 q)
      ↔ x ≤ TOP ∧ ∀ g : Fin 16384, g.val < 1024 * (t.val % 16 + 1) → x ≤ d2_R0 V c (rowOf_R0 t q) g := by
  obtain ⟨n, hn⟩ := t
  induction n with
  | zero => exact scAt_R0_first_le_iff V c ⟨0, hn⟩ rfl q x
  | succ n ih =>
    by_cases h : (n + 1) % 16 = 0
    · exact scAt_R0_first_le_iff V c ⟨n + 1, hn⟩ h q x
    · have hn' : n < cfg0.N := Nat.lt_of_succ_lt hn
      have e : n % 16 + 1 = (n + 1) % 16 := by omega
      have ih' := ih hn'
      rw [scAtR0_next V c ⟨n + 1, hn⟩ h, step_R0_le_iff,
        scAtR0_congr V c ((⟨n + 1, hn⟩ : Fin cfg0.N).val - 1) n (Nat.add_sub_cancel n 1) _ hn']
      refine (and_congr ih' Iff.rfl).trans ?_
      rw [rowOf_R0_succ n hn h q, forall_colOf_R0_iff ⟨n + 1, hn⟩ (fun g => x ≤ d2_R0 V c (rowOf_R0 ⟨n + 1, hn⟩ q) g)]
      show (x ≤ TOP ∧ ∀ g : Fin 16384, g.val < 1024 * (n % 16 + 1) → x ≤ d2_R0 V c (rowOf_R0 ⟨n + 1, hn⟩ q) g)
          ∧ x ≤ TOP ∧ (∀ g : Fin 16384, 1024 * ((n + 1) % 16) ≤ g.val → g.val < 1024 * ((n + 1) % 16 + 1) → x ≤ d2_R0 V c (rowOf_R0 ⟨n + 1, hn⟩ q) g)
        ↔ x ≤ TOP ∧ ∀ g : Fin 16384, g.val < 1024 * ((n + 1) % 16 + 1) → x ≤ d2_R0 V c (rowOf_R0 ⟨n + 1, hn⟩ q) g
      rw [e, ← range_split_R0 (fun g => x ≤ d2_R0 V c (rowOf_R0 ⟨n + 1, hn⟩ q) g) ((n + 1) % 16)]
      constructor
      · rintro ⟨⟨h0, h1⟩, _, h2⟩
        exact ⟨h0, h1, h2⟩
      · rintro ⟨h0, h1, h2⟩
        exact ⟨⟨h0, h1⟩, h0, h2⟩

/-- The row the region leaves: every entry the minimum over the whole second cloud. -/
abbrev resRow_R0 (c : Dev nD) : Vec Ideal S1x16384 .f32 :=
  fun i => minOver (arrA_R0 V c) (arrB_R0 V c) (fun p => colA_R0 V c (ix2 p 0)) (fun g => rowB_R0 V c (ix2 0 g)) (i 1)

/-- What a point that writes back writes is its block of that row: at the last step of a sweep all 16384 points are in. -/
theorem flushed_R0_eq (c : Dev nD) (t : Fin cfg0.N) (hf : (cfg0.win 4).flush t = true) :
    (datR0 (F := Ideal) V c).flushed 4 t = ((cfg0.win 4).blk t).view.read (Elt Ideal) (resRow_R0 V c) := by
  have h15 : t.val % 16 = 15 := (flush0_4 t).mp hf
  show (cfg0.win 4).cut (grid0.coords t) ((datR0 V c).after 4 t) = _
  rw [afterR0_4]
  funext y
  obtain ⟨a, q, rfl⟩ : ∃ (a : Fin 1) (q : Fin 1024), y = ix2 a q := ⟨y 0, y 1, eq_ix2 (n0 := 1) (n1 := 1024) y⟩
  obtain rfl : a = 0 := Subsingleton.elim _ _
  refine Eq.trans ?_ (outBlk_R0_apply t (resRow_R0 V c) q).symm
  show (scAtR0 (F := Ideal) V c t.val t.isLt : S1x1024.Idx → EReal) (ix2 0 q)
    = minOver (arrA_R0 V c) (arrB_R0 V c) (fun p => colA_R0 V c (ix2 p 0)) (fun g => rowB_R0 V c (ix2 0 g)) (rowOf_R0 t q)
  refine eq_of_le_iff fun x => ?_
  rw [scAt_R0_le_iff, le_minOver_iff, h15]
  exact and_congr Iff.rfl (forall_congr' fun g => ⟨fun h => h (by have := g.isLt; omega), fun h _ => h⟩)

/-- The result row after the region. -/
theorem out_R0 (c : Dev nD) (p : Fin 16384) :
    ((datR0 (F := Ideal) V c).arrAt 4 cfg0.N : S1x16384.Idx → EReal) (ix2 0 p)
      = minOver (arrA_R0 V c) (arrB_R0 V c) (fun p => colA_R0 V c (ix2 p 0)) (fun g => rowB_R0 V c (ix2 0 g)) p :=
  congrFun ((datR0 (F := Ideal) V c).arrAt_eq_of_cover 4 (resRow_R0 V c) (flushed_R0_eq V c) (outCover_R0 c)) (ix2 0 p)

end Region0

end Cert.KernelIdeal.Hand

end
-- ==== Proof.Val.Blocks1.lean ====
/-
  Where the first pallas_call's blocks sit in its arrays. Point t of the 16 x 16 grid is (i, j) = (t / 16, t % 16).
  The a-side windows (the 1024 x 3 block of rows and the 1024 x 1 block of their squared norms) are block i of their
  arrays, so local row q is array row 1024·i + q; the b-side windows (1024 x 3 rows, 1 x 1024 norms) are block j, local
  row b being array row 1024·j + b; the output window (1 x 1024) is block i of the 1 x 16384 result row, written back at
  j = 15 only, and those 16 blocks tile the row.
-/
import proofs.«130439_j26027501814344_1_alg».proof.Proof.KI.Data1
import Idealize.ShloMosaic.Lib.ValueIdx
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

section Region1

variable (V : (c : Dev nD) → (b : Ref sig .tc) → Buf (Elt F) ((c : Thread nD τ).loc b))

/-- The four entry arrays, at their literal types. -/
abbrev arrA_R1 (c : Dev nD) : Vec F S16384x3 .f32 := V c (Pipeline.arrRef spec1 0)
abbrev arrB_R1 (c : Dev nD) : Vec F S16384x3 .f32 := V c (Pipeline.arrRef spec1 1)
abbrev colA_R1 (c : Dev nD) : Vec F S16384x1 .f32 := V c (Pipeline.arrRef spec1 2)
abbrev rowB_R1 (c : Dev nD) : Vec F S1x16384 .f32 := V c (Pipeline.arrRef spec1 3)

/-- The four input blocks at a point, at their literal types. -/
abbrev blkA_R1 (c : Dev nD) (t : Fin cfg1.N) : Vec F S1024x3 .f32 := iblkR1 V c 0 t
abbrev blkB_R1 (c : Dev nD) (t : Fin cfg1.N) : Vec F S1024x3 .f32 := iblkR1 V c 1 t
abbrev blkA2_R1 (c : Dev nD) (t : Fin cfg1.N) : Vec F S1024x1 .f32 := iblkR1 V c 2 t
abbrev blkB2_R1 (c : Dev nD) (t : Fin cfg1.N) : Vec F S1x1024 .f32 := iblkR1 V c 3 t

theorem lt256_R1 (t : Fin cfg1.N) : t.val < 256 := lt_of_lt_of_eq t.isLt (show cfg1.N = 256 from N_1)

/-- Array row of local row q of the a-side block at point t, and of local row b of the b-side block. -/
def rowOf_R1 (t : Fin cfg1.N) (q : Fin 1024) : Fin 16384 := ⟨1024 * (t.val / 16) + q.val, by have := lt256_R1 t; have := q.isLt; omega⟩
def colOf_R1 (t : Fin cfg1.N) (b : Fin 1024) : Fin 16384 := ⟨1024 * (t.val % 16) + b.val, by have := lt256_R1 t; have := b.isLt; omega⟩

/-- The block index of every window at point t, decided over the grid: the a-side windows and the output sit at
    block t / 16 of their long axis, the b-side windows at block t % 16, and every short axis at block 0. -/
theorem idx_R1 : ∀ t : Fin cfg1.N,
    win1_0.index t (0 : Fin 2) = t.val / 16 ∧ win1_0.index t (1 : Fin 2) = 0
    ∧ win1_1.index t (0 : Fin 2) = t.val % 16 ∧ win1_1.index t (1 : Fin 2) = 0
    ∧ win1_2.index t (0 : Fin 2) = t.val / 16 ∧ win1_2.index t (1 : Fin 2) = 0
    ∧ win1_3.index t (0 : Fin 2) = 0 ∧ win1_3.index t (1 : Fin 2) = t.val % 16
    ∧ win1_4.index t (0 : Fin 2) = 0 ∧ win1_4.index t (1 : Fin 2) = t.val / 16 :=
  (by decide +kernel : ∀ t : Fin grid1.N, _)

/- Each block entry below is the array's entry at the embedded index; on every axis the embedded coordinate is
   block index × block size + 1 × local coordinate, and the block index is the decided one. -/

theorem blkA_R1_apply (c : Dev nD) (t : Fin cfg1.N) (q : Fin 1024) (k : Fin 3) :
    blkA_R1 V c t (ix2 q k) = arrA_R1 V c (ix2 (rowOf_R1 t q) k) := by
  show V c (Pipeline.arrRef spec1 0) (((cfg1.win 0).blk t).view.emb (ix2 q k)) = V c (Pipeline.arrRef spec1 0) (ix2 (rowOf_R1 t q) k)
  obtain ⟨e0, e1, -⟩ := idx_R1 t
  refine congrArg (V c (Pipeline.arrRef spec1 0)) ?_
  funext a; apply Fin.ext
  match a with
  | ⟨0, _⟩ => show win1_0.index t (0 : Fin 2) * 1024 + 1 * q.val = 1024 * (t.val / 16) + q.val; omega
  | ⟨1, _⟩ => show win1_0.index t (1 : Fin 2) * 3 + 1 * k.val = k.val; omega
theorem blkB_R1_apply (c : Dev nD) (t : Fin cfg1.N) (b : Fin 1024) (k : Fin 3) :
    blkB_R1 V c t (ix2 b k) = arrB_R1 V c (ix2 (colOf_R1 t b) k) := by
  show V c (Pipeline.arrRef spec1 1) (((cfg1.win 1).blk t).view.emb (ix2 b k)) = V c (Pipeline.arrRef spec1 1) (ix2 (colOf_R1 t b) k)
  obtain ⟨-, -, e0, e1, -⟩ := idx_R1 t
  refine congrArg (V c (Pipeline.arrRef spec1 1)) ?_
  funext a; apply Fin.ext
  match a with
  | ⟨0, _⟩ => show win1_1.index t (0 : Fin 2) * 1024 + 1 * b.val = 1024 * (t.val % 16) + b.val; omega
  | ⟨1, _⟩ => show win1_1.index t (1 : Fin 2) * 3 + 1 * k.val = k.val; omega
theorem blkA2_R1_apply (c : Dev nD) (t : Fin cfg1.N) (q : Fin 1024) :
    blkA2_R1 V c t (ix2 q 0) = colA_R1 V c (ix2 (rowOf_R1 t q) 0) := by
  show V c (Pipeline.arrRef spec1 2) (((cfg1.win 2).blk t).view.emb (ix2 q 0)) = V c (Pipeline.arrRef spec1 2) (ix2 (rowOf_R1 t q) 0)
  obtain ⟨-, -, -, -, e0, e1, -⟩ := idx_R1 t
  refine congrArg (V c (Pipeline.arrRef spec1 2)) ?_
  funext a; apply Fin.ext
  match a with
  | ⟨0, _⟩ => show win1_2.index t (0 : Fin 2) * 1024 + 1 * q.val = 1024 * (t.val / 16) + q.val; omega
  | ⟨1, _⟩ => show win1_2.index t (1 : Fin 2) * 1 + 1 * 0 = 0; omega
theorem blkB2_R1_apply (c : Dev nD) (t : Fin cfg1.N) (b : Fin 1024) :
    blkB2_R1 V c t (ix2 0 b) = rowB_R1 V c (ix2 0 (colOf_R1 t b)) := by
  show V c (Pipeline.arrRef spec1 3) (((cfg1.win 3).blk t).view.emb (ix2 0 b)) = V c (Pipeline.arrRef spec1 3) (ix2 0 (colOf_R1 t b))
  obtain ⟨-, -, -, -, -, -, e0, e1, -⟩ := idx_R1 t
  refine congrArg (V c (Pipeline.arrRef spec1 3)) ?_
  funext a; apply Fin.ext
  match a with
  | ⟨0, _⟩ => show win1_3.index t (0 : Fin 2) * 1 + 1 * 0 = 0; omega
  | ⟨1, _⟩ => show win1_3.index t (1 : Fin 2) * 1024 + 1 * b.val = 1024 * (t.val % 16) + b.val; omega

/-- The output window's block at point t, read off any contents G of the result row. -/
theorem outBlk_R1_apply (t : Fin cfg1.N) (G : Vec F S1x16384 .f32) (q : Fin 1024) :
    ((((cfg1.win 4).blk t).view.read (Elt F) G) : Vec F S1x1024 .f32) (ix2 0 q) = G (ix2 0 (rowOf_R1 t q)) := by
  show G (((cfg1.win 4).blk t).view.emb (ix2 0 q)) = G (ix2 0 (rowOf_R1 t q))
  obtain ⟨-, -, -, -, -, -, -, -, e0, e1⟩ := idx_R1 t
  refine congrArg G ?_
  funext a; apply Fin.ext
  match a with
  | ⟨0, _⟩ => show win1_4.index t (0 : Fin 2) * 1 + 1 * 0 = 0; omega
  | ⟨1, _⟩ => show win1_4.index t (1 : Fin 2) * 1024 + 1 * q.val = 1024 * (t.val / 16) + q.val; omega

/-- Every entry of the result row lies in the block of a point that writes back. -/
theorem outCover_R1 (c : Dev nD) (i : ((cfg1.win 4).arr.view.loc (c.tc : Thread nD τ)).2.ty.Idx) :
    ∃ t : Fin cfg1.N, (cfg1.win 4).flush t = true ∧ i ∈ ((cfg1.win 4).blk t).view.set := by
  -- the result row has 1 x 16384 entries; entry (0, n) lies in block n / 1024, whose writing point is 16·(n / 1024) + 15
  have hi0 : (i 0).val < 1 := (i 0).isLt
  have hi1 : (i 1).val < 16384 := (i 1).isLt
  have hN : cfg1.N = 256 := N_1
  let t : Fin cfg1.N := ⟨16 * ((i 1).val / 1024) + 15, by omega⟩
  have ht : t.val = 16 * ((i 1).val / 1024) + 15 := rfl
  refine ⟨t, (flush1_4 t).mpr (by omega), ?_⟩
  obtain ⟨-, -, -, -, -, -, -, -, e0, e1⟩ := idx_R1 t
  show i ∈ ((View.whole (Pipeline.arrRef spec1 4)).slice (win1_4.rect t)).set
  rw [View.set_slice_whole, Rect.mem_set_unit]
  intro a
  match a with
  | ⟨0, _⟩ => show win1_4.index t (0 : Fin 2) * 1 ≤ (i 0).val ∧ (i 0).val < win1_4.index t (0 : Fin 2) * 1 + 1; omega
  | ⟨1, _⟩ => show win1_4.index t (1 : Fin 2) * 1024 ≤ (i 1).val ∧ (i 1).val < win1_4.index t (1 : Fin 2) * 1024 + 1024; omega

end Region1

end Cert.KernelIdeal.Hand

end
-- ==== Proof.Val.Out1.lean ====
/-
  What the first pallas_call leaves in its result row, over the extended reals: entry p is the minimum over ALL 16384
  points g of the second cloud of the clamped squared distance d2 p g.

  Within sweep i the running-minimum row after step j holds, at column q, the minimum from +inf over the points
  g < 1024·(j+1) — stated by lower bounds: x ≤ row[q] iff x ≤ +inf and x ≤ d2 (1024·i+q) g for all those g. Step j
  adds the points of block j (the step value is min(old, min over the block), and the block's local rows are the array
  rows 1024·j .. 1024·j+1023); the reset at j = 0 starts from +inf. At j = 15 all 16384 points are in, the row is
  copied to output block i, and the 16 output blocks tile the result row.
-/
import proofs.«130439_j26027501814344_1_alg».proof.Proof.Val.Blocks1
import proofs.«130439_j26027501814344_1_alg».proof.Proof.Val.Pay
import proofs.«130439_j26027501814344_1_alg».proof.Proof.Val.Spec

set_option maxRecDepth 16384

noncomputable section

open scoped BigOperators

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx Cert.Spec Cert.KernelIdeal.Val

/-- The reset value is +inf everywhere. -/
theorem pay1_apply_k1 (j : S1x1024.Idx) : (k1_pay1 (F := Ideal) : S1x1024.Idx → EReal) j = TOP := pay1_apply j

/-- The step value at column q. -/
theorem pay2_apply_k1 (x0 x1 : Vec Ideal S1024x3 .f32) (x2 : Vec Ideal S1024x1 .f32) (x3 s : Vec Ideal S1x1024 .f32) (q : Fin 1024) :
    (k1_pay2 (F := Ideal) x0 x1 x2 x3 s : S1x1024.Idx → EReal) (ix2 0 q)
      = min (s (ix2 0 q)) ((Finset.univ : Finset (Fin 1024)).fold min TOP
          (fun b => max (x2 (ix2 q 0) + x3 (ix2 0 b) - TWO * ∑ k : Fin 3, x0 (ix2 q k) * x1 (ix2 b k)) ZERO)) :=
  pay2_apply x0 x1 x2 x3 s q

/-- Lower bounds of one step over abstract blocks: the step value is the minimum of the previous entry and of the
    block's 1024 clamped distances taken from +inf, so a number is below it iff it is below each of them. -/
theorem step_le_iff_R1 (x0 x1 : Vec Ideal S1024x3 .f32) (x2 : Vec Ideal S1024x1 .f32) (x3 s : Vec Ideal S1x1024 .f32)
    (q : Fin 1024) (x : EReal) (f : Fin 1024 → EReal)
    (hf : ∀ b : Fin 1024, max (x2 (ix2 q 0) + x3 (ix2 0 b) - TWO * ∑ k : Fin 3, x0 (ix2 q k) * x1 (ix2 b k)) ZERO = f b) :
    x ≤ (k1_pay2 (F := Ideal) x0 x1 x2 x3 s : S1x1024.Idx → EReal) (ix2 0 q)
      ↔ x ≤ s (ix2 0 q) ∧ x ≤ TOP ∧ ∀ b : Fin 1024, x ≤ f b := by
  rw [pay2_apply_k1, le_min_iff, Finset.le_fold_min]
  simp only [Finset.mem_univ, true_implies, hf]

/-- A statement about the 1024 rows of the second block at point t is a statement about the array rows
    1024·j .. 1024·j + 1023, j = t % 16. -/
theorem forall_colOf_R1_iff (t : Fin cfg1.N) (P : Fin 16384 → Prop) :
    (∀ b : Fin 1024, P (colOf_R1 t b))
      ↔ ∀ g : Fin 16384, 1024 * (t.val % 16) ≤ g.val → g.val < 1024 * (t.val % 16 + 1) → P g := by
  constructor
  · intro h g h1 h2
    have e : colOf_R1 t ⟨g.val - 1024 * (t.val % 16), by omega⟩ = g :=
      Fin.ext (by show 1024 * (t.val % 16) + (g.val - 1024 * (t.val % 16)) = g.val; omega)
    exact e ▸ h _
  · intro h b
    refine h _ ?_ ?_
    · show 1024 * (t.val % 16) ≤ 1024 * (t.val % 16) + b.val; omega
    · show 1024 * (t.val % 16) + b.val < 1024 * (t.val % 16 + 1); have := b.isLt; omega

/-- The rows below 1024·(j+1) are the rows below 1024·j together with the rows of block j. -/
theorem range_split_R1 (P : Fin 16384 → Prop) (j : ℕ) :
    ((∀ g : Fin 16384, g.val < 1024 * j → P g) ∧ (∀ g : Fin 16384, 1024 * j ≤ g.val → g.val < 1024 * (j + 1) → P g))
      ↔ ∀ g : Fin 16384, g.val < 1024 * (j + 1) → P g := by
  constructor
  · rintro ⟨h1, h2⟩ g hg
    by_cases h : g.val < 1024 * j
    · exact h1 g h
    · exact h2 g (by omega) hg
  · intro h
    exact ⟨fun g hg => h g (by omega), fun g _ hg => h g hg⟩

/-- Within a sweep the first cloud's block does not move: the array row of local row q is the same at consecutive points. -/
theorem rowOf_R1_succ (n : ℕ) (hn : n + 1 < cfg1.N) (h : ¬(n + 1) % 16 = 0) (q : Fin 1024) :
    rowOf_R1 ⟨n, Nat.lt_of_succ_lt hn⟩ q = rowOf_R1 ⟨n + 1, hn⟩ q := by
  apply Fin.ext
  show 1024 * (n / 16) + q.val = 1024 * ((n + 1) / 16) + q.val
  omega

section Region1

variable (V : (c : Dev nD) → (b : Ref sig .tc) → Buf (Elt Ideal) ((c : Thread nD τ).loc b))

/-- The clamped squared distance over the region's entry arrays. -/
abbrev d2_R1 (c : Dev nD) (p g : Fin 16384) : EReal :=
  d2 (arrA_R1 V c) (arrB_R1 V c) (fun p => colA_R1 V c (ix2 p 0)) (fun g => rowB_R1 V c (ix2 0 g)) p g

/-- The scratch row at two spellings of one point. -/
theorem scAtR1_congr (c : Dev nD) (n n' : ℕ) (h : n = n') (hn : n < cfg1.N) (hn' : n' < cfg1.N) :
    scAtR1 (F := Ideal) V c n hn = scAtR1 (F := Ideal) V c n' hn' := by
  subst h; rfl

/-- Lower bounds of one step at point t: the block entries are array entries, so the block's 1024 clamped distances are
    d2 (row of q) (row of b), b over the block. -/
theorem step_R1_le_iff (c : Dev nD) (t : Fin cfg1.N) (s : Vec Ideal S1x1024 .f32) (q : Fin 1024) (x : EReal) :
    x ≤ (stepR1 (F := Ideal) V c t s : S1x1024.Idx → EReal) (ix2 0 q)
      ↔ x ≤ s (ix2 0 q) ∧ x ≤ TOP ∧ ∀ b : Fin 1024, x ≤ d2_R1 V c (rowOf_R1 t q) (colOf_R1 t b) :=
  step_le_iff_R1 (blkA_R1 V c t) (blkB_R1 V c t) (blkA2_R1 V c t) (blkB2_R1 V c t) s q x
    (fun b => d2_R1 V c (rowOf_R1 t q) (colOf_R1 t b)) (fun b => by
      rw [blkA2_R1_apply, blkB2_R1_apply]
      simp only [blkA_R1_apply, blkB_R1_apply]
      rfl)

/-- At the first step of a sweep the row restarts from +inf, so it holds the minimum over block 0 alone. -/
theorem scAt_R1_first_le_iff (c : Dev nD) (t : Fin cfg1.N) (h : t.val % 16 = 0) (q : Fin 1024) (x : EReal) :
    x ≤ (scAtR1 (F := Ideal) V c t.val t.isLt : S1x1024.Idx → EReal) (ix2 0 q)
      ↔ x ≤ TOP ∧ ∀ g : Fin 16384, g.val < 1024 * (t.val % 16 + 1) → x ≤ d2_R1 V c (rowOf_R1 t q) g := by
  rw [scAtR1_first V c t h, step_R1_le_iff, pay1_apply_k1,
    forall_colOf_R1_iff t (fun g => x ≤ d2_R1 V c (rowOf_R1 t q) g), h]
  constructor
  · rintro ⟨_, h1, h2⟩
    exact ⟨h1, fun g hg => h2 g (by omega) hg⟩
  · rintro ⟨h1, h2⟩
    exact ⟨h1, h1, fun g _ hg => h2 g hg⟩

/-- Lower bounds of the running-minimum row after point t. -/
theorem scAt_R1_le_iff (c : Dev nD) (t : Fin cfg1.N) (q : Fin 1024) (x : EReal) :
    x ≤ (scAtR1 (F := Ideal) V c t.val t.isLt : S1x1024.Idx → EReal) (ix2 0 q)
      ↔ x ≤ TOP ∧ ∀ g : Fin 16384, g.val < 1024 * (t.val % 16 + 1) → x ≤ d2_R1 V c (rowOf_R1 t q) g := by
  obtain ⟨n, hn⟩ := t
  induction n with
  | zero => exact scAt_R1_first_le_iff V c ⟨0, hn⟩ rfl q x
  | succ n ih =>
    by_cases h : (n + 1) % 16 = 0
    · exact scAt_R1_first_le_iff V c ⟨n + 1, hn⟩ h q x
    · have hn' : n < cfg1.N := Nat.lt_of_succ_lt hn
      have e : n % 16 + 1 = (n + 1) % 16 := by omega
      have ih' := ih hn'
      rw [scAtR1_next V c ⟨n + 1, hn⟩ h, step_R1_le_iff,
        scAtR1_congr V c ((⟨n + 1, hn⟩ : Fin cfg1.N).val - 1) n (Nat.add_sub_cancel n 1) _ hn']
      refine (and_congr ih' Iff.rfl).trans ?_
      rw [rowOf_R1_succ n hn h q, forall_colOf_R1_iff ⟨n + 1, hn⟩ (fun g => x ≤ d2_R1 V c (rowOf_R1 ⟨n + 1, hn⟩ q) g)]
      show (x ≤ TOP ∧ ∀ g : Fin 16384, g.val < 1024 * (n % 16 + 1) → x ≤ d2_R1 V c (rowOf_R1 ⟨n + 1, hn⟩ q) g)
          ∧ x ≤ TOP ∧ (∀ g : Fin 16384, 1024 * ((n + 1) % 16) ≤ g.val → g.val < 1024 * ((n + 1) % 16 + 1) → x ≤ d2_R1 V c (rowOf_R1 ⟨n + 1, hn⟩ q) g)
        ↔ x ≤ TOP ∧ ∀ g : Fin 16384, g.val < 1024 * ((n + 1) % 16 + 1) → x ≤ d2_R1 V c (rowOf_R1 ⟨n + 1, hn⟩ q) g
      rw [e, ← range_split_R1 (fun g => x ≤ d2_R1 V c (rowOf_R1 ⟨n + 1, hn⟩ q) g) ((n + 1) % 16)]
      constructor
      · rintro ⟨⟨h0, h1⟩, _, h2⟩
        exact ⟨h0, h1, h2⟩
      · rintro ⟨h0, h1, h2⟩
        exact ⟨⟨h0, h1⟩, h0, h2⟩

/-- The row the region leaves: every entry the minimum over the whole second cloud. -/
abbrev resRow_R1 (c : Dev nD) : Vec Ideal S1x16384 .f32 :=
  fun i => minOver (arrA_R1 V c) (arrB_R1 V c) (fun p => colA_R1 V c (ix2 p 0)) (fun g => rowB_R1 V c (ix2 0 g)) (i 1)

/-- What a point that writes back writes is its block of that row: at the last step of a sweep all 16384 points are in. -/
theorem flushed_R1_eq (c : Dev nD) (t : Fin cfg1.N) (hf : (cfg1.win 4).flush t = true) :
    (datR1 (F := Ideal) V c).flushed 4 t = ((cfg1.win 4).blk t).view.read (Elt Ideal) (resRow_R1 V c) := by
  have h15 : t.val % 16 = 15 := (flush1_4 t).mp hf
  show (cfg1.win 4).cut (grid1.coords t) ((datR1 V c).after 4 t) = _
  rw [afterR1_4]
  funext y
  obtain ⟨a, q, rfl⟩ : ∃ (a : Fin 1) (q : Fin 1024), y = ix2 a q := ⟨y 0, y 1, eq_ix2 (n0 := 1) (n1 := 1024) y⟩
  obtain rfl : a = 0 := Subsingleton.elim _ _
  refine Eq.trans ?_ (outBlk_R1_apply t (resRow_R1 V c) q).symm
  show (scAtR1 (F := Ideal) V c t.val t.isLt : S1x1024.Idx → EReal) (ix2 0 q)
    = minOver (arrA_R1 V c) (arrB_R1 V c) (fun p => colA_R1 V c (ix2 p 0)) (fun g => rowB_R1 V c (ix2 0 g)) (rowOf_R1 t q)
  refine eq_of_le_iff fun x => ?_
  rw [scAt_R1_le_iff, le_minOver_iff, h15]
  exact and_congr Iff.rfl (forall_congr' fun g => ⟨fun h => h (by have := g.isLt; omega), fun h _ => h⟩)

/-- The result row after the region. -/
theorem out_R1 (c : Dev nD) (p : Fin 16384) :
    ((datR1 (F := Ideal) V c).arrAt 4 cfg1.N : S1x16384.Idx → EReal) (ix2 0 p)
      = minOver (arrA_R1 V c) (arrB_R1 V c) (fun p => colA_R1 V c (ix2 p 0)) (fun g => rowB_R1 V c (ix2 0 g)) p :=
  congrFun ((datR1 (F := Ideal) V c).arrAt_eq_of_cover 4 (resRow_R1 V c) (flushed_R1_eq V c) (outCover_R1 c)) (ix2 0 p)

end Region1

end Cert.KernelIdeal.Hand

end
-- ==== Proof.Val.Glue.lean ====
/-
  The host side of the kernel's program read against the reference's. The kernel's @main computes, before its two
  pallas_calls, the squared norms of both clouds exactly as the reference does (a product, a row sum from 0, a
  broadcast to a column; for the second call's operands a reshape of that column to a row), hands each call its two
  clouds unchanged, and after the calls applies to the two result rows (reshaped to vectors) the same weighted-mean
  tail as the reference: Σ w·min / max(Σ w, eps) for each direction, each times 1, added. So the entry arrays of both
  calls are the reference's intermediate values entry by entry, and the final scalar is the reference's tail function
  of the arguments and the two result rows.
-/
import proofs.«130439_j26027501814344_1_alg».proof.Proof.KI.Main
import proofs.«130439_j26027501814344_1_alg».proof.Proof.Gen.ReferenceIdeal.Read
import Idealize.ShloMosaic.Lib.ValueIdx
import Idealize.ShloMosaic.Lib.Pipeline.Value
import Idealize.ShloMosaic.Lib.StableHlo.Run

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

variable (m : (ℓ : Loc nD τ sig) → Buf (Elt Ideal) ℓ)

/-- The four arguments as launched, at their literal types. -/
abbrev a0 (c : Dev nD) : S16384x3.Idx → EReal := m ((c : Thread nD τ).loc main_arg0)
abbrev a1 (c : Dev nD) : S16384x3.Idx → EReal := m ((c : Thread nD τ).loc main_arg1)
abbrev a2 (c : Dev nD) : S16384.Idx → EReal := m ((c : Thread nD τ).loc main_arg2)
abbrev a3 (c : Dev nD) : S16384.Idx → EReal := m ((c : Thread nD τ).loc main_arg3)

/-! ## Reading a column and its reshape to a row -/

/-- The [1,16384] reshape of a [16384,1] column, read at (0, g), is the column at (g, 0): both have row-major position g. -/
theorem row_of_col {α : Type} (x : S16384x1.Idx → α) (h : S16384x1.ShapeCasts S1x16384) (g : Fin 16384) :
    shapeCast S1x16384 x h (ix2 0 g) = x (ix2 g 0) :=
  shapeCast_apply x h (ix2 0 g) (ix2 g 0) (by
    rw [Shape.rowMajor_val_two, Shape.rowMajor_val_two]
    show g.val * 1 + 0 = 0 * 16384 + g.val
    omega)

/-- A vector broadcast to a column, read at (p, 0), is the vector at p. -/
theorem col_at {α : Type} (x : S16384.Idx → α) (p : Fin 16384) :
    broadcastInDim S16384x1 ![0] bcast_S16384_S16384x1_0 x (ix2 p 0) = x (ix1 p) :=
  broadcastInDim_apply _ bcast_S16384_S16384x1_0 x (ix2 p 0) (ix1 p) (fun a => match a with
    | ⟨0, _⟩ => by show p.val = if (16384 : Nat) = 1 then 0 else p.val; rw [if_neg (by decide)])

/-! ## What the first host stretch leaves in the four buffers it computes for the calls

Each is the stretch's own operations applied to the launched clouds: the product of a cloud with itself, its row sum
from 0 (the reference's row sum of squares, term for term), broadcast to a column; and for the two rows that column
reshaped to [1,16384]. -/

/-- The first cloud's squared norms as a column. -/
theorem W1_v2 (c : Dev nD) : (W1 m c (Proc.devRef .tc main_v2) : S16384x1.Idx → EReal)
    = broadcastInDim S16384x1 ![0] bcast_S16384_S16384x1_0 (Cert.ReferenceIdeal.Read.val_main_v1 (F := Ideal) (a0 m c)) := by
  show StableHlo.after hostOps0 (W0 m c) (Proc.devRef .tc main_v2) = _
  after_results
  rfl
/-- The second cloud's squared norms as a column. -/
theorem W1_v5 (c : Dev nD) : (W1 m c (Proc.devRef .tc main_v5) : S16384x1.Idx → EReal)
    = broadcastInDim S16384x1 ![0] bcast_S16384_S16384x1_0 (Cert.ReferenceIdeal.Read.val_main_v3 (F := Ideal) (a1 m c)) := by
  show StableHlo.after hostOps0 (W0 m c) (Proc.devRef .tc main_v5) = _
  after_results
  rfl
/-- The first cloud's squared norms as a row: the column reshaped. -/
theorem W1_v6 (c : Dev nD) : (W1 m c (Proc.devRef .tc main_v6) : S1x16384.Idx → EReal)
    = shapeCast S1x16384 (broadcastInDim S16384x1 ![0] bcast_S16384_S16384x1_0 (Cert.ReferenceIdeal.Read.val_main_v1 (F := Ideal) (a0 m c))) shapeCasts_S16384x1_S1x16384 := by
  show StableHlo.after hostOps0 (W0 m c) (Proc.devRef .tc main_v6) = _
  after_results
  rfl
/-- The second cloud's squared norms as a row: the column reshaped. -/
theorem W1_v7 (c : Dev nD) : (W1 m c (Proc.devRef .tc main_v7) : S1x16384.Idx → EReal)
    = shapeCast S1x16384 (broadcastInDim S16384x1 ![0] bcast_S16384_S16384x1_0 (Cert.ReferenceIdeal.Read.val_main_v3 (F := Ideal) (a1 m c))) shapeCasts_S16384x1_S1x16384 := by
  show StableHlo.after hostOps0 (W0 m c) (Proc.devRef .tc main_v7) = _
  after_results
  rfl

/-! ## The first call's entry arrays -/

theorem entry0_A (c : Dev nD) : (V1 m c (Pipeline.arrRef spec0 0) : S16384x3.Idx → EReal) = a0 m c := by
  show StableHlo.after hostOps0 (W0 m c) (Proc.devRef .tc main_arg0) = _
  exact StableHlo.after_of_writes_sub hostOps0 _ hostOps0_writes (by decide : main_arg0 ∉ hostOps0_W)
theorem entry0_B (c : Dev nD) : (V1 m c (Pipeline.arrRef spec0 1) : S16384x3.Idx → EReal) = a1 m c := by
  show StableHlo.after hostOps0 (W0 m c) (Proc.devRef .tc main_arg1) = _
  exact StableHlo.after_of_writes_sub hostOps0 _ hostOps0_writes (by decide : main_arg1 ∉ hostOps0_W)
theorem entry0_colA (c : Dev nD) (p : Fin 16384) :
    (V1 m c (Pipeline.arrRef spec0 2) : S16384x1.Idx → EReal) (ix2 p 0) = (Cert.ReferenceIdeal.Read.val_main_v1 (F := Ideal) (a0 m c) : S16384.Idx → EReal) (ix1 p) := by
  show (W1 m c (Proc.devRef .tc main_v2) : S16384x1.Idx → EReal) (ix2 p 0) = _
  rw [W1_v2, col_at]
theorem entry0_rowB (c : Dev nD) (g : Fin 16384) :
    (V1 m c (Pipeline.arrRef spec0 3) : S1x16384.Idx → EReal) (ix2 0 g) = (Cert.ReferenceIdeal.Read.val_main_v3 (F := Ideal) (a1 m c) : S16384.Idx → EReal) (ix1 g) := by
  show (W1 m c (Proc.devRef .tc main_v7) : S1x16384.Idx → EReal) (ix2 0 g) = _
  rw [W1_v7, row_of_col, col_at]

/-! ## The second call's entry arrays (the clouds swapped) -/

/-- The first call and the reshape after it leave the second cloud's column of squared norms as the first host stretch
    made it: the column is no array of the first call, and the reshape writes another buffer. -/
theorem W3_v5 (c : Dev nD) : W3 m c (Proc.devRef .tc main_v5) = W1 m c (Proc.devRef .tc main_v5) :=
  calc W3 m c (Proc.devRef .tc main_v5)
    _ = W2 m c (Proc.devRef .tc main_v5) := StableHlo.after_of_writes_sub hostOps1 _ hostOps1_writes (by decide : main_v5 ∉ hostOps1_W)
    _ = W1 m c (Proc.devRef .tc main_v5) := (W2_of_ne m c main_v5 (by decide))
/-- Likewise the first cloud's row of squared norms. -/
theorem W3_v6 (c : Dev nD) : W3 m c (Proc.devRef .tc main_v6) = W1 m c (Proc.devRef .tc main_v6) :=
  calc W3 m c (Proc.devRef .tc main_v6)
    _ = W2 m c (Proc.devRef .tc main_v6) := StableHlo.after_of_writes_sub hostOps1 _ hostOps1_writes (by decide : main_v6 ∉ hostOps1_W)
    _ = W1 m c (Proc.devRef .tc main_v6) := (W2_of_ne m c main_v6 (by decide))

theorem entry1_A (c : Dev nD) : (V3 m c (Pipeline.arrRef spec1 0) : S16384x3.Idx → EReal) = a1 m c := by
  -- the second cloud is an input array of the first call (left as entered) and is written by no host operation
  exact calc W3 m c (Proc.devRef .tc main_arg1)
    _ = W2 m c (Proc.devRef .tc main_arg1) := StableHlo.after_of_writes_sub hostOps1 _ hostOps1_writes (by decide : main_arg1 ∉ hostOps1_W)
    _ = W1 m c (Proc.devRef .tc main_arg1) := ((W2_arr m c 1).trans (((datR0 (V1 m) c).arrAt_in 1 rfl _).trans (A_R0 (V1 m) c 1)))
    _ = W0 m c (Proc.devRef .tc main_arg1) := StableHlo.after_of_writes_sub hostOps0 _ hostOps0_writes (by decide : main_arg1 ∉ hostOps0_W)
    _ = a1 m c := rfl
theorem entry1_B (c : Dev nD) : (V3 m c (Pipeline.arrRef spec1 1) : S16384x3.Idx → EReal) = a0 m c := by
  -- the first cloud likewise
  exact calc W3 m c (Proc.devRef .tc main_arg0)
    _ = W2 m c (Proc.devRef .tc main_arg0) := StableHlo.after_of_writes_sub hostOps1 _ hostOps1_writes (by decide : main_arg0 ∉ hostOps1_W)
    _ = W1 m c (Proc.devRef .tc main_arg0) := ((W2_arr m c 0).trans (((datR0 (V1 m) c).arrAt_in 0 rfl _).trans (A_R0 (V1 m) c 0)))
    _ = W0 m c (Proc.devRef .tc main_arg0) := StableHlo.after_of_writes_sub hostOps0 _ hostOps0_writes (by decide : main_arg0 ∉ hostOps0_W)
    _ = a0 m c := rfl
theorem entry1_colA (c : Dev nD) (g : Fin 16384) :
    (V3 m c (Pipeline.arrRef spec1 2) : S16384x1.Idx → EReal) (ix2 g 0) = (Cert.ReferenceIdeal.Read.val_main_v3 (F := Ideal) (a1 m c) : S16384.Idx → EReal) (ix1 g) := by
  show (W3 m c (Proc.devRef .tc main_v5) : S16384x1.Idx → EReal) (ix2 g 0) = _
  rw [W3_v5, W1_v5, col_at]
theorem entry1_rowB (c : Dev nD) (p : Fin 16384) :
    (V3 m c (Pipeline.arrRef spec1 3) : S1x16384.Idx → EReal) (ix2 0 p) = (Cert.ReferenceIdeal.Read.val_main_v1 (F := Ideal) (a0 m c) : S16384.Idx → EReal) (ix1 p) := by
  show (W3 m c (Proc.devRef .tc main_v6) : S1x16384.Idx → EReal) (ix2 0 p) = _
  rw [W3_v6, W1_v6, row_of_col, col_at]

end Cert.KernelIdeal.Hand

end
-- ==== Proof.Val.RefTail.lean ====
/-
  The reference's closing arithmetic as one function of the two weight vectors w2, w3 and the two vectors of directed
  minima u, v:   1·( Σ w2·u / max(Σ w2, eps) )  +  1·( Σ w3·v / max(Σ w3, eps) ),
  each sum the host's sum from 0. The reference's result is this function of its arguments and its two minima.
-/
import proofs.«130439_j26027501814344_1_alg».proof.Proof.Gen.ReferenceIdeal.Read

set_option maxRecDepth 16384

noncomputable section

open scoped BigOperators

namespace Cert.ReferenceIdeal.RefVal

open Idealize.ShloMosaic Cert.ReferenceIdeal Cert.ReferenceIdeal.Gen Cert.ReferenceIdeal.Read

/-- The weighted-mean tail. -/
def tailOf (w2 w3 u v : (⟨S16384, .f32⟩ : BufTy).Contents (Elt Ideal)) : (⟨S_, .f32⟩ : BufTy).Contents (Elt Ideal) :=
  addf
    (mulf (constant (F := Ideal) S_ .f32 0x3F800000#32)
      (Host.divf (Host.reduceAdd (mulf w2 u) (constant (F := Ideal) S_ .f32 0x00000000#32) reducesTo_S16384_S_d0 h_S_)
        (maximumf (Host.reduceAdd w2 (constant (F := Ideal) S_ .f32 0x00000000#32) reducesTo_S16384_S_d0 h_S_) (constant (F := Ideal) S_ .f32 0x3089705F#32))))
    (mulf (constant (F := Ideal) S_ .f32 0x3F800000#32)
      (Host.divf (Host.reduceAdd (mulf w3 v) (constant (F := Ideal) S_ .f32 0x00000000#32) reducesTo_S16384_S_d0 h_S_)
        (maximumf (Host.reduceAdd w3 (constant (F := Ideal) S_ .f32 0x00000000#32) reducesTo_S16384_S_d0 h_S_) (constant (F := Ideal) S_ .f32 0x3089705F#32))))

/-- The reference's result is the tail of its arguments and its two directed minima. -/
theorem result_eq_tail (x0 x1 : (⟨S16384x3, .f32⟩ : BufTy).Contents (Elt Ideal)) (x2 x3 : (⟨S16384, .f32⟩ : BufTy).Contents (Elt Ideal)) :
    val_main_v30 (F := Ideal) x0 x1 x2 x3 = tailOf x2 x3 (val_main_v16 (F := Ideal) x0 x1) (val_main_v17 (F := Ideal) x0 x1) := rfl

end Cert.ReferenceIdeal.RefVal

end
-- ==== Proof.Val.Tail.lean ====
/-
  The kernel's final scalar. After the two pallas_calls @main reshapes each result row to a vector and applies the same
  weighted-mean arithmetic as the reference: Σ w·min / max(Σ w, eps) for each direction, each times 1, added. None of
  these host operations reads anything but the two weight arguments and the two result rows, so the buffer that holds
  the result ends at the reference's tail function of those four.
-/
import proofs.«130439_j26027501814344_1_alg».proof.Proof.KI.Main
import proofs.«130439_j26027501814344_1_alg».proof.Proof.Val.RefTail
import Idealize.ShloMosaic.Lib.StableHlo.Run

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt Ideal) ℓ)

/-- The two weight arguments as launched, at their literal types. -/
abbrev w2 (c : Dev nD) : S16384.Idx → EReal := m ((c : Thread nD τ).loc main_arg2)
abbrev w3 (c : Dev nD) : S16384.Idx → EReal := m ((c : Thread nD τ).loc main_arg3)

/-- The two result rows after their calls. -/
abbrev row8 (c : Dev nD) : S1x16384.Idx → EReal := (datR0 (F := Ideal) (V1 m) c).arrAt 4 cfg0.N
abbrev row10 (c : Dev nD) : S1x16384.Idx → EReal := (datR1 (F := Ideal) (V3 m) c).arrAt 4 cfg1.N

/-! The host tail reads four buffers at the second call's exit: the two weight arguments, which no item writes, so
    they hold their launch contents; the second call's result row; and the first result row reshaped to a vector, which
    the single reshape between the calls wrote and the second call left alone. -/

/-- The second result row at the second call's exit is what its write-backs left. -/
theorem W4_v10 (c : Dev nD) : (W4 m c (Proc.devRef .tc main_v10) : S1x16384.Idx → EReal) = row10 m c := W4_arr m c 4
/-- The first result row at the first call's exit is what its write-backs left. -/
theorem W2_v8 (c : Dev nD) : (W2 m c (Proc.devRef .tc main_v8) : S1x16384.Idx → EReal) = row8 m c := W2_arr m c 4
/-- A weight argument is no window's array of either call and no host operation's result: it is as launched. -/
theorem W4_arg2 (c : Dev nD) : (W4 m c (Proc.devRef .tc main_arg2) : S16384.Idx → EReal) = w2 m c :=
  calc W4 m c (Proc.devRef .tc main_arg2)
    _ = W3 m c (Proc.devRef .tc main_arg2) := (W4_of_ne m c main_arg2 (by decide))
    _ = W2 m c (Proc.devRef .tc main_arg2) := StableHlo.after_of_writes_sub hostOps1 _ hostOps1_writes (by decide : main_arg2 ∉ hostOps1_W)
    _ = W1 m c (Proc.devRef .tc main_arg2) := (W2_of_ne m c main_arg2 (by decide))
    _ = W0 m c (Proc.devRef .tc main_arg2) := StableHlo.after_of_writes_sub hostOps0 _ hostOps0_writes (by decide : main_arg2 ∉ hostOps0_W)
    _ = m ((c : Thread nD τ).loc main_arg2) := rfl
theorem W4_arg3 (c : Dev nD) : (W4 m c (Proc.devRef .tc main_arg3) : S16384.Idx → EReal) = w3 m c :=
  calc W4 m c (Proc.devRef .tc main_arg3)
    _ = W3 m c (Proc.devRef .tc main_arg3) := (W4_of_ne m c main_arg3 (by decide))
    _ = W2 m c (Proc.devRef .tc main_arg3) := StableHlo.after_of_writes_sub hostOps1 _ hostOps1_writes (by decide : main_arg3 ∉ hostOps1_W)
    _ = W1 m c (Proc.devRef .tc main_arg3) := (W2_of_ne m c main_arg3 (by decide))
    _ = W0 m c (Proc.devRef .tc main_arg3) := StableHlo.after_of_writes_sub hostOps0 _ hostOps0_writes (by decide : main_arg3 ∉ hostOps0_W)
    _ = m ((c : Thread nD τ).loc main_arg3) := rfl
/-- The reshaped first row: no window's array of the second call, and the reshape's result of the first row. -/
theorem W4_v9 (c : Dev nD) : (W4 m c (Proc.devRef .tc main_v9) : S16384.Idx → EReal) = shapeCast S16384 (row8 m c) shapeCasts_S1x16384_S16384 := by
  refine (W4_of_ne m c main_v9 (by decide)).trans ?_
  show StableHlo.after hostOps1 (W2 m c) (Proc.devRef .tc main_v9) = _
  after_results
  exact congrArg (fun r : S1x16384.Idx → EReal => shapeCast S16384 r shapeCasts_S1x16384_S16384) (W2_v8 m c)

/-- The result buffer after the tail's operations is their term over those four buffers, which is the reference's tail
    function of them, operation for operation. -/
theorem final_val (c : Dev nD) :
    (W5 m c (Proc.devRef .tc main_v24) : S_.Idx → EReal)
      = Cert.ReferenceIdeal.RefVal.tailOf (w2 m c) (w3 m c) (shapeCast S16384 (row8 m c) shapeCasts_S1x16384_S16384) (shapeCast S16384 (row10 m c) shapeCasts_S1x16384_S16384) := by
  show StableHlo.after hostOps2 (W4 m c) (Proc.devRef .tc main_v24) = _
  after_results_simp
  rw [W4_arg2 m c, W4_arg3 m c, W4_v9 m c, W4_v10 m c]
  rfl

end Cert.KernelIdeal.Hand

end
-- ==== Proof.Val.Ref.lean ====
/-
  The reference's two directed minima read at an index. Its pairwise matrix is D[p,g] = max(P2[p] + G2[g] - 2·Σ_k A[p,k]·B[g,k], 0)
  with P2, G2 the host's row sums of squares; reducing it along g (resp. along p) from +inf gives, at p (resp. at g), the
  minimum of the clamped squared distances over the other cloud.
-/
import proofs.«130439_j26027501814344_1_alg».proof.Proof.Gen.ReferenceIdeal.Read
import proofs.«130439_j26027501814344_1_alg».proof.Proof.Val.Spec
import Idealize.ShloMosaic.PureOps.Reduce

set_option maxRecDepth 16384

noncomputable section

open scoped BigOperators

namespace Cert.ReferenceIdeal.RefVal

open Idealize.ShloMosaic Idealize.ShloMosaic.ValueIdx Cert.ReferenceIdeal Cert.ReferenceIdeal.Gen Cert.ReferenceIdeal.Read Cert.Spec

/-! ## Where each operand of D[p,g] is read

The matrix entry (p, g) reads the first cloud's row sum at p (through a column broadcast, then a broadcast along g), the
second cloud's row sum at g (through a row broadcast, then a broadcast along p), and in the k-th product of the
contraction the first cloud at (p, k) and the transposed second cloud at (k, g), which is the second cloud at (g, k). -/

/-- The first row sum is read at p. -/
theorem read_p (p g : Fin 16384) : idx_main_v4 (idx_main_v6 (ix2 p g)) = ix1 p :=
  funext fun a => Fin.ext (by match a with | ⟨0, _⟩ => rfl)

/-- The second row sum is read at g. -/
theorem read_g (p g : Fin 16384) : idx_main_v5 (idx_main_v7 (ix2 p g)) = ix1 g :=
  funext fun a => Fin.ext (by match a with | ⟨0, _⟩ => rfl)

/-- The k-th product's left factor is the first cloud at (p, k). -/
theorem read_l (p g : Fin 16384) (k : Fin 3) : lidx_main_v10 (ix2 p g) k = ix2 p k :=
  funext fun a => Fin.ext (by match a with | ⟨0, _⟩ => rfl | ⟨1, _⟩ => rfl)

/-- The k-th product's right factor, the transpose at (k, g), is the second cloud at (g, k). -/
theorem read_r (p g : Fin 16384) (k : Fin 3) : idx_main_v9 (ridx_main_v10 (ix2 p g) k) = ix2 g k :=
  funext fun a => Fin.ext (by match a with | ⟨0, _⟩ => rfl | ⟨1, _⟩ => rfl)

/-- The pairwise matrix at (p, g) is the clamped squared distance between point p of the first cloud and point g of the
    second, with the host's row sums of squares as the per-point numbers: over the extended reals the float operations
    are max, -, +, * themselves, so once every operand is read at its index the two sides are the same term. -/
theorem matrix_at (x0 x1 : (⟨S16384x3, .f32⟩ : BufTy).Contents (Elt Ideal)) (p g : Fin 16384) :
    (val_main_v15 (F := Ideal) x0 x1 : S16384x16384.Idx → EReal) (ix2 p g)
      = d2 x0 x1 (fun p => (val_main_v1 (F := Ideal) x0 : S16384.Idx → EReal) (ix1 p)) (fun g => (val_main_v3 (F := Ideal) x1 : S16384.Idx → EReal) (ix1 g)) p g := by
  rw [val_main_v15_apply, val_main_v13_apply, val_main_v8_apply, val_main_v6_apply, val_main_v4_apply,
    val_main_v7_apply, val_main_v5_apply, val_main_v12_apply, val_main_v11_apply, val_main_cst_1_apply,
    val_main_v10_apply, val_main_v14_apply, val_main_cst_2_apply, read_p, read_g]
  have hs : (∑ k : Fin 3, x0 (lidx_main_v10 (ix2 p g) k) * val_main_v9 (F := Ideal) x1 (ridx_main_v10 (ix2 p g) k))
      = ∑ k : Fin 3, x0 (ix2 p k) * x1 (ix2 g k) :=
    Finset.sum_congr rfl fun k _ => by rw [val_main_v9_apply, read_l, read_r]
  rw [hs]
  rfl

/-! ## A reduction over one axis is a minimum over that axis's coordinates

min on the extended reals commutes and associates, so the host's reduction at an index is the fold of min, from the
initial value +inf, over the coordinates of the dropped axis; the matrix is read at the kept index with that coordinate
inserted: (p, g) when the second axis is dropped at p, and again (p, g) when the first axis is dropped at g. -/

theorem drops_second : S16384x16384.Reduces [1] S16384 := by decide
theorem drops_first : S16384x16384.Reduces [0] S16384 := by decide

/-- Inserting g on the second axis over p gives (p, g). -/
theorem insert_second (p g : Fin 16384) : drops_second.lift (ix1 p) g = ix2 p g :=
  funext fun a => Fin.ext (by match a with | ⟨0, _⟩ => rfl | ⟨1, _⟩ => rfl)

/-- Inserting p on the first axis over g gives (p, g). -/
theorem insert_first (p g : Fin 16384) : drops_first.lift (ix1 g) p = ix2 p g :=
  funext fun a => Fin.ext (by match a with | ⟨0, _⟩ => rfl | ⟨1, _⟩ => rfl)

/-- Row p of the matrix reduced along g: the minimum over the second cloud. -/
theorem ref_min_pred (x0 x1 : (⟨S16384x3, .f32⟩ : BufTy).Contents (Elt Ideal)) (p : Fin 16384) :
    (val_main_v16 (F := Ideal) x0 x1 : S16384.Idx → EReal) (ix1 p)
      = minOver x0 x1 (fun p => (val_main_v1 (F := Ideal) x0 : S16384.Idx → EReal) (ix1 p)) (fun g => (val_main_v3 (F := Ideal) x1 : S16384.Idx → EReal) (ix1 g)) p := by
  unfold val_main_v16
  refine (Host.reduce_eq_fold_single (FloatOps.minimumf (F := Ideal) (φ := .f32)) (val_main_v15 (F := Ideal) x0 x1)
    (val_main_cst_3 (F := Ideal)) reducesTo_S16384x16384_S16384_d1 drops_second h_S_ (ix1 p)).trans ?_
  unfold minOver
  show Finset.fold min TOP (fun g : Fin 16384 => (val_main_v15 (F := Ideal) x0 x1 : S16384x16384.Idx → EReal) (drops_second.lift (ix1 p) g)) Finset.univ = _
  refine Finset.fold_congr fun g _ => ?_
  rw [insert_second]
  exact matrix_at x0 x1 p g

/-- Column g of the matrix reduced along p: the minimum over the first cloud, which is the same minimum with the two
    clouds' roles swapped. -/
theorem ref_min_gt (x0 x1 : (⟨S16384x3, .f32⟩ : BufTy).Contents (Elt Ideal)) (g : Fin 16384) :
    (val_main_v17 (F := Ideal) x0 x1 : S16384.Idx → EReal) (ix1 g)
      = minOver x1 x0 (fun g => (val_main_v3 (F := Ideal) x1 : S16384.Idx → EReal) (ix1 g)) (fun p => (val_main_v1 (F := Ideal) x0 : S16384.Idx → EReal) (ix1 p)) g := by
  unfold val_main_v17
  refine (Host.reduce_eq_fold_single (FloatOps.minimumf (F := Ideal) (φ := .f32)) (val_main_v15 (F := Ideal) x0 x1)
    (val_main_cst_4 (F := Ideal)) reducesTo_S16384x16384_S16384_d0 drops_first h_S_ (ix1 g)).trans ?_
  unfold minOver
  show Finset.fold min TOP (fun p : Fin 16384 => (val_main_v15 (F := Ideal) x0 x1 : S16384x16384.Idx → EReal) (drops_first.lift (ix1 g) p)) Finset.univ = _
  refine Finset.fold_congr fun p _ => ?_
  rw [insert_first, matrix_at]
  exact (d2_swap _ _ _ _ _ _).symm

end Cert.ReferenceIdeal.RefVal

end
-- ==== Proof.Val.Final.lean ====
/-
  The two programs compute the same scalar. The kernel's first result row, reshaped to a vector, is the reference's
  vector of minima over the second cloud: entry p of the row is min_g d2 p g over the call's entry arrays, those arrays
  are the reference's clouds and squared norms, and the reference's row reduction is the same minimum. The second
  result row is likewise the reference's column reduction, the kernel having swapped the clouds where the reference
  reduces along the other axis (d2 is symmetric under the swap). Both programs then apply one and the same tail.
-/
import proofs.«130439_j26027501814344_1_alg».proof.Proof.KI.Main
import proofs.«130439_j26027501814344_1_alg».proof.Proof.Val.Out0
import proofs.«130439_j26027501814344_1_alg».proof.Proof.Val.Out1
import proofs.«130439_j26027501814344_1_alg».proof.Proof.Val.Glue
import proofs.«130439_j26027501814344_1_alg».proof.Proof.Val.Tail
import proofs.«130439_j26027501814344_1_alg».proof.Proof.Val.Ref
import proofs.«130439_j26027501814344_1_alg».proof.Proof.Val.RefTail

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx Cert.Spec

variable (m : (ℓ : Loc nD τ sig) → Buf (Elt Ideal) ℓ)

/-- A one-row matrix reshaped to a vector: entry p is the row's entry (0, p). -/
theorem row_read (x : S1x16384.Idx → EReal) (h : S1x16384.ShapeCasts S16384) (p : Fin 16384) :
    shapeCast S16384 x h (ix1 p) = x (ix2 0 p) :=
  shapeCast_apply x h (ix1 p) (ix2 0 p) (by rw [Shape.rowMajor_val_two, Shape.rowMajor_val_one]; simp)

/-- The first call's row is the reference's minima over the second cloud. -/
theorem minPred_eq (c : Dev nD) :
    shapeCast S16384 (row8 m c) shapeCasts_S1x16384_S16384 = Cert.ReferenceIdeal.Read.val_main_v16 (F := Ideal) (a0 m c) (a1 m c) := by
  funext i
  obtain ⟨p, rfl⟩ : ∃ p : Fin 16384, i = ix1 p := ⟨i 0, eq_ix1 i⟩
  rw [row_read]
  refine (out_R0 (V1 m) c p).trans ?_
  refine Eq.trans ?_ (Cert.ReferenceIdeal.RefVal.ref_min_pred (a0 m c) (a1 m c) p).symm
  exact congrFun (congr (congr (congr (congrArg minOver (entry0_A m c)) (entry0_B m c)) (funext (entry0_colA m c))) (funext (entry0_rowB m c))) p

/-- The second call's row is the reference's minima over the first cloud. -/
theorem minGt_eq (c : Dev nD) :
    shapeCast S16384 (row10 m c) shapeCasts_S1x16384_S16384 = Cert.ReferenceIdeal.Read.val_main_v17 (F := Ideal) (a0 m c) (a1 m c) := by
  funext i
  obtain ⟨g, rfl⟩ : ∃ g : Fin 16384, i = ix1 g := ⟨i 0, eq_ix1 i⟩
  rw [row_read]
  refine (out_R1 (V3 m) c g).trans ?_
  refine Eq.trans ?_ (Cert.ReferenceIdeal.RefVal.ref_min_gt (a0 m c) (a1 m c) g).symm
  exact congrFun (congr (congr (congr (congrArg minOver (entry1_A m c)) (entry1_B m c)) (funext (entry1_colA m c))) (funext (entry1_rowB m c))) g

/-- The kernel's result buffer ends at the reference's result term of the same arguments. -/
theorem kernel_result (c : Dev nD) :
    (W5 m c (Proc.devRef .tc main_v24) : S_.Idx → EReal) = Cert.ReferenceIdeal.Read.val_main_v30 (F := Ideal) (a0 m c) (a1 m c) (w2 m c) (w3 m c) := by
  rw [final_val m c, minPred_eq m c, minGt_eq m c]
  exact (Cert.ReferenceIdeal.RefVal.result_eq_tail _ _ _ _).symm

end Cert.KernelIdeal.Hand

end
-- ==== Proof.lean ====
/-
  The certificate of a bidirectional Chamfer distance kernel against its jnp reference.

  The kernel computes the squared norms of both point clouds on the host, then runs one Pallas kernel twice — once per
  direction — on a 16 x 16 grid: for each block of 1024 points of its first cloud it sweeps the 16 blocks of the second,
  keeping in a scratch row the running minimum of max(|a|² + |b|² - 2 a·b, 0) (reset to +inf at the sweep's first step,
  stored to the output at its last), and finally forms the two weighted means on the host. The reference builds the full
  16384 x 16384 matrix and reduces it along each axis.

  Frames (Proof/KI for the idealized program, Proof/K the same text for the word-level one): each step of the kernel is
  a Hoare triple (Body), the scratch row's contents after every grid point are a recursion over the points (Data), and
  the two calls are chained with the host stretches, the unscoped buffers' contents followed from launch to return
  (Main) — so the argument arrays, which nothing writes, end as launched. The reference's frame is its generated run.
  Value (Proof/Val): over the extended reals the scratch row after step j of a sweep is the minimum over the first
  1024·(j+1) points of the second cloud (Out, from the step's value at an index, Pay, and the blocks' positions, Blocks),
  so each result row is the reference's reduction of its matrix along one axis (Ref; the second call swaps the clouds,
  and the clamped distance is symmetric under the swap); the host arithmetic around the calls is the reference's own
  (Glue, Tail, RefTail). The law that joins the sides is only that a minimum taken block by block is the minimum
  (associativity and commutativity of min, of + and of ·): no finiteness is used.
-/
import proofs.«130439_j26027501814344_1_alg».proof.Defs
import proofs.«130439_j26027501814344_1_alg».proof.Proof.Gen.Kernel
import proofs.«130439_j26027501814344_1_alg».proof.Proof.Gen.KernelIdeal
import proofs.«130439_j26027501814344_1_alg».proof.Proof.Gen.ReferenceIdeal
import proofs.«130439_j26027501814344_1_alg».proof.Proof.Gen.ReferenceIdeal.Run
import proofs.«130439_j26027501814344_1_alg».proof.Proof.Gen.ReferenceIdeal.Read
import proofs.«130439_j26027501814344_1_alg».proof.Proof.Gen.Pre_finite_inputs
import proofs.«130439_j26027501814344_1_alg».proof.Proof.K.Main
import proofs.«130439_j26027501814344_1_alg».proof.Proof.KI.Main
import proofs.«130439_j26027501814344_1_alg».proof.Proof.Val.Final
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Hand.frameH m ρ
theorem frame_ki : Cert.frame_KernelIdeal := fun m ρ _ => Cert.KernelIdeal.Hand.frameH m ρ
theorem frame_ri : Cert.frame_ReferenceIdeal := fun m ρ _ =>
  (θ_run Cert.ReferenceIdeal.defs _ _).mono (fun _ h c => (h c).2) (Cert.ReferenceIdeal.Value.run (F := Ideal) m ρ)

/-- Both idealized programs run, and end with the same scalar: the kernel's result buffer ends at the reference's result
    term of the same arguments. -/
theorem algebraic : Cert.algebraic_KernelIdeal_ReferenceIdeal := by
  intro m ρ m' ρ' _ hagree
  refine ⟨fun c => Cert.KernelIdeal.Hand.W5 m c (Proc.devRef .tc Cert.KernelIdeal.main_v24), ?_, ?_⟩
  · exact (θ_run Cert.KernelIdeal.defs _ _).mono (fun r h c =>
      ⟨h c _ (Cert.KernelIdeal.Hand.mem_uc Cert.KernelIdeal.main_v24 (by decide)),
       (h c _ (Cert.KernelIdeal.Hand.mem_uc Cert.KernelIdeal.main_arg0 (by decide))).trans (Cert.KernelIdeal.Hand.W5_main_arg0 m c),
       (h c _ (Cert.KernelIdeal.Hand.mem_uc Cert.KernelIdeal.main_arg1 (by decide))).trans (Cert.KernelIdeal.Hand.W5_main_arg1 m c),
       (h c _ (Cert.KernelIdeal.Hand.mem_uc Cert.KernelIdeal.main_arg2 (by decide))).trans (Cert.KernelIdeal.Hand.W5_main_arg2 m c),
       (h c _ (Cert.KernelIdeal.Hand.mem_uc Cert.KernelIdeal.main_arg3 (by decide))).trans (Cert.KernelIdeal.Hand.W5_main_arg3 m c)⟩)
      (Cert.KernelIdeal.Hand.run_all m ρ)
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2.1, (hagree c).2.2.2]
    exact (Cert.ReferenceIdeal.Read.val_main_v30_eq _ _ _ _).trans (Cert.KernelIdeal.Hand.kernel_result m c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
